-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg25 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S256 .f32) (main_arg22 : FVec F S128x256 .f32) (main_arg23 : FVec F S128 .f32) (main_arg24 : FVec F S128x128 .f32) (main_arg25 : FVec F S128 .f32) (main_v98 : IVec S_ 1) (main_v101 : IVec S256x192 1) (main_c_39 : IVec S_ 1) : IVec S_ 1 :=
  let main_v102 : IVec S_ 1 := (fun x v => Host.reduce IntOp.andi x v reducesTo_S256x192_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x256 .f32 := Host.absf main_arg22
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg24
  fn_part7 (F := F) main_arg25 main_v118 main_v119

def fn_part5 {F : FTy → Type} [FloatOps F] (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S10x128 .f32 := Host.absf main_arg18
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S256x192 .f32 := Host.absf main_arg20
  let main_cst_38 : FVec F S_ .f32 := constant S_ .f32 0x7F800000#32
  let main_v100 : FVec F S256x192 .f32 := broadcastInDim S256x192 ![] bcast_S_S256x192 main_cst_38
  let main_v101 : IVec S256x192 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x192 .f32 := Host.absf main_arg6
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S192x256 : Shape := ⟨2, ![192, 256]⟩
abbrev S256x128 : Shape := ⟨2, ![256, 128]⟩
abbrev S128x10 : Shape := ⟨2, ![128, 10]⟩
abbrev S1x128 : Shape := ⟨2, ![1, 128]⟩
abbrev S200x10000 : Shape := ⟨2, ![200, 10000]⟩
abbrev S200x128 : Shape := ⟨2, ![200, 128]⟩
abbrev S10000x64 : Shape := ⟨2, ![10000, 64]⟩
abbrev S1x64 : Shape := ⟨2, ![1, 64]⟩
abbrev S64x256 : Shape := ⟨2, ![64, 256]⟩
abbrev S1x256 : Shape := ⟨2, ![1, 256]⟩
abbrev S1x10 : Shape := ⟨2, ![1, 10]⟩
abbrev S10000x10 : Shape := ⟨2, ![10000, 10]⟩
abbrev S10000x192 : Shape := ⟨2, ![10000, 192]⟩
abbrev S200x10 : Shape := ⟨2, ![200, 10]⟩
abbrev S200x192 : Shape := ⟨2, ![200, 192]⟩
abbrev S200x64 : Shape := ⟨2, ![200, 64]⟩
abbrev S200x256 : Shape := ⟨2, ![200, 256]⟩
abbrev S200 : Shape := ⟨1, ![200]⟩
abbrev S200x1 : Shape := ⟨2, ![200, 1]⟩

abbrev nBuf : Space → Nat
  | .hbm => 58
  | .vmem => 46
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S192x256, .f32⟩
  | .hbm, ⟨27, _⟩ => ⟨S256x128, .f32⟩
  | .hbm, ⟨28, _⟩ => ⟨S128x10, .f32⟩
  | .hbm, ⟨29, _⟩ => ⟨S192x256, .f32⟩
  | .hbm, ⟨30, _⟩ => ⟨S256x128, .f32⟩
  | .hbm, ⟨31, _⟩ => ⟨S128x128, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x64, .f32⟩
  | .hbm, ⟨36, _⟩ => ⟨S1x64, .f32⟩
  | .hbm, ⟨37, _⟩ => ⟨S128x256, .f32⟩
  | .hbm, ⟨38, _⟩ => ⟨S64x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x10, .f32⟩
  | .hbm, ⟨50, _⟩ => ⟨S128x256, .f32⟩
  | .hbm, ⟨51, _⟩ => ⟨S64x256, .f32⟩
  | .hbm, ⟨52, _⟩ => ⟨S1x256, .f32⟩
  | .hbm, ⟨53, _⟩ => ⟨S1x128, .f32⟩
  | .hbm, ⟨54, _⟩ => ⟨S1x128, .f32⟩
  | .hbm, ⟨55, _⟩ => ⟨S10000x10, .f32⟩
  | .hbm, ⟨56, _⟩ => ⟨S10000x128, .f32⟩
  | .hbm, ⟨57, _⟩ => ⟨S10000x192, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S200x10000, .f32⟩
  | .local _ .vmem, ⟨4, _⟩ => ⟨S200x10000, .f32⟩
  | .local _ .vmem, ⟨5, _⟩ => ⟨S10000x128, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S10000x128, .f32⟩
  | .local _ .vmem, ⟨10, _⟩ => ⟨S128x64, .f32⟩
  | .local _ .vmem, ⟨11, _⟩ => ⟨S10000x64, .f32⟩
  | .local _ .vmem, ⟨12, _⟩ => ⟨S200x10000, .f32⟩
  | .local _ .vmem, ⟨13, _⟩ => ⟨S200x10000, .f32⟩
  | .local _ .vmem, ⟨14, _⟩ => ⟨S10000x64, .f32⟩
  | .local _ .vmem, ⟨15, _⟩ => ⟨S200x128, .f32⟩
  | .local _ .vmem, ⟨16, _⟩ => ⟨S200x128, .f32⟩
  | .local _ .vmem, ⟨17, _⟩ => ⟨S1x64, .f32⟩
  | .local _ .vmem, ⟨18, _⟩ => ⟨S128x256, .f32⟩
  | .local _ .vmem, ⟨19, _⟩ => ⟨S64x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S256x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S128x10, .f32⟩
  | .local _ .vmem, ⟨32, _⟩ => ⟨S1x10, .f32⟩
  | .local _ .vmem, ⟨33, _⟩ => ⟨S128x256, .f32⟩
  | .local _ .vmem, ⟨34, _⟩ => ⟨S64x256, .f32⟩
  | .local _ .vmem, ⟨35, _⟩ => ⟨S1x256, .f32⟩
  | .local _ .vmem, ⟨36, _⟩ => ⟨S256x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S200x10, .f32⟩
  | .local _ .vmem, ⟨41, _⟩ => ⟨S200x10, .f32⟩
  | .local _ .vmem, ⟨42, _⟩ => ⟨S200x128, .f32⟩
  | .local _ .vmem, ⟨43, _⟩ => ⟨S200x128, .f32⟩
  | .local _ .vmem, ⟨44, _⟩ => ⟨S200x192, .f32⟩
  | .local _ .vmem, ⟨45, _⟩ => ⟨S200x192, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29_0 : Ref sig .tc := ⟨.hbm, 55, rfl⟩
abbrev main_v29_1 : Ref sig .tc := ⟨.hbm, 56, rfl⟩
abbrev main_v29_2 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg8_0 : Ref sig .tc := ⟨.vmem, 22, rfl⟩
abbrev cc3_stg9_0 : Ref sig .tc := ⟨.vmem, 23, rfl⟩
abbrev cc3_stg10_0 : Ref sig .tc := ⟨.vmem, 24, rfl⟩
abbrev cc3_stg11_0 : Ref sig .tc := ⟨.vmem, 25, rfl⟩
abbrev cc3_stg12_0 : Ref sig .tc := ⟨.vmem, 26, rfl⟩
abbrev cc3_stg13_0 : Ref sig .tc := ⟨.vmem, 27, rfl⟩
abbrev cc3_stg14_0 : Ref sig .tc := ⟨.vmem, 28, rfl⟩
abbrev cc3_stg15_0 : Ref sig .tc := ⟨.vmem, 29, rfl⟩
abbrev cc3_stg16_0 : Ref sig .tc := ⟨.vmem, 30, rfl⟩
abbrev cc3_stg17_0 : Ref sig .tc := ⟨.vmem, 31, rfl⟩
abbrev cc3_stg18_0 : Ref sig .tc := ⟨.vmem, 32, rfl⟩
abbrev cc3_stg19_0 : Ref sig .tc := ⟨.vmem, 33, rfl⟩
abbrev cc3_stg20_0 : Ref sig .tc := ⟨.vmem, 34, rfl⟩
abbrev cc3_stg21_0 : Ref sig .tc := ⟨.vmem, 35, rfl⟩
abbrev cc3_stg22_0 : Ref sig .tc := ⟨.vmem, 36, rfl⟩
abbrev cc3_stg23_0 : Ref sig .tc := ⟨.vmem, 37, rfl⟩
abbrev cc3_stg24_0 : Ref sig .tc := ⟨.vmem, 38, rfl⟩
abbrev cc3_stg25_0 : Ref sig .tc := ⟨.vmem, 39, rfl⟩
abbrev cc3_stg26_0 : Ref sig .tc := ⟨.vmem, 40, rfl⟩
abbrev cc3_stg26_1 : Ref sig .tc := ⟨.vmem, 41, rfl⟩
abbrev cc3_stg27_0 : Ref sig .tc := ⟨.vmem, 42, rfl⟩
abbrev cc3_stg27_1 : Ref sig .tc := ⟨.vmem, 43, rfl⟩
abbrev cc3_stg28_0 : Ref sig .tc := ⟨.vmem, 44, rfl⟩
abbrev cc3_stg28_1 : Ref sig .tc := ⟨.vmem, 45, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc3_sem3_0 : DmaSem sig := 17
abbrev cc3_sem4_0 : DmaSem sig := 18
abbrev cc3_sem5_0 : DmaSem sig := 19
abbrev cc3_sem6_0 : DmaSem sig := 20
abbrev cc3_sem7_0 : DmaSem sig := 21
abbrev cc3_sem8_0 : DmaSem sig := 22
abbrev cc3_sem9_0 : DmaSem sig := 23
abbrev cc3_sem10_0 : DmaSem sig := 24
abbrev cc3_sem11_0 : DmaSem sig := 25
abbrev cc3_sem12_0 : DmaSem sig := 26
abbrev cc3_sem13_0 : DmaSem sig := 27
abbrev cc3_sem14_0 : DmaSem sig := 28
abbrev cc3_sem15_0 : DmaSem sig := 29
abbrev cc3_sem16_0 : DmaSem sig := 30
abbrev cc3_sem17_0 : DmaSem sig := 31
abbrev cc3_sem18_0 : DmaSem sig := 32
abbrev cc3_sem19_0 : DmaSem sig := 33
abbrev cc3_sem20_0 : DmaSem sig := 34
abbrev cc3_sem21_0 : DmaSem sig := 35
abbrev cc3_sem22_0 : DmaSem sig := 36
abbrev cc3_sem23_0 : DmaSem sig := 37
abbrev cc3_sem24_0 : DmaSem sig := 38
abbrev cc3_sem25_0 : DmaSem sig := 39
abbrev cc3_sem26_0 : DmaSem sig := 40
abbrev cc3_sem26_1 : DmaSem sig := 41
abbrev cc3_sem27_0 : DmaSem sig := 42
abbrev cc3_sem27_1 : DmaSem sig := 43
abbrev cc3_sem28_0 : DmaSem sig := 44
abbrev cc3_sem28_1 : DmaSem sig := 45

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_23 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_24 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_25 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_26 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_27 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_28 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S256x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S128x10 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x10 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S128x256 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S64x256 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 1 → Memref sig .tc .vmem S1x256 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false]

abbrev stage3_22 : Fin 1 → Memref sig .tc .vmem S256x128 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false]

abbrev stage3_23 : Fin 1 → Memref sig .tc .vmem S1x128 .f32 := fun | 0 => Memref.whole cc3_stg23_0 | ⟨_ + 1, h⟩ => absurd h (Nat.not_lt.2 (Nat.le_add_left _ _))
abbrev sem3_23 : Fin 1 → DmaSem sig := fun | 0 => cc3_sem23_0 | ⟨_ + 1, h⟩ => absurd h (Nat.not_lt.2 (Nat.le_add_left _ _))
abbrev reads3_23 : Fin grid3.rank → Bool := ![false]

abbrev stage3_24 : Fin 1 → Memref sig .tc .vmem S128x128 .f32 := fun | 0 => Memref.whole cc3_stg24_0 | ⟨_ + 1, h⟩ => absurd h (Nat.not_lt.2 (Nat.le_add_left _ _))
abbrev sem3_24 : Fin 1 → DmaSem sig := fun | 0 => cc3_sem24_0 | ⟨_ + 1, h⟩ => absurd h (Nat.not_lt.2 (Nat.le_add_left _ _))
abbrev reads3_24 : Fin grid3.rank → Bool := ![false]

abbrev stage3_25 : Fin 1 → Memref sig .tc .vmem S1x128 .f32 := fun | 0 => Memref.whole cc3_stg25_0 | ⟨_ + 1, h⟩ => absurd h (Nat.not_lt.2 (Nat.le_add_left _ _))
abbrev sem3_25 : Fin 1 → DmaSem sig := fun | 0 => cc3_sem25_0 | ⟨_ + 1, h⟩ => absurd h (Nat.not_lt.2 (Nat.le_add_left _ _))
abbrev reads3_25 : Fin grid3.rank → Bool := ![false]

abbrev stage3_26 : Fin 2 → Memref sig .tc .vmem S200x10 .f32 := fun | 0 => Memref.whole cc3_stg26_0 | 1 => Memref.whole cc3_stg26_1 | ⟨_ + 2, h⟩ => absurd h (Nat.not_lt.2 (Nat.le_add_left _ _))
abbrev sem3_26 : Fin 2 → DmaSem sig := fun | 0 => cc3_sem26_0 | 1 => cc3_sem26_1 | ⟨_ + 2, h⟩ => absurd h (Nat.not_lt.2 (Nat.le_add_left _ _))
abbrev reads3_26 : Fin grid3.rank → Bool := ![true]

abbrev stage3_27 : Fin 2 → Memref sig .tc .vmem S200x128 .f32 := fun | 0 => Memref.whole cc3_stg27_0 | 1 => Memref.whole cc3_stg27_1 | ⟨_ + 2, h⟩ => absurd h (Nat.not_lt.2 (Nat.le_add_left _ _))
abbrev sem3_27 : Fin 2 → DmaSem sig := fun | 0 => cc3_sem27_0 | 1 => cc3_sem27_1 | ⟨_ + 2, h⟩ => absurd h (Nat.not_lt.2 (Nat.le_add_left _ _))
abbrev reads3_27 : Fin grid3.rank → Bool := ![true]

abbrev stage3_28 : Fin 2 → Memref sig .tc .vmem S200x192 .f32 := fun | 0 => Memref.whole cc3_stg28_0 | 1 => Memref.whole cc3_stg28_1 | ⟨_ + 2, h⟩ => absurd h (Nat.not_lt.2 (Nat.le_add_left _ _))
abbrev sem3_28 : Fin 2 → DmaSem sig := fun | 0 => cc3_sem28_0 | 1 => cc3_sem28_1 | ⟨_ + 2, h⟩ => absurd h (Nat.not_lt.2 (Nat.le_add_left _ _))
abbrev reads3_28 : Fin grid3.rank → Bool := ![true]

class Facts₀ : Prop where
  transposes_S256x192_S192x256_1_0 : S256x192.Transposes [1, 0] S192x256
  transposes_S128x256_S256x128_1_0 : S128x256.Transposes [1, 0] S256x128
  transposes_S10x128_S128x10_1_0 : S10x128.Transposes [1, 0] S128x10
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  bcast_S128_S1x128_1 : S128.BroadcastsInDim S1x128 (![1] : Fin 1 → Fin S1x128.rank)
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S64_S1x64_1 : S64.BroadcastsInDim S1x64 (![1] : Fin 1 → Fin S1x64.rank)
  slices_S192x256_S128x256_0_0 : S192x256.Slices ![0, 0] S128x256
  slices_S192x256_S64x256_128_0 : S192x256.Slices ![128, 0] S64x256
  bcast_S256_S1x256_1 : S256.BroadcastsInDim S1x256 (![1] : Fin 1 → Fin S1x256.rank)
  bcast_S10_S1x10_1 : S10.BroadcastsInDim S1x10 (![1] : Fin 1 → Fin S1x10.rank)
  shapeCasts_S200x128_S200x128 : S200x128.ShapeCasts S200x128
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x192_S200x128_0_0 : ∀ a, (![0, 0] : Fin 2 → Nat) a + S200x128.size a ≤ S200x192.size a
  inb_S200x192_S200x64_0_128 : ∀ a, (![0, 128] : Fin 2 → Nat) a + S200x64.size a ≤ S200x192.size a
  h_S200x64 : 0 < S200x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S200x10 : S1x10.Broadcasts S200x10
  reduces_S200x10_S200 : S200x10.Reduces [1] S200
  shapeCasts_S200_S200x1 : S200.ShapeCasts S200x1
  broadcasts_S200x1_S200x10 : S200x1.Broadcasts S200x10
  inb_S200x10_S200x10_0_0 : ∀ a, (![0, 0] : Fin 2 → Nat) a + S200x10.size a ≤ S200x10.size a
  h_S200x10 : 0 < S200x10.numel
  shapeCasts_S128x128_S128x128 : S128x128.ShapeCasts S128x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x128_S128x256_S200x256_1_0_0_1_n_n_wf : DotDims.WF S200x128 S128x256 S200x256 [1] [0] [0] [1] [] []
  dot_S200x64_S64x256_S200x256_1_0_0_1_n_n_wf : DotDims.WF S200x64 S64x256 S200x256 [1] [0] [0] [1] [] []
  dot_S200x256_S256x128_S200x128_1_0_0_1_n_n_wf : DotDims.WF S200x256 S256x128 S200x128 [1] [0] [0] [1] [] []
  dot_S200x128_S128x10_S200x10_1_0_0_1_n_n_wf : DotDims.WF S200x128 S128x10 S200x10 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x128.size a ≤ S10000x128.size a
  hwx1_3 : ∀ i : grid1.Coords, EltTy.bits .f32 = 32 ∨ (Rect.block (s := S10000x128) S200x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .f32 = 32 ∨ (Rect.block (s := S10000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S10000x64.size a
  hwx2_2 : ∀ i : grid2.Coords, EltTy.bits .f32 = 32 ∨ (Rect.block (s := S10000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x128.size a ≤ S10000x128.size a
  hwx3_2 : ∀ i : grid3.Coords, EltTy.bits .f32 = 32 ∨ (Rect.block (s := S10000x128) S200x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x256.size a ≤ S64x256.size a
  hwx3_5 : ∀ i : grid3.Coords, EltTy.bits .f32 = 32 ∨ (Rect.block (s := S64x256) S64x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S256x128.size a ≤ S256x128.size a
  hwx3_11 : ∀ i : grid3.Coords, EltTy.bits .f32 = 32 ∨ (Rect.block (s := S256x128) S256x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x128.size a ≤ S1x128.size a
  hwx3_13 : ∀ i : grid3.Coords, EltTy.bits .f32 = 32 ∨ (Rect.block (s := S1x128) S1x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x128.size a ≤ S1x128.size a
  hwx3_14 : ∀ i : grid3.Coords, EltTy.bits .f32 = 32 ∨ (Rect.block (s := S1x128) S1x128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x128.size a ≤ S1x128.size a
  hwx3_15 : ∀ i : grid3.Coords, EltTy.bits .f32 = 32 ∨ (Rect.block (s := S1x128) S1x128.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x128.size a ≤ S1x128.size a
  hwx3_16 : ∀ i : grid3.Coords, EltTy.bits .f32 = 32 ∨ (Rect.block (s := S1x128) S1x128.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S128x10.size a ≤ S128x10.size a
  hwx3_17 : ∀ i : grid3.Coords, EltTy.bits .f32 = 32 ∨ (Rect.block (s := S128x10) S128x10.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S1x10.size a ≤ S1x10.size a
  hwx3_18 : ∀ i : grid3.Coords, EltTy.bits .f32 = 32 ∨ (Rect.block (s := S1x10) S1x10.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S128x256.size a ≤ S128x256.size a
  hwx3_19 : ∀ i : grid3.Coords, EltTy.bits .f32 = 32 ∨ (Rect.block (s := S128x256) S128x256.size (cc3_transform_19 i) (hinb3_19 i)).WholeWords (EltTy.packing .f32)
  hstage3_20 : ∀ j, (stage3_20 j).IsWhole
  nbuf3_20 : grid3.bufCount reads3_20 true = 1
  hreads3_20 : ∀ i i' : grid3.Coords, (∀ a, reads3_20 a = true → i a = i' a) → cc3_transform_20 i = cc3_transform_20 i'
  hinb3_20 : ∀ (i : grid3.Coords) a, (cc3_transform_20 i a + 1) * S64x256.size a ≤ S64x256.size a
  hwx3_20 : ∀ i : grid3.Coords, EltTy.bits .f32 = 32 ∨ (Rect.block (s := S64x256) S64x256.size (cc3_transform_20 i) (hinb3_20 i)).WholeWords (EltTy.packing .f32)
  hstage3_21 : ∀ j, (stage3_21 j).IsWhole
  nbuf3_21 : grid3.bufCount reads3_21 true = 1
  hreads3_21 : ∀ i i' : grid3.Coords, (∀ a, reads3_21 a = true → i a = i' a) → cc3_transform_21 i = cc3_transform_21 i'
  hinb3_21 : ∀ (i : grid3.Coords) a, (cc3_transform_21 i a + 1) * S1x256.size a ≤ S1x256.size a
  hwx3_21 : ∀ i : grid3.Coords, EltTy.bits .f32 = 32 ∨ (Rect.block (s := S1x256) S1x256.size (cc3_transform_21 i) (hinb3_21 i)).WholeWords (EltTy.packing .f32)
  hstage3_22 : ∀ j, (stage3_22 j).IsWhole
  nbuf3_22 : grid3.bufCount reads3_22 true = 1
  hreads3_22 : ∀ i i' : grid3.Coords, (∀ a, reads3_22 a = true → i a = i' a) → cc3_transform_22 i = cc3_transform_22 i'
  hinb3_22 : ∀ (i : grid3.Coords) a, (cc3_transform_22 i a + 1) * S256x128.size a ≤ S256x128.size a
  hwx3_22 : ∀ i : grid3.Coords, EltTy.bits .f32 = 32 ∨ (Rect.block (s := S256x128) S256x128.size (cc3_transform_22 i) (hinb3_22 i)).WholeWords (EltTy.packing .f32)
  hstage3_23 : ∀ j, (stage3_23 j).IsWhole
  nbuf3_23 : grid3.bufCount reads3_23 true = 1
  hreads3_23 : ∀ i i' : grid3.Coords, (∀ a, reads3_23 a = true → i a = i' a) → cc3_transform_23 i = cc3_transform_23 i'
  hinb3_23 : ∀ (i : grid3.Coords) a, (cc3_transform_23 i a + 1) * S1x128.size a ≤ S1x128.size a
  hwx3_23 : ∀ i : grid3.Coords, EltTy.bits .f32 = 32 ∨ (Rect.block (s := S1x128) S1x128.size (cc3_transform_23 i) (hinb3_23 i)).WholeWords (EltTy.packing .f32)
  hstage3_24 : ∀ j, (stage3_24 j).IsWhole
  nbuf3_24 : grid3.bufCount reads3_24 true = 1
  hreads3_24 : ∀ i i' : grid3.Coords, (∀ a, reads3_24 a = true → i a = i' a) → cc3_transform_24 i = cc3_transform_24 i'
  hinb3_24 : ∀ (i : grid3.Coords) a, (cc3_transform_24 i a + 1) * S128x128.size a ≤ S128x128.size a
  hwx3_24 : ∀ i : grid3.Coords, EltTy.bits .f32 = 32 ∨ (Rect.block (s := S128x128) S128x128.size (cc3_transform_24 i) (hinb3_24 i)).WholeWords (EltTy.packing .f32)
  hstage3_25 : ∀ j, (stage3_25 j).IsWhole
  nbuf3_25 : grid3.bufCount reads3_25 true = 1
  hreads3_25 : ∀ i i' : grid3.Coords, (∀ a, reads3_25 a = true → i a = i' a) → cc3_transform_25 i = cc3_transform_25 i'
  hinb3_25 : ∀ (i : grid3.Coords) a, (cc3_transform_25 i a + 1) * S1x128.size a ≤ S1x128.size a
  hwx3_25 : ∀ i : grid3.Coords, EltTy.bits .f32 = 32 ∨ (Rect.block (s := S1x128) S1x128.size (cc3_transform_25 i) (hinb3_25 i)).WholeWords (EltTy.packing .f32)
  hstage3_26 : ∀ j, (stage3_26 j).IsWhole
  nbuf3_26 : grid3.bufCount reads3_26 false = 2
  hreads3_26 : ∀ i i' : grid3.Coords, (∀ a, reads3_26 a = true → i a = i' a) → cc3_transform_26 i = cc3_transform_26 i'
  hinb3_26 : ∀ (i : grid3.Coords) a, (cc3_transform_26 i a + 1) * S200x10.size a ≤ S10000x10.size a
  hwx3_26 : ∀ i : grid3.Coords, EltTy.bits .f32 = 32 ∨ (Rect.block (s := S10000x10) S200x10.size (cc3_transform_26 i) (hinb3_26 i)).WholeWords (EltTy.packing .f32)
  hstage3_27 : ∀ j, (stage3_27 j).IsWhole
  nbuf3_27 : grid3.bufCount reads3_27 false = 2
  hreads3_27 : ∀ i i' : grid3.Coords, (∀ a, reads3_27 a = true → i a = i' a) → cc3_transform_27 i = cc3_transform_27 i'
  hinb3_27 : ∀ (i : grid3.Coords) a, (cc3_transform_27 i a + 1) * S200x128.size a ≤ S10000x128.size a
  hwx3_27 : ∀ i : grid3.Coords, EltTy.bits .f32 = 32 ∨ (Rect.block (s := S10000x128) S200x128.size (cc3_transform_27 i) (hinb3_27 i)).WholeWords (EltTy.packing .f32)
  hstage3_28 : ∀ j, (stage3_28 j).IsWhole
  nbuf3_28 : grid3.bufCount reads3_28 false = 2
  hreads3_28 : ∀ i i' : grid3.Coords, (∀ a, reads3_28 a = true → i a = i' a) → cc3_transform_28 i = cc3_transform_28 i'
  hinb3_28 : ∀ (i : grid3.Coords) a, (cc3_transform_28 i a + 1) * S200x192.size a ≤ S10000x192.size a
  hwx3_28 : ∀ i : grid3.Coords, EltTy.bits .f32 = 32 ∨ (Rect.block (s := S10000x192) S200x192.size (cc3_transform_28 i) (hinb3_28 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S200x64_S64x256_S200x256_1_0_0_1_n_n : DotDims S200x64 S64x256 S200x256 where
  lhsContracting := [1]
  rhsContracting := [0]
  lhsNonContracting := [0]
  rhsNonContracting := [1]
  lhsBatch := []
  rhsBatch := []
  wf := dot_S200x64_S64x256_S200x256_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def dot_S200x128_S128x10_S200x10_1_0_0_1_n_n : DotDims S200x128 S128x10 S200x10 where
  lhsContracting := [1]
  rhsContracting := [0]
  lhsNonContracting := [0]
  rhsNonContracting := [1]
  lhsBatch := []
  rhsBatch := []
  wf := dot_S200x128_S128x10_S200x10_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S10000x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S200x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v12) S64x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v14) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v15) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v16) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v17) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v1) S256x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v18) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v19) S1x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v20) S1x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v21) S1x128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v22) S1x128.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v2) S128x10.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v23) S1x10.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v24) S128x256.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v25) S64x256.size cc3_transform_20 reads3_20 false true 1 stage3_20 sem3_20
    hrank3 hreads3_20 hinb3_20 nbuf3_20 (Memref.isWhole_whole _) hwx3_20 hstage3_20

abbrev win3_21 : Pipeline.Window sig grid3 :=
  Pipeline.Window.ofSpec (Memref.whole main_v26) S1x256.size cc3_transform_21 reads3_21 false true 1 stage3_21 sem3_21
    hrank3 hreads3_21 hinb3_21 nbuf3_21 (Memref.isWhole_whole _) hwx3_21 hstage3_21

abbrev win3_22 : Pipeline.Window sig grid3 :=
  Pipeline.Window.ofSpec (Memref.whole main_v4) S256x128.size cc3_transform_22 reads3_22 false true 1 stage3_22 sem3_22
    hrank3 hreads3_22 hinb3_22 nbuf3_22 (Memref.isWhole_whole _) hwx3_22 hstage3_22

abbrev win3_23 : Pipeline.Window sig grid3 :=
  Pipeline.Window.ofSpec (Memref.whole main_v27) S1x128.size cc3_transform_23 reads3_23 false true 1 stage3_23 sem3_23
    hrank3 hreads3_23 hinb3_23 nbuf3_23 (Memref.isWhole_whole _) hwx3_23 hstage3_23

abbrev win3_24 : Pipeline.Window sig grid3 :=
  Pipeline.Window.ofSpec (Memref.whole main_v5) S128x128.size cc3_transform_24 reads3_24 false true 1 stage3_24 sem3_24
    hrank3 hreads3_24 hinb3_24 nbuf3_24 (Memref.isWhole_whole _) hwx3_24 hstage3_24

abbrev win3_25 : Pipeline.Window sig grid3 :=
  Pipeline.Window.ofSpec (Memref.whole main_v28) S1x128.size cc3_transform_25 reads3_25 false true 1 stage3_25 sem3_25
    hrank3 hreads3_25 hinb3_25 nbuf3_25 (Memref.isWhole_whole _) hwx3_25 hstage3_25

abbrev win3_26 : Pipeline.Window sig grid3 :=
  Pipeline.Window.ofSpec (Memref.whole main_v29_0) S200x10.size cc3_transform_26 reads3_26 true false 2 stage3_26 sem3_26
    hrank3 hreads3_26 hinb3_26 nbuf3_26 (Memref.isWhole_whole _) hwx3_26 hstage3_26

abbrev win3_27 : Pipeline.Window sig grid3 :=
  Pipeline.Window.ofSpec (Memref.whole main_v29_1) S200x128.size cc3_transform_27 reads3_27 true false 2 stage3_27 sem3_27
    hrank3 hreads3_27 hinb3_27 nbuf3_27 (Memref.isWhole_whole _) hwx3_27 hstage3_27

abbrev win3_28 : Pipeline.Window sig grid3 :=
  Pipeline.Window.ofSpec (Memref.whole main_v29_2) S200x192.size cc3_transform_28 reads3_28 true false 2 stage3_28 sem3_28
    hrank3 hreads3_28 hinb3_28 nbuf3_28 (Memref.isWhole_whole _) hwx3_28 hstage3_28

abbrev win3 : Fin 29 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | 25 => win3_25 | 26 => win3_26 | 27 => win3_27 | 28 => win3_28 | ⟨_ + 29, h⟩ => absurd h (Nat.not_lt.2 (Nat.le_add_left _ _))
abbrev spec3 : Fin 29 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x192 : Shape := ⟨2, ![10000, 192]⟩
abbrev S192x256 : Shape := ⟨2, ![192, 256]⟩
abbrev S10000x256 : Shape := ⟨2, ![10000, 256]⟩
abbrev S1x256 : Shape := ⟨2, ![1, 256]⟩
abbrev S_ : Shape := ⟨0, ![]⟩
abbrev S256x128 : Shape := ⟨2, ![256, 128]⟩
abbrev S128x10 : Shape := ⟨2, ![128, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 128
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x64, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S192x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S10000x256, .f32⟩
  | .hbm, ⟨53, _⟩ => ⟨S10000x256, .f32⟩
  | .hbm, ⟨54, _⟩ => ⟨S1x256, .f32⟩
  | .hbm, ⟨55, _⟩ => ⟨S10000x256, .f32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S10000x256, .f32⟩
  | .hbm, ⟨62, _⟩ => ⟨S10000x256, .f32⟩
  | .hbm, ⟨63, _⟩ => ⟨S256x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | .hbm, ⟨84, _⟩ => ⟨S_, .f32⟩
  | .hbm, ⟨85, _⟩ => ⟨S10000x128, .f32⟩
  | .hbm, ⟨86, _⟩ => ⟨S10000x128, .f32⟩
  | .hbm, ⟨87, _⟩ => ⟨S128x10, .f32⟩
  | .hbm, ⟨88, _⟩ => ⟨S10000x10, .f32⟩
  | .hbm, ⟨89, _⟩ => ⟨S1x10, .f32⟩
  | .hbm, ⟨90, _⟩ => ⟨S10000x10, .f32⟩
  | .hbm, ⟨91, _⟩ => ⟨S10000x10, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x10, .f32⟩
  | .hbm, ⟨99, _⟩ => ⟨S10000x10, .f32⟩
  | .hbm, ⟨100, _⟩ => ⟨S10000x10, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x1, .f32⟩
  | .hbm, ⟨105, _⟩ => ⟨S10000x10, .f32⟩
  | .hbm, ⟨106, _⟩ => ⟨S10000x10, .f32⟩
  | .hbm, ⟨107, _⟩ => ⟨S192x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S_, .f32⟩
  | .hbm, ⟨113, _⟩ => ⟨S10000x256, .f32⟩
  | .hbm, ⟨114, _⟩ => ⟨S10000x256, .f32⟩
  | .hbm, ⟨115, _⟩ => ⟨S256x128, .f32⟩
  | .hbm, ⟨116, _⟩ => ⟨S10000x128, .f32⟩
  | .hbm, ⟨117, _⟩ => ⟨S1x128, .f32⟩
  | .hbm, ⟨118, _⟩ => ⟨S10000x128, .f32⟩
  | .hbm, ⟨119, _⟩ => ⟨S10000x128, .f32⟩
  | .hbm, ⟨120, _⟩ => ⟨S_, .f32⟩
  | .hbm, ⟨121, _⟩ => ⟨S10000x128, .f32⟩
  | .hbm, ⟨122, _⟩ => ⟨S10000x128, .f32⟩
  | .hbm, ⟨123, _⟩ => ⟨S128x128, .f32⟩
  | .hbm, ⟨124, _⟩ => ⟨S10000x128, .f32⟩
  | .hbm, ⟨125, _⟩ => ⟨S1x128, .f32⟩
  | .hbm, ⟨126, _⟩ => ⟨S10000x128, .f32⟩
  | .hbm, ⟨127, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call3_cst : Ref sig .tc := ⟨.hbm, 112, rfl⟩
abbrev main_call3_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_cst : Ref sig .tc := ⟨.hbm, 120, rfl⟩
abbrev main_call4_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  concatenates_S10000x128_S10000x64_S10000x192_d1 : Shape.Concatenates [S10000x128, S10000x64] S10000x192 1
  transposes_S256x192_S192x256_1_0 : S256x192.Transposes [1, 0] S192x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S256 : S_.BroadcastsInDim S256 (![] : Fin 0 → Fin S256.rank)
  bcast_S_S10000x256 : S_.BroadcastsInDim S10000x256 (![] : Fin 0 → Fin S10000x256.rank)
  transposes_S128x256_S256x128_1_0 : S128x256.Transposes [1, 0] S256x128
  bcast_S_S128 : S_.BroadcastsInDim S128 (![] : Fin 0 → Fin S128.rank)
  bcast_S_S10000x128 : S_.BroadcastsInDim S10000x128 (![] : Fin 0 → Fin S10000x128.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x256_S10000x256_1_0_0_1_n_n_wf : DotDims.WF S10000x192 S192x256 S10000x256 [1] [0] [0] [1] [] []
  dot_S10000x256_S256x128_S10000x128_1_0_0_1_n_n_wf : DotDims.WF S10000x256 S256x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x256_S10000x256_1_0_0_1_n_n : DotDims S10000x192 S192x256 S10000x256 where
  lhsContracting := [1]
  rhsContracting := [0]
  lhsNonContracting := [0]
  rhsNonContracting := [1]
  lhsBatch := []
  rhsBatch := []
  wf := dot_S10000x192_S192x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.Spec.lean ====
/-
  The mathematics both programs compute, index by index, on the extended reals.

  Two graph-convolution layers over a dense adjacency matrix A (n × n):
      H₁ = tanh (A · (X · W₁) + b₁),   H₂ = tanh (A · (H₁ · W₂) + b₂),   Z = [H₁ | H₂]   (columns side by side),
  and two heads applied to Z row by row:
      classifier      log-softmax (relu (bn₂ (relu (bn₁ (Z·C₁ᵀ + c₁)) · C₂ᵀ + c₂)) · C₃ᵀ + c₃),
      reconstruction  relu (relu (Z·R₁ᵀ + r₁) · R₂ᵀ + r₂) · R₃ᵀ + r₃,
  where bn (v) = (v − μ) / √(σ² + ε) · γ + β column by column, with ε the one float literal of the program.

  A linear layer is written V · B + b with B the weight matrix ALREADY transposed (`linM`); `tr` is the
  transposition, so the layer with weights W is `linM V (tr W) b`.

  Every stage of the two heads, and the column concatenation, acts on each ROW by itself: row p of the result
  depends on row p of the operand only. So the stages are stated for any number m of rows, and a block of rows
  of the whole result is the result of that block of rows (`RowEq` and the lemmas named `…_rowEq`). The other
  fact used later is that a sum over 192 columns is the sum over the first 128 plus the sum over the last 64
  (`sum_192`): it needs only that addition on the extended reals is commutative and associative. With it the
  first layer of each head on [H₁ | H₂] is H₁ · (top 128 rows of B) + H₂ · (bottom 64 rows of B) + b (`linM_cat`).
-/
import Idealize.ShloMosaic.PureOps.Ideal
import Idealize.ShloMosaic.Lib.ValueIdx

noncomputable section

open scoped BigOperators

namespace Cert.Spec

open Idealize.ShloMosaic Idealize.ShloMosaic.ValueIdx

/-- An a × b array of extended reals. -/
abbrev Mat (a b : Nat) : Type := (⟨2, ![a, b]⟩ : Shape).Idx → EReal
/-- A vector of a extended reals. -/
abbrev Row (a : Nat) : Type := (⟨1, ![a]⟩ : Shape).Idx → EReal

/-- The variance offset ε of both batch normalisations: the value of the float literal, the same word in both programs. -/
abbrev eps : EReal := Ideal.ofBits .f32 0x3727C5AC#32
/-- The value the row maximum starts from: the word of −∞. -/
abbrev negInf : EReal := Ideal.ofBits .f32 0xFF800000#32

variable {m k n d : Nat}

/-- The transposed matrix. -/
def tr (W : Mat n k) : Mat k n := fun i => W (ix2 (i 1) (i 0))
/-- A 1 × n array as a vector. -/
def ofRow1 (v : Mat 1 n) : Row n := fun j => v (ix2 0 (j 0))
/-- The first 128 rows of a 192-row matrix. -/
def topRows (B : Mat 192 n) : Mat 128 n := fun i => B (ix2 ⟨(i 0).val, by have := idx2_lt0 i; omega⟩ (i 1))
/-- Its last 64 rows. -/
def botRows (B : Mat 192 n) : Mat 64 n := fun i => B (ix2 ⟨128 + (i 0).val, by have := idx2_lt0 i; omega⟩ (i 1))

/-- A · B. -/
def mm (A : Mat m k) (B : Mat k n) : Mat m n := fun i => ∑ t : Fin k, A (ix2 (i 0) t) * B (ix2 t (i 1))
/-- One graph-convolution layer from the support S = (features · weights): tanh (A · S + b). -/
def gcn (A : Mat m k) (S : Mat k d) (b : Row d) : Mat m d := fun i => Ideal.tanh (mm A S i + b (ix1 (i 1)))
/-- [H₁ | H₂]: 128 columns of the first beside 64 of the second. -/
def cat (H₁ : Mat m 128) (H₂ : Mat m 64) : Mat m 192 := fun i =>
  if h : (i 1).val < 128 then H₁ (ix2 (i 0) ⟨(i 1).val, h⟩)
  else H₂ (ix2 (i 0) ⟨(i 1).val - 128, by have := idx2_lt1 i; omega⟩)
/-- A linear layer with the weights already transposed: V · B + b. -/
def linM (V : Mat m k) (B : Mat k n) (b : Row n) : Mat m n := fun i => mm V B i + b (ix1 (i 1))
/-- The first layer on [H₁ | H₂] with the contraction split where the columns are: H₁ · Bₐ + H₂ · B_b + b. -/
def linSplitM (H₁ : Mat m 128) (H₂ : Mat m 64) (Ba : Mat 128 n) (Bb : Mat 64 n) (b : Row n) : Mat m n := fun i =>
  (mm H₁ Ba i + mm H₂ Bb i) + b (ix1 (i 1))
/-- Batch normalisation with running statistics, column by column. -/
def bn (V : Mat m n) (γ β μ σ2 : Row n) : Mat m n := fun i =>
  Ideal.div (V i - μ (ix1 (i 1))) (Ideal.sqrt (σ2 (ix1 (i 1)) + eps)) * γ (ix1 (i 1)) + β (ix1 (i 1))
/-- max (v, 0). -/
def relu (V : Mat m n) : Mat m n := fun i => max (V i) 0
/-- The maximum of row p, started from −∞. -/
def rowMax (V : Mat m n) (p : Fin m) : EReal :=
  (Finset.univ : Finset (Fin n)).fold max negInf (fun q => V (ix2 p q))
/-- log-softmax along each row: (v − max) − log Σ exp (v − max). -/
def logSoftmax (V : Mat m n) : Mat m n := fun i =>
  (V i - rowMax V (i 0)) - Ideal.log (∑ q : Fin n, Ideal.exp (V (ix2 (i 0) q) - rowMax V (i 0)))

/-- The classifier head from its first layer's result L₁ (weights transposed). -/
def classifyFrom (L₁ : Mat m 256) (γ₁ β₁ μ₁ σ₁ : Row 256) (B₂ : Mat 256 128) (c₂ γ₂ β₂ μ₂ σ₂ : Row 128)
    (B₃ : Mat 128 10) (c₃ : Row 10) : Mat m 10 :=
  logSoftmax (linM (relu (bn (linM (relu (bn L₁ γ₁ β₁ μ₁ σ₁)) B₂ c₂) γ₂ β₂ μ₂ σ₂)) B₃ c₃)
/-- The reconstruction head from its first layer's result L₁ (weights transposed). -/
def reconstructFrom (L₁ : Mat m 256) (B₂ : Mat 256 128) (r₂ : Row 128) (B₃ : Mat 128 128) (r₃ : Row 128) : Mat m 128 :=
  linM (relu (linM (relu L₁) B₂ r₂)) B₃ r₃

/-- The classifier head on Z = [H₁ | H₂], weights as given (untransposed). -/
def classify (Z : Mat m 192) (C₁ : Mat 256 192) (c₁ γ₁ β₁ μ₁ σ₁ : Row 256) (C₂ : Mat 128 256) (c₂ γ₂ β₂ μ₂ σ₂ : Row 128)
    (C₃ : Mat 10 128) (c₃ : Row 10) : Mat m 10 :=
  classifyFrom (linM Z (tr C₁) c₁) γ₁ β₁ μ₁ σ₁ (tr C₂) c₂ γ₂ β₂ μ₂ σ₂ (tr C₃) c₃
/-- The reconstruction head on Z = [H₁ | H₂], weights as given (untransposed). -/
def reconstruct (Z : Mat m 192) (R₁ : Mat 256 192) (r₁ : Row 256) (R₂ : Mat 128 256) (r₂ : Row 128)
    (R₃ : Mat 128 128) (r₃ : Row 128) : Mat m 128 :=
  reconstructFrom (linM Z (tr R₁) r₁) (tr R₂) r₂ (tr R₃) r₃

/-! ## The whole program's three results, as functions of the argument arrays -/

section Program
variable (X : Mat 10000 128) (A : Mat 10000 10000) (W₁ : Mat 128 128) (b₁ : Row 128) (W₂ : Mat 128 64) (b₂ : Row 64)

/-- The first layer's features H₁. -/
def feat₁ : Mat 10000 128 := gcn A (mm X W₁) b₁
/-- The second layer's features H₂. -/
def feat₂ : Mat 10000 64 := gcn A (mm (feat₁ X A W₁ b₁) W₂) b₂
/-- The third result: Z = [H₁ | H₂]. -/
def outZ : Mat 10000 192 := cat (feat₁ X A W₁ b₁) (feat₂ X A W₁ b₁ W₂ b₂)
/-- The first result: the classifier head on Z. -/
def outClass (C₁ : Mat 256 192) (c₁ γ₁ β₁ μ₁ σ₁ : Row 256) (C₂ : Mat 128 256) (c₂ γ₂ β₂ μ₂ σ₂ : Row 128)
    (C₃ : Mat 10 128) (c₃ : Row 10) : Mat 10000 10 :=
  classify (outZ X A W₁ b₁ W₂ b₂) C₁ c₁ γ₁ β₁ μ₁ σ₁ C₂ c₂ γ₂ β₂ μ₂ σ₂ C₃ c₃
/-- The second result: the reconstruction head on Z. -/
def outRecon (R₁ : Mat 256 192) (r₁ : Row 256) (R₂ : Mat 128 256) (r₂ : Row 128) (R₃ : Mat 128 128) (r₃ : Row 128) :
    Mat 10000 128 :=
  reconstruct (outZ X A W₁ b₁ W₂ b₂) R₁ r₁ R₂ r₂ R₃ r₃

end Program

/-! ## Splitting the 192-term contraction at column 128 -/

/-- A sum over 192 columns is the sum over the first 128 plus the sum over the last 64. -/
theorem sum_192 (f : Fin 192 → EReal) :
    ∑ t : Fin 192, f t = (∑ t : Fin 128, f ⟨t.val, by have := t.isLt; omega⟩)
      + ∑ t : Fin 64, f ⟨128 + t.val, by have := t.isLt; omega⟩ :=
  Fin.sum_univ_add (a := 128) (b := 64) (fun t : Fin (128 + 64) => f ⟨t.val, t.isLt⟩)

/-- The layer on the concatenation is the split layer. -/
theorem linM_cat (H₁ : Mat m 128) (H₂ : Mat m 64) (B : Mat 192 n) (b : Row n) :
    linM (cat H₁ H₂) B b = linSplitM H₁ H₂ (topRows B) (botRows B) b := by
  funext i
  unfold linM linSplitM mm
  rw [sum_192]
  refine congrArg₂ (· + ·) (congrArg₂ (· + ·) ?_ ?_) rfl
  · refine Finset.sum_congr rfl fun t _ => ?_
    have ht : t.val < 128 := t.isLt
    refine congrArg₂ (· * ·) ?_ rfl
    unfold cat
    exact dif_pos ht
  · refine Finset.sum_congr rfl fun t _ => ?_
    have ht : ¬ (128 + t.val < 128) := by omega
    refine congrArg₂ (· * ·) ?_ rfl
    unfold cat
    refine (dif_neg ht).trans ?_
    exact congrArg (fun q => H₂ (ix2 (i 0) q)) (Fin.ext (show 128 + t.val - 128 = t.val by omega))

/-! ## Row locality -/

/-- Row p of V is row p' of V'. -/
def RowEq {m' : Nat} (V : Mat m n) (p : Fin m) (V' : Mat m' n) (p' : Fin m') : Prop :=
  ∀ q : Fin n, V (ix2 p q) = V' (ix2 p' q)

variable {m' : Nat}

theorem cat_rowEq {H₁ : Mat m 128} {H₂ : Mat m 64} {H₁' : Mat m' 128} {H₂' : Mat m' 64} {p : Fin m} {p' : Fin m'}
    (h₁ : RowEq H₁ p H₁' p') (h₂ : RowEq H₂ p H₂' p') : RowEq (cat H₁ H₂) p (cat H₁' H₂') p' := by
  intro q
  have e : ∀ {a : Nat} (A : Mat a 128) (B : Mat a 64) (r : Fin a), cat A B (ix2 r q)
      = if h : q.val < 128 then A (ix2 r ⟨q.val, h⟩) else B (ix2 r ⟨q.val - 128, by have := q.isLt; omega⟩) :=
    fun _ _ _ => rfl
  rw [e, e]
  by_cases hq : q.val < 128
  · rw [dif_pos hq, dif_pos hq]; exact h₁ _
  · rw [dif_neg hq, dif_neg hq]; exact h₂ _

theorem linM_rowEq {V : Mat m k} {V' : Mat m' k} {p : Fin m} {p' : Fin m'} (h : RowEq V p V' p')
    (B : Mat k n) (b : Row n) : RowEq (linM V B b) p (linM V' B b) p' := by
  intro q
  unfold linM mm
  exact congrArg (· + b (ix1 q)) (Finset.sum_congr rfl fun t _ => congrArg (· * B (ix2 t q)) (h t))

theorem linSplitM_rowEq {H₁ : Mat m 128} {H₂ : Mat m 64} {H₁' : Mat m' 128} {H₂' : Mat m' 64} {p : Fin m} {p' : Fin m'}
    (h₁ : RowEq H₁ p H₁' p') (h₂ : RowEq H₂ p H₂' p') (Ba : Mat 128 n) (Bb : Mat 64 n) (b : Row n) :
    RowEq (linSplitM H₁ H₂ Ba Bb b) p (linSplitM H₁' H₂' Ba Bb b) p' := by
  intro q
  unfold linSplitM mm
  exact congrArg (· + b (ix1 q)) (congrArg₂ (· + ·)
    (Finset.sum_congr rfl fun t _ => congrArg (· * Ba (ix2 t q)) (h₁ t))
    (Finset.sum_congr rfl fun t _ => congrArg (· * Bb (ix2 t q)) (h₂ t)))

theorem bn_rowEq {V : Mat m n} {V' : Mat m' n} {p : Fin m} {p' : Fin m'} (h : RowEq V p V' p')
    (γ β μ σ2 : Row n) : RowEq (bn V γ β μ σ2) p (bn V' γ β μ σ2) p' := by
  intro q
  unfold bn
  exact congrArg (fun v => Ideal.div (v - μ (ix1 q)) (Ideal.sqrt (σ2 (ix1 q) + eps)) * γ (ix1 q) + β (ix1 q)) (h q)

theorem relu_rowEq {V : Mat m n} {V' : Mat m' n} {p : Fin m} {p' : Fin m'} (h : RowEq V p V' p') :
    RowEq (relu V) p (relu V') p' := by
  intro q
  unfold relu
  exact congrArg (fun v => max v 0) (h q)

theorem rowMax_rowEq {V : Mat m n} {V' : Mat m' n} {p : Fin m} {p' : Fin m'} (h : RowEq V p V' p') :
    rowMax V p = rowMax V' p' := by
  unfold rowMax
  exact congrArg (fun f => Finset.fold max negInf f (Finset.univ : Finset (Fin n))) (funext h)

theorem logSoftmax_rowEq {V : Mat m n} {V' : Mat m' n} {p : Fin m} {p' : Fin m'} (h : RowEq V p V' p') :
    RowEq (logSoftmax V) p (logSoftmax V') p' := by
  intro q
  have hm : rowMax V p = rowMax V' p' := rowMax_rowEq h
  have hs : (∑ q' : Fin n, Ideal.exp (V (ix2 p q') - rowMax V p)) = ∑ q' : Fin n, Ideal.exp (V' (ix2 p' q') - rowMax V' p') :=
    Finset.sum_congr rfl fun q' _ => by rw [h q', hm]
  show (V (ix2 p q) - rowMax V p) - Ideal.log (∑ q' : Fin n, Ideal.exp (V (ix2 p q') - rowMax V p))
    = (V' (ix2 p' q) - rowMax V' p') - Ideal.log (∑ q' : Fin n, Ideal.exp (V' (ix2 p' q') - rowMax V' p'))
  rw [hs, hm, h q]

theorem classifyFrom_rowEq {L : Mat m 256} {L' : Mat m' 256} {p : Fin m} {p' : Fin m'} (h : RowEq L p L' p')
    (γ₁ β₁ μ₁ σ₁ : Row 256) (B₂ : Mat 256 128) (c₂ γ₂ β₂ μ₂ σ₂ : Row 128) (B₃ : Mat 128 10) (c₃ : Row 10) :
    RowEq (classifyFrom L γ₁ β₁ μ₁ σ₁ B₂ c₂ γ₂ β₂ μ₂ σ₂ B₃ c₃) p (classifyFrom L' γ₁ β₁ μ₁ σ₁ B₂ c₂ γ₂ β₂ μ₂ σ₂ B₃ c₃) p' :=
  logSoftmax_rowEq (linM_rowEq (relu_rowEq (bn_rowEq (linM_rowEq (relu_rowEq (bn_rowEq h _ _ _ _)) _ _) _ _ _ _)) _ _)

theorem reconstructFrom_rowEq {L : Mat m 256} {L' : Mat m' 256} {p : Fin m} {p' : Fin m'} (h : RowEq L p L' p')
    (B₂ : Mat 256 128) (r₂ : Row 128) (B₃ : Mat 128 128) (r₃ : Row 128) :
    RowEq (reconstructFrom L B₂ r₂ B₃ r₃) p (reconstructFrom L' B₂ r₂ B₃ r₃) p' :=
  linM_rowEq (relu_rowEq (linM_rowEq (relu_rowEq h) _ _)) _ _

/-- A graph-convolution layer's row p reads row p of the adjacency matrix only. -/
theorem gcn_rowEq {A : Mat m k} {A' : Mat m' k} {p : Fin m} {p' : Fin m'} (h : RowEq A p A' p')
    (S : Mat k d) (b : Row d) : RowEq (gcn A S b) p (gcn A' S b) p' := by
  intro q
  unfold gcn mm
  exact congrArg (fun s => Ideal.tanh (s + b (ix1 q))) (Finset.sum_congr rfl fun t _ => congrArg (· * S (ix2 t q)) (h t))

end Cert.Spec

end
-- ==== Proof.KHost.lean ====
/-
  The host operations around the kernel regions, read as the specification's layout functions.

  Before the first region the six weight matrices of the two heads are transposed. Before the second region the first
  bias is laid out as a 1 × 128 array. Before the last region every remaining bias and normalisation vector is laid out
  as a 1 × n array, and the transposed first-layer weights of each head (192 × 256) are cut into their first 128 and
  their last 64 rows — the rows that multiply the two column groups of Z = [H₁ | H₂]. Everything is stated from
  arbitrary buffer contents W at the start of the stretch; a buffer the stretch does not write keeps its contents.
-/
import proofs.«148078_g73521250173546_cont_sun_c4_545_4_alg».proof.Proof.Gen.KernelIdeal.Launch
import proofs.«148078_g73521250173546_cont_sun_c4_545_4_alg».proof.Proof.Spec
import Idealize.ShloMosaic.Lib.StableHlo.Run
import Idealize.ShloMosaic.Lib.Pipeline.Value
import Idealize.ShloMosaic.Lib.ValueLayout

noncomputable section

namespace Cert.KernelIdeal.HostSide

open Cert.KernelIdeal Cert.KernelIdeal.Gen Cert.Spec Idealize.ShloMosaic Idealize.ShloMosaic.ValueIdx Idealize.ShloMosaic.StableHlo

/-! ## The three layout operations -/

/-- The host's transposition is the transposed matrix. -/
theorem tr_eq {a b : Nat} (x : Mat a b) (h : (⟨2, ![a, b]⟩ : Shape).Transposes [1, 0] ⟨2, ![b, a]⟩) :
    transpose ⟨2, ![b, a]⟩ [1, 0] x h = Spec.tr x := by
  funext i
  rw [eq_ix2 i]
  exact transpose_ix2_apply x h (i 0) (i 1)

/-- The slice of rows 0 … 127. -/
theorem topRows_eq {n : Nat} (B : Mat 192 n) (h : (⟨2, ![192, n]⟩ : Shape).Slices ![0, 0] ⟨2, ![128, n]⟩) :
    extractStridedSlice ⟨2, ![128, n]⟩ ![0, 0] B h = Spec.topRows B := by
  funext i
  rw [eq_ix2 i]
  exact slice2_axis0_apply 0 B h (i 0) (i 1) ⟨(i 0).val, by have := idx2_lt0 i; omega⟩ (Nat.zero_add _).symm

/-- The slice of rows 128 … 191. -/
theorem botRows_eq {n : Nat} (B : Mat 192 n) (h : (⟨2, ![192, n]⟩ : Shape).Slices ![128, 0] ⟨2, ![64, n]⟩) :
    extractStridedSlice ⟨2, ![64, n]⟩ ![128, 0] B h = Spec.botRows B := by
  funext i
  rw [eq_ix2 i]
  exact slice2_axis0_apply 128 B h (i 0) (i 1) ⟨128 + (i 0).val, by have := idx2_lt0 i; omega⟩ rfl

/-- A vector laid out as a 1 × n array, read back as a vector, is the vector. -/
theorem ofRow1_bcast {n : Nat} (b : Row n) (h : (⟨1, ![n]⟩ : Shape).BroadcastsInDim ⟨2, ![1, n]⟩ ![1]) :
    Spec.ofRow1 (broadcastInDim ⟨2, ![1, n]⟩ ![1] h b) = b := by
  funext j
  unfold Spec.ofRow1
  refine broadcastInDim_apply _ h b _ j fun a => ?_
  match a with
  | ⟨0, _⟩ =>
    show (j 0).val = if n = 1 then 0 else (j 0).val
    split
    · have : (j 0).val < n := (j 0).isLt
      omega
    · rfl

variable (W : Valuation τ sig (Elt Ideal))

/-! ## Before region 0: the transposed weights -/

theorem ops0_v0 : after (hostOps0 (F := Ideal)) W (Proc.devRef .tc main_v0) = Spec.tr (W (Proc.devRef .tc main_arg6)) := by
  have e : after (hostOps0 (F := Ideal)) W (Proc.devRef .tc main_v0)
      = transpose S192x256 [1, 0] (W (Proc.devRef .tc main_arg6)) transposes_S256x192_S192x256_1_0 := by
    after_results
  rw [e]; exact tr_eq _ _

theorem ops0_v1 : after (hostOps0 (F := Ideal)) W (Proc.devRef .tc main_v1) = Spec.tr (W (Proc.devRef .tc main_arg12)) := by
  have e : after (hostOps0 (F := Ideal)) W (Proc.devRef .tc main_v1)
      = transpose S256x128 [1, 0] (W (Proc.devRef .tc main_arg12)) transposes_S128x256_S256x128_1_0 := by
    after_results
  rw [e]; exact tr_eq _ _

theorem ops0_v2 : after (hostOps0 (F := Ideal)) W (Proc.devRef .tc main_v2) = Spec.tr (W (Proc.devRef .tc main_arg18)) := by
  have e : after (hostOps0 (F := Ideal)) W (Proc.devRef .tc main_v2)
      = transpose S128x10 [1, 0] (W (Proc.devRef .tc main_arg18)) transposes_S10x128_S128x10_1_0 := by
    after_results
  rw [e]; exact tr_eq _ _

theorem ops0_v3 : after (hostOps0 (F := Ideal)) W (Proc.devRef .tc main_v3) = Spec.tr (W (Proc.devRef .tc main_arg20)) := by
  have e : after (hostOps0 (F := Ideal)) W (Proc.devRef .tc main_v3)
      = transpose S192x256 [1, 0] (W (Proc.devRef .tc main_arg20)) transposes_S256x192_S192x256_1_0 := by
    after_results
  rw [e]; exact tr_eq _ _

theorem ops0_v4 : after (hostOps0 (F := Ideal)) W (Proc.devRef .tc main_v4) = Spec.tr (W (Proc.devRef .tc main_arg22)) := by
  have e : after (hostOps0 (F := Ideal)) W (Proc.devRef .tc main_v4)
      = transpose S256x128 [1, 0] (W (Proc.devRef .tc main_arg22)) transposes_S128x256_S256x128_1_0 := by
    after_results
  rw [e]; exact tr_eq _ _

theorem ops0_v5 : after (hostOps0 (F := Ideal)) W (Proc.devRef .tc main_v5) = Spec.tr (W (Proc.devRef .tc main_arg24)) := by
  have e : after (hostOps0 (F := Ideal)) W (Proc.devRef .tc main_v5)
      = transpose S128x128 [1, 0] (W (Proc.devRef .tc main_arg24)) transposes_S128x128_S128x128_1_0 := by
    after_results
  rw [e]; exact tr_eq _ _

/-- A buffer none of these operations writes keeps its contents. -/
theorem ops0_keep (b : Ref sig .tc) (hb : ∀ r ∈ ([main_v0, main_v1, main_v2, main_v3, main_v4, main_v5] : List (Ref sig .tc)), b ≠ r) :
    after (hostOps0 (F := Ideal)) W (Proc.devRef .tc b) = W (Proc.devRef .tc b) :=
  after_of_forall_not_mem (b := Proc.devRef .tc b) _ _ (List.forall_iff_forall_mem.mp (by
    simp only [hostOps0, List.Forall, unary_writes, Finset.mem_singleton]
    refine ⟨?_, ?_, ?_, ?_, ?_, ?_⟩ <;> exact devRef_ne_of_ne (hb _ (by simp))))

/-! ## Before region 1: the first bias as a 1 × 128 array -/

theorem ops1_v7 : Spec.ofRow1 (after (hostOps1 (F := Ideal)) W (Proc.devRef .tc main_v7)) = W (Proc.devRef .tc main_arg3) := by
  have e : after (hostOps1 (F := Ideal)) W (Proc.devRef .tc main_v7)
      = broadcastInDim S1x128 ![1] bcast_S128_S1x128_1 (W (Proc.devRef .tc main_arg3)) := by
    after_results
  rw [e]; exact ofRow1_bcast _ _

/-- A buffer none of these operations writes keeps its contents. -/
theorem ops1_keep (b : Ref sig .tc) (hb : ∀ r ∈ ([main_v7] : List (Ref sig .tc)), b ≠ r) :
    after (hostOps1 (F := Ideal)) W (Proc.devRef .tc b) = W (Proc.devRef .tc b) :=
  after_of_forall_not_mem (b := Proc.devRef .tc b) _ _ (List.forall_iff_forall_mem.mp (by
    simp only [hostOps1, List.Forall, unary_writes, Finset.mem_singleton]
    exact devRef_ne_of_ne (hb _ (by simp))))

/-! ## Before region 3: the remaining vectors as 1 × n arrays, the first-layer weights cut in two -/

theorem ops3_v10 : Spec.ofRow1 (after (hostOps3 (F := Ideal)) W (Proc.devRef .tc main_v10)) = W (Proc.devRef .tc main_arg5) := by
  have e : after (hostOps3 (F := Ideal)) W (Proc.devRef .tc main_v10)
      = broadcastInDim S1x64 ![1] bcast_S64_S1x64_1 (W (Proc.devRef .tc main_arg5)) := by
    after_results
  rw [e]; exact ofRow1_bcast _ _

theorem ops3_v13 : Spec.ofRow1 (after (hostOps3 (F := Ideal)) W (Proc.devRef .tc main_v13)) = W (Proc.devRef .tc main_arg7) := by
  have e : after (hostOps3 (F := Ideal)) W (Proc.devRef .tc main_v13)
      = broadcastInDim S1x256 ![1] bcast_S256_S1x256_1 (W (Proc.devRef .tc main_arg7)) := by
    after_results
  rw [e]; exact ofRow1_bcast _ _

theorem ops3_v14 : Spec.ofRow1 (after (hostOps3 (F := Ideal)) W (Proc.devRef .tc main_v14)) = W (Proc.devRef .tc main_arg8) := by
  have e : after (hostOps3 (F := Ideal)) W (Proc.devRef .tc main_v14)
      = broadcastInDim S1x256 ![1] bcast_S256_S1x256_1 (W (Proc.devRef .tc main_arg8)) := by
    after_results
  rw [e]; exact ofRow1_bcast _ _

theorem ops3_v15 : Spec.ofRow1 (after (hostOps3 (F := Ideal)) W (Proc.devRef .tc main_v15)) = W (Proc.devRef .tc main_arg9) := by
  have e : after (hostOps3 (F := Ideal)) W (Proc.devRef .tc main_v15)
      = broadcastInDim S1x256 ![1] bcast_S256_S1x256_1 (W (Proc.devRef .tc main_arg9)) := by
    after_results
  rw [e]; exact ofRow1_bcast _ _

theorem ops3_v16 : Spec.ofRow1 (after (hostOps3 (F := Ideal)) W (Proc.devRef .tc main_v16)) = W (Proc.devRef .tc main_arg10) := by
  have e : after (hostOps3 (F := Ideal)) W (Proc.devRef .tc main_v16)
      = broadcastInDim S1x256 ![1] bcast_S256_S1x256_1 (W (Proc.devRef .tc main_arg10)) := by
    after_results
  rw [e]; exact ofRow1_bcast _ _

theorem ops3_v17 : Spec.ofRow1 (after (hostOps3 (F := Ideal)) W (Proc.devRef .tc main_v17)) = W (Proc.devRef .tc main_arg11) := by
  have e : after (hostOps3 (F := Ideal)) W (Proc.devRef .tc main_v17)
      = broadcastInDim S1x256 ![1] bcast_S256_S1x256_1 (W (Proc.devRef .tc main_arg11)) := by
    after_results
  rw [e]; exact ofRow1_bcast _ _

theorem ops3_v18 : Spec.ofRow1 (after (hostOps3 (F := Ideal)) W (Proc.devRef .tc main_v18)) = W (Proc.devRef .tc main_arg13) := by
  have e : after (hostOps3 (F := Ideal)) W (Proc.devRef .tc main_v18)
      = broadcastInDim S1x128 ![1] bcast_S128_S1x128_1 (W (Proc.devRef .tc main_arg13)) := by
    after_results
  rw [e]; exact ofRow1_bcast _ _

theorem ops3_v19 : Spec.ofRow1 (after (hostOps3 (F := Ideal)) W (Proc.devRef .tc main_v19)) = W (Proc.devRef .tc main_arg14) := by
  have e : after (hostOps3 (F := Ideal)) W (Proc.devRef .tc main_v19)
      = broadcastInDim S1x128 ![1] bcast_S128_S1x128_1 (W (Proc.devRef .tc main_arg14)) := by
    after_results
  rw [e]; exact ofRow1_bcast _ _

theorem ops3_v20 : Spec.ofRow1 (after (hostOps3 (F := Ideal)) W (Proc.devRef .tc main_v20)) = W (Proc.devRef .tc main_arg15) := by
  have e : after (hostOps3 (F := Ideal)) W (Proc.devRef .tc main_v20)
      = broadcastInDim S1x128 ![1] bcast_S128_S1x128_1 (W (Proc.devRef .tc main_arg15)) := by
    after_results
  rw [e]; exact ofRow1_bcast _ _

theorem ops3_v21 : Spec.ofRow1 (after (hostOps3 (F := Ideal)) W (Proc.devRef .tc main_v21)) = W (Proc.devRef .tc main_arg16) := by
  have e : after (hostOps3 (F := Ideal)) W (Proc.devRef .tc main_v21)
      = broadcastInDim S1x128 ![1] bcast_S128_S1x128_1 (W (Proc.devRef .tc main_arg16)) := by
    after_results
  rw [e]; exact ofRow1_bcast _ _

theorem ops3_v22 : Spec.ofRow1 (after (hostOps3 (F := Ideal)) W (Proc.devRef .tc main_v22)) = W (Proc.devRef .tc main_arg17) := by
  have e : after (hostOps3 (F := Ideal)) W (Proc.devRef .tc main_v22)
      = broadcastInDim S1x128 ![1] bcast_S128_S1x128_1 (W (Proc.devRef .tc main_arg17)) := by
    after_results
  rw [e]; exact ofRow1_bcast _ _

theorem ops3_v23 : Spec.ofRow1 (after (hostOps3 (F := Ideal)) W (Proc.devRef .tc main_v23)) = W (Proc.devRef .tc main_arg19) := by
  have e : after (hostOps3 (F := Ideal)) W (Proc.devRef .tc main_v23)
      = broadcastInDim S1x10 ![1] bcast_S10_S1x10_1 (W (Proc.devRef .tc main_arg19)) := by
    after_results
  rw [e]; exact ofRow1_bcast _ _

theorem ops3_v26 : Spec.ofRow1 (after (hostOps3 (F := Ideal)) W (Proc.devRef .tc main_v26)) = W (Proc.devRef .tc main_arg21) := by
  have e : after (hostOps3 (F := Ideal)) W (Proc.devRef .tc main_v26)
      = broadcastInDim S1x256 ![1] bcast_S256_S1x256_1 (W (Proc.devRef .tc main_arg21)) := by
    after_results
  rw [e]; exact ofRow1_bcast _ _

theorem ops3_v27 : Spec.ofRow1 (after (hostOps3 (F := Ideal)) W (Proc.devRef .tc main_v27)) = W (Proc.devRef .tc main_arg23) := by
  have e : after (hostOps3 (F := Ideal)) W (Proc.devRef .tc main_v27)
      = broadcastInDim S1x128 ![1] bcast_S128_S1x128_1 (W (Proc.devRef .tc main_arg23)) := by
    after_results
  rw [e]; exact ofRow1_bcast _ _

theorem ops3_v28 : Spec.ofRow1 (after (hostOps3 (F := Ideal)) W (Proc.devRef .tc main_v28)) = W (Proc.devRef .tc main_arg25) := by
  have e : after (hostOps3 (F := Ideal)) W (Proc.devRef .tc main_v28)
      = broadcastInDim S1x128 ![1] bcast_S128_S1x128_1 (W (Proc.devRef .tc main_arg25)) := by
    after_results
  rw [e]; exact ofRow1_bcast _ _

theorem ops3_v11 : after (hostOps3 (F := Ideal)) W (Proc.devRef .tc main_v11) = Spec.topRows (W (Proc.devRef .tc main_v0)) := by
  have e : after (hostOps3 (F := Ideal)) W (Proc.devRef .tc main_v11)
      = extractStridedSlice S128x256 ![0, 0] (W (Proc.devRef .tc main_v0)) slices_S192x256_S128x256_0_0 := by
    after_results
  rw [e]; exact topRows_eq _ _

theorem ops3_v12 : after (hostOps3 (F := Ideal)) W (Proc.devRef .tc main_v12) = Spec.botRows (W (Proc.devRef .tc main_v0)) := by
  have e : after (hostOps3 (F := Ideal)) W (Proc.devRef .tc main_v12)
      = extractStridedSlice S64x256 ![128, 0] (W (Proc.devRef .tc main_v0)) slices_S192x256_S64x256_128_0 := by
    after_results
  rw [e]; exact botRows_eq _ _

theorem ops3_v24 : after (hostOps3 (F := Ideal)) W (Proc.devRef .tc main_v24) = Spec.topRows (W (Proc.devRef .tc main_v3)) := by
  have e : after (hostOps3 (F := Ideal)) W (Proc.devRef .tc main_v24)
      = extractStridedSlice S128x256 ![0, 0] (W (Proc.devRef .tc main_v3)) slices_S192x256_S128x256_0_0 := by
    after_results
  rw [e]; exact topRows_eq _ _

theorem ops3_v25 : after (hostOps3 (F := Ideal)) W (Proc.devRef .tc main_v25) = Spec.botRows (W (Proc.devRef .tc main_v3)) := by
  have e : after (hostOps3 (F := Ideal)) W (Proc.devRef .tc main_v25)
      = extractStridedSlice S64x256 ![128, 0] (W (Proc.devRef .tc main_v3)) slices_S192x256_S64x256_128_0 := by
    after_results
  rw [e]; exact botRows_eq _ _

/-- A buffer none of these operations writes keeps its contents. -/
theorem ops3_keep (b : Ref sig .tc) (hb : ∀ r ∈ ([main_v10, main_v11, main_v12, main_v13, main_v14, main_v15, main_v16, main_v17, main_v18, main_v19, main_v20, main_v21, main_v22, main_v23, main_v24, main_v25, main_v26, main_v27, main_v28] : List (Ref sig .tc)), b ≠ r) :
    after (hostOps3 (F := Ideal)) W (Proc.devRef .tc b) = W (Proc.devRef .tc b) :=
  after_of_forall_not_mem (b := Proc.devRef .tc b) _ _ (List.forall_iff_forall_mem.mp (by
    simp only [hostOps3, List.Forall, unary_writes, Finset.mem_singleton]
    refine ⟨?_, ?_, ?_, ?_, ?_, ?_, ?_, ?_, ?_, ?_, ?_, ?_, ?_, ?_, ?_, ?_, ?_, ?_, ?_⟩ <;> exact devRef_ne_of_ne (hb _ (by simp))))

end Cert.KernelIdeal.HostSide

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KPay.lean ====
/-
  The kernel bodies' arithmetic, one pure term per store, as the specification's stages.

  Each term is a function of the blocks the body loads. Region 0 and region 2 store a plain product; region 1 and the
  second store of region 3 store one graph-convolution layer of a block of 200 adjacency rows; region 3's other stores
  are the first 128 columns of Z (its x₁ block unchanged), the classifier head and the reconstruction head of the
  200 rows, whose first layers contract the two column groups of Z separately. Bias and normalisation vectors
  arrive as 1 × n arrays.

  First the small facts each term is read through, at the program's literal shapes: a matrix product of two blocks
  into the zero accumulator is the specification's product; a 1 × n array spread over the rows of an m × n block reads,
  at (p, q), its entry q; a maximum with the zero splat is the rectifier; and the two row reductions of the log-softmax
  (the maximum and the sum of each row of ten, kept as a column of 200 and spread over the ten columns again) read, at
  (p, q), the maximum and the sum of row p. With these rewritten, what is left of each term is pointwise and is the
  specification's stage by unfolding.
-/
import proofs.«148078_g73521250173546_cont_sun_c4_545_4_alg».proof.Proof.Gen.KernelIdeal.Skeleton
import proofs.«148078_g73521250173546_cont_sun_c4_545_4_alg».proof.Proof.Spec
import proofs.«148078_g73521250173546_cont_sun_c4_545_4_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx

/-! ## The matrix products -/

/-- For the plain contraction pattern, the product of two blocks (each first narrowed, which changes no value here)
    into the zero accumulator is the specification's product. -/
theorem mmK_eq {M K N : Nat} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32)
    (h1 : FTy.bits .bf16 < FTy.bits .f32) (h2 : FTy.bits .bf16 < FTy.bits .f32) :
    matmul d none (truncf .bf16 l h1) (truncf .bf16 r h2) (constant (F := Ideal) ⟨2, ![M, N]⟩ .f32 0x00000000#32)
      = Spec.mm l r := by
  subst hd
  funext j
  exact Cert.LibPlainDot.matmul_zero_apply none (truncf .bf16 l h1) (truncf .bf16 r h2) j

/-! Each of the program's nine contraction records is the plain pattern at its extents. -/

theorem mm_10000_128_128 (l : FVec Ideal S10000x128 .f32) (r : FVec Ideal S128x128 .f32)
    (h1 : FTy.bits .bf16 < FTy.bits .f32) (h2 : FTy.bits .bf16 < FTy.bits .f32) :
    matmul dot_S10000x128_S128x128_S10000x128_1_0_0_1_n_n none (truncf .bf16 l h1) (truncf .bf16 r h2)
      (constant (F := Ideal) S10000x128 .f32 0x00000000#32) = Spec.mm l r :=
  mmK_eq _ rfl l r h1 h2

theorem mm_200_10000_128 (l : FVec Ideal S200x10000 .f32) (r : FVec Ideal S10000x128 .f32)
    (h1 : FTy.bits .bf16 < FTy.bits .f32) (h2 : FTy.bits .bf16 < FTy.bits .f32) :
    matmul dot_S200x10000_S10000x128_S200x128_1_0_0_1_n_n none (truncf .bf16 l h1) (truncf .bf16 r h2)
      (constant (F := Ideal) S200x128 .f32 0x00000000#32) = Spec.mm l r :=
  mmK_eq _ rfl l r h1 h2

theorem mm_10000_128_64 (l : FVec Ideal S10000x128 .f32) (r : FVec Ideal S128x64 .f32)
    (h1 : FTy.bits .bf16 < FTy.bits .f32) (h2 : FTy.bits .bf16 < FTy.bits .f32) :
    matmul dot_S10000x128_S128x64_S10000x64_1_0_0_1_n_n none (truncf .bf16 l h1) (truncf .bf16 r h2)
      (constant (F := Ideal) S10000x64 .f32 0x00000000#32) = Spec.mm l r :=
  mmK_eq _ rfl l r h1 h2

theorem mm_200_10000_64 (l : FVec Ideal S200x10000 .f32) (r : FVec Ideal S10000x64 .f32)
    (h1 : FTy.bits .bf16 < FTy.bits .f32) (h2 : FTy.bits .bf16 < FTy.bits .f32) :
    matmul dot_S200x10000_S10000x64_S200x64_1_0_0_1_n_n none (truncf .bf16 l h1) (truncf .bf16 r h2)
      (constant (F := Ideal) S200x64 .f32 0x00000000#32) = Spec.mm l r :=
  mmK_eq _ rfl l r h1 h2

theorem mm_200_128_256 (l : FVec Ideal S200x128 .f32) (r : FVec Ideal S128x256 .f32)
    (h1 : FTy.bits .bf16 < FTy.bits .f32) (h2 : FTy.bits .bf16 < FTy.bits .f32) :
    matmul dot_S200x128_S128x256_S200x256_1_0_0_1_n_n none (truncf .bf16 l h1) (truncf .bf16 r h2)
      (constant (F := Ideal) S200x256 .f32 0x00000000#32) = Spec.mm l r :=
  mmK_eq _ rfl l r h1 h2

theorem mm_200_64_256 (l : FVec Ideal S200x64 .f32) (r : FVec Ideal S64x256 .f32)
    (h1 : FTy.bits .bf16 < FTy.bits .f32) (h2 : FTy.bits .bf16 < FTy.bits .f32) :
    matmul dot_S200x64_S64x256_S200x256_1_0_0_1_n_n none (truncf .bf16 l h1) (truncf .bf16 r h2)
      (constant (F := Ideal) S200x256 .f32 0x00000000#32) = Spec.mm l r :=
  mmK_eq _ rfl l r h1 h2

theorem mm_200_256_128 (l : FVec Ideal S200x256 .f32) (r : FVec Ideal S256x128 .f32)
    (h1 : FTy.bits .bf16 < FTy.bits .f32) (h2 : FTy.bits .bf16 < FTy.bits .f32) :
    matmul dot_S200x256_S256x128_S200x128_1_0_0_1_n_n none (truncf .bf16 l h1) (truncf .bf16 r h2)
      (constant (F := Ideal) S200x128 .f32 0x00000000#32) = Spec.mm l r :=
  mmK_eq _ rfl l r h1 h2

theorem mm_200_128_10 (l : FVec Ideal S200x128 .f32) (r : FVec Ideal S128x10 .f32)
    (h1 : FTy.bits .bf16 < FTy.bits .f32) (h2 : FTy.bits .bf16 < FTy.bits .f32) :
    matmul dot_S200x128_S128x10_S200x10_1_0_0_1_n_n none (truncf .bf16 l h1) (truncf .bf16 r h2)
      (constant (F := Ideal) S200x10 .f32 0x00000000#32) = Spec.mm l r :=
  mmK_eq _ rfl l r h1 h2

theorem mm_200_128_128 (l : FVec Ideal S200x128 .f32) (r : FVec Ideal S128x128 .f32)
    (h1 : FTy.bits .bf16 < FTy.bits .f32) (h2 : FTy.bits .bf16 < FTy.bits .f32) :
    matmul dot_S200x128_S128x128_S200x128_1_0_0_1_n_n none (truncf .bf16 l h1) (truncf .bf16 r h2)
      (constant (F := Ideal) S200x128 .f32 0x00000000#32) = Spec.mm l r :=
  mmK_eq _ rfl l r h1 h2

/-! ## One row spread over many, and the rectifier -/

/-- A 1 × b array spread over a rows reads, at (p, q), its entry q. -/
theorem rowB_eq {a b : Nat} (v : (⟨2, ![1, b]⟩ : Shape).Idx → EReal) (h : (⟨2, ![1, b]⟩ : Shape).Broadcasts ⟨2, ![a, b]⟩) :
    broadcastTo ⟨2, ![a, b]⟩ v h = fun j => Spec.ofRow1 v (ix1 (j 1)) := by
  funext j
  obtain ⟨p, q, rfl⟩ : ∃ (p : Fin a) (q : Fin b), j = ix2 p q := ⟨j 0, j 1, eq_ix2 j⟩
  exact broadcastTo_1b_ab_apply v h p q

/-- The maximum with the splat of the zero word is max (v, 0). -/
theorem reluK_eq {m n : Nat} (V : FVec Ideal ⟨2, ![m, n]⟩ .f32) :
    maximumf V (broadcast ⟨2, ![m, n]⟩ (Scalar.ofBits (F := Ideal) .f32 0x00000000#32)) = Spec.relu V := by
  funext i
  show max (V i) (Ideal.ofBits .f32 0x00000000#32) = max (V i) 0
  rw [Ideal.ofBits_zero_f32]

/-! ## A column of row results, spread over the columns again -/

/-- A vector of a entries cast to a column reads, at (p, u), entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column of a entries spread over b columns reads, at (p, c), entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index p with column k put back is (p, k). -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The maximum of each row of ten from −∞, kept as a column and spread over the ten columns: at (p, q) the
    maximum of row p. -/
theorem rowMaxK_eq (V : FVec Ideal S200x10 .f32) (h : S200x10.Reduces [1] S200) (hφ : FKind.Formats .f32)
    (hacc : (0xFF800000#32 : BitVec 32) = 0xFF800000#32) (hs : S200.ShapeCasts S200x1) (hb : S200x1.Broadcasts S200x10) :
    broadcastTo S200x10 (shapeCast S200x1 (multiReduction (F := Ideal) .maximumf [1] S200 V 0xFF800000#32 h hφ hacc) hs) hb
      = fun j => Spec.rowMax V (j 0) := by
  funext j
  obtain ⟨p, q, rfl⟩ : ∃ (p : Fin 200) (q : Fin 10), j = ix2 p q := ⟨j 0, j 1, eq_ix2 j⟩
  refine (broadcastTo_a1_ab_apply _ hb p q).trans ?_
  refine (shapeCast_a_a1_apply _ hs p 0).trans ?_
  refine (Ideal.multiReduction_maximumf_single V 0xFF800000#32 h hφ hacc (ix1 p)).trans ?_
  exact congrArg (fun f => Finset.fold max (Ideal.ofBits .f32 0xFF800000#32) f (Finset.univ : Finset (Fin 10)))
    (funext fun k => congrArg V (lift_row h p k))

/-- The logarithm of the sum of each row of ten, kept as a column and spread over the ten columns: at (p, q) the
    logarithm of the sum of row p. -/
theorem rowSumLogK_eq (E : FVec Ideal S200x10 .f32) (h : S200x10.Reduces [1] S200) (hφ : FKind.Formats .f32)
    (hacc : (0x00000000#32 : BitVec 32) = 0x00000000#32) (hs : S200.ShapeCasts S200x1) (hb : S200x1.Broadcasts S200x10) :
    broadcastTo S200x10 (log (shapeCast S200x1 (multiReduction (F := Ideal) .add [1] S200 E 0x00000000#32 h hφ hacc) hs)) hb
      = fun j => Ideal.log (∑ q : Fin 10, E (ix2 (j 0) q)) := by
  funext j
  obtain ⟨p, q, rfl⟩ : ∃ (p : Fin 200) (q : Fin 10), j = ix2 p q := ⟨j 0, j 1, eq_ix2 j⟩
  refine (broadcastTo_a1_ab_apply _ hb p q).trans ?_
  refine congrArg Ideal.log ?_
  refine (shapeCast_a_a1_apply _ hs p 0).trans ?_
  refine (Ideal.multiReduction_add_single E 0x00000000#32 h hφ hacc (ix1 p)).trans ?_
  exact Finset.sum_congr rfl fun k _ => congrArg E (lift_row h p k)

/-! ## The eight payload terms -/

/-- Region 0 stores X · W₁. -/
theorem mm0 (v0 : Vec Ideal S10000x128 .f32) (v1 : Vec Ideal S128x128 .f32) :
    k0_pay1 (F := Ideal) v0 v1 = Spec.mm v0 v1 := by
  unfold k0_pay1
  exact mm_10000_128_128 v0 v1 _ _

/-- Region 1 stores tanh (A_block · S₁ + b₁). -/
theorem gcn1 (v0 : Vec Ideal S200x10000 .f32) (v1 : Vec Ideal S10000x128 .f32) (v6 : Vec Ideal S1x128 .f32) :
    k1_pay1 (F := Ideal) v0 v1 v6 = Spec.gcn v0 v1 (Spec.ofRow1 v6) := by
  unfold k1_pay1
  simp only [shapeCast_self]
  rw [mm_200_10000_128, rowB_eq]
  rfl

/-- Region 2 stores H₁ · W₂. -/
theorem mm2 (v0 : Vec Ideal S10000x128 .f32) (v2 : Vec Ideal S128x64 .f32) :
    k2_pay1 (F := Ideal) v0 v2 = Spec.mm v0 v2 := by
  unfold k2_pay1
  simp only [shapeCast_self]
  exact mm_10000_128_64 v0 v2 _ _

/-- Region 3's first store into Z's block: the H₁ block as loaded. -/
theorem zLeft (v0 : Vec Ideal S200x128 .f32) : k3_pay2 (F := Ideal) v0 = v0 := by
  unfold k3_pay2
  exact shapeCast_self v0 _

/-- Region 3's second store into Z's block: tanh (A_block · S₂ + b₂). -/
theorem zRight (v2 : Vec Ideal S200x10000 .f32) (v3 : Vec Ideal S10000x64 .f32) (v8 : Vec Ideal S1x64 .f32) :
    k3_pay3 (F := Ideal) v2 v3 v8 = Spec.gcn v2 v3 (Spec.ofRow1 v8) := by
  unfold k3_pay3
  simp only [shapeCast_self]
  rw [mm_200_10000_64, rowB_eq]
  rfl

/-- The classifier's first layer on the block: H₁ · Bₐ + H₂ · B_b + c₁, with H₂ the layer just computed. -/
theorem first1 (v0 : Vec Ideal S200x128 .f32) (v2 : Vec Ideal S200x10000 .f32) (v3 : Vec Ideal S10000x64 .f32) (v8 : Vec Ideal S1x64 .f32)
    (v15 : Vec Ideal S128x256 .f32) (v20 : Vec Ideal S64x256 .f32) (v26 : Vec Ideal S1x256 .f32) :
    k3_pay4 (F := Ideal) v0 v2 v3 v8 v15 v20 v26
      = Spec.linSplitM v0 (Spec.gcn v2 v3 (Spec.ofRow1 v8)) v15 v20 (Spec.ofRow1 v26) := by
  unfold k3_pay4
  rw [zLeft, zRight]
  simp only [shapeCast_self]
  rw [mm_200_128_256, mm_200_64_256, rowB_eq]
  rfl

/-- The classifier head from its first layer's result L₁. -/
theorem cls (L₁ : FVec Ideal S200x256 .f32) (v30 v32 v34 v36 : Vec Ideal S1x256 .f32) (v51 : Vec Ideal S256x128 .f32)
    (v56 v60 v62 v64 v66 : Vec Ideal S1x128 .f32) (v81 : Vec Ideal S128x10 .f32) (v86 : Vec Ideal S1x10 .f32) :
    k3_pay10 (F := Ideal) (k3_pay6 v60) (k3_pay7 v62) (k3_pay8 L₁ (k3_pay5 v30) v32 v34 v36 v51 v56 v64) (k3_pay9 v66) v81 v86
      = Spec.classifyFrom L₁ (Spec.ofRow1 v30) (Spec.ofRow1 v32) (Spec.ofRow1 v34) (Spec.ofRow1 v36) v51 (Spec.ofRow1 v56)
          (Spec.ofRow1 v60) (Spec.ofRow1 v62) (Spec.ofRow1 v64) (Spec.ofRow1 v66) v81 (Spec.ofRow1 v86) := by
  unfold k3_pay10 k3_pay6 k3_pay7 k3_pay8 k3_pay5 k3_pay9
  simp only [shapeCast_self]
  simp only [rowB_eq, reluK_eq, mm_200_256_128, mm_200_128_10]
  rw [rowMaxK_eq]
  rw [rowSumLogK_eq]
  rfl

/-- The reconstruction head on the block, from the two column groups H₁, H₂ of Z. -/
theorem recon (H₁ : FVec Ideal S200x128 .f32) (H₂ : FVec Ideal S200x64 .f32) (v103 : Vec Ideal S128x256 .f32) (v108 : Vec Ideal S64x256 .f32)
    (v114 : Vec Ideal S1x256 .f32) (v120 : Vec Ideal S256x128 .f32) (v125 : Vec Ideal S1x128 .f32) (v131 : Vec Ideal S128x128 .f32)
    (v136 : Vec Ideal S1x128 .f32) :
    k3_pay1 (F := Ideal) (k3_pay11 H₁ H₂ v103 v108) v114 v120 v125 v131 v136
      = Spec.reconstructFrom (Spec.linSplitM H₁ H₂ v103 v108 (Spec.ofRow1 v114)) v120 (Spec.ofRow1 v125) v131 (Spec.ofRow1 v136) := by
  unfold k3_pay1 k3_pay11
  simp only [shapeCast_self]
  simp only [rowB_eq, reluK_eq, mm_200_128_256, mm_200_64_256, mm_200_256_128, mm_200_128_128]
  rfl

end Cert.KernelIdeal.Pay

end
-- ==== Proof.KBlocksA.lean ====
/-
  Regions 0, 1 and 2: what each region leaves in its output array, as the specification's function of the arrays it
  finds at entry.

  Region 0 and region 2 have one grid point whose blocks are the whole arrays: the output array is the product of the
  two input arrays. Region 1 walks the 50 blocks of 200 adjacency rows; the other two inputs are whole at every point.
  Point t writes rows 200·t … 200·t + 199 of the output, and row p of its block is row 200·t + p of
  tanh (A · S + b) because a graph-convolution layer's row reads that row of A only. The 50 blocks cover the 10000 rows
  (row r lies in block r / 200), so the array ends holding the whole layer.
-/
import proofs.«148078_g73521250173546_cont_sun_c4_545_4_alg».proof.Proof.FrameIdealP
import proofs.«148078_g73521250173546_cont_sun_c4_545_4_alg».proof.Proof.KPay
import proofs.«148078_g73521250173546_cont_sun_c4_545_4_alg».proof.Proof.Spec
import Idealize.ShloMosaic.Lib.Pipeline.Value

noncomputable section

namespace Cert.KernelIdeal.Blocks

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: S₁ = X · W₁ -/

/-- The block indices of region 0's windows: all zero at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

abbrev x0Blk (c : Dev nD) (t : Fin cfg0.N) : Vec Ideal S10000x128 .f32 := iblk0 V c 0 t
abbrev w0Blk (c : Dev nD) (t : Fin cfg0.N) : Vec Ideal S128x128 .f32 := iblk0 V c 1 t
abbrev x0Arr (c : Dev nD) : Vec Ideal S10000x128 .f32 := V c main_arg0
abbrev w0Arr (c : Dev nD) : Vec Ideal S128x128 .f32 := V c main_arg2

/-- Window 0 of region 0 is one block, the whole array, at every point. -/
theorem x0_eq (c : Dev nD) (t : Fin cfg0.N) : x0Blk V c t = x0Arr V c := by
  funext y
  show V c main_arg0 (((cfg0.win 0).blk t).view.emb y) = V c main_arg0 y
  refine congrArg _ (funext fun a => Fin.ext ?_)
  have e := idx0 t
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 1 of region 0 is one block, the whole array, at every point. -/
theorem w0_eq (c : Dev nD) (t : Fin cfg0.N) : w0Blk V c t = w0Arr V c := by
  funext y
  show V c main_arg2 (((cfg0.win 1).blk t).view.emb y) = V c main_arg2 y
  refine congrArg _ (funext fun a => Fin.ext ?_)
  have e := idx0 t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What region 0's point writes back is its block of X · W₁. -/
theorem flushed0 (c : Dev nD) (t : Fin cfg0.N) :
    (dat0 V c).flushed 2 t = ((cfg0.win 2).blk t).view.read (Elt Ideal) (Spec.mm (x0Arr V c) (w0Arr V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [Pay.mm0]
  funext j
  show Spec.mm (x0Blk V c t) (w0Blk V c t) j = Spec.mm (x0Arr V c) (w0Arr V c) (((cfg0.win 2).blk t).view.emb j)
  rw [x0_eq, w0_eq]
  refine congrArg _ (funext fun a => Fin.ext ?_)
  have e := idx0 t
  match a with
  | ⟨0, _⟩ => show (j 0).val = win0_2.index t (0 : Fin 2) * 10000 + 1 * (j 0).val; omega
  | ⟨1, _⟩ => show (j 1).val = win0_2.index t (1 : Fin 2) * 128 + 1 * (j 1).val; omega

/-- An index is in the point's block iff each coordinate is in the block's range. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v6).slice (win0_2.rect t)).set ↔ _
  rw [View.set_slice_whole, Rect.mem_set_unit]
  exact Iff.rfl

/-- Region 0 leaves X · W₁ in its output array. -/
theorem arr0 (c : Dev nD) : (dat0 V c).arrAt 2 cfg0.N = Spec.mm (x0Arr V c) (w0Arr V c) :=
  (dat0 V c).arrAt_eq_of_cover 2 _ (fun t _ => flushed0 V c t) (fun i => by
    refine ⟨t0_0, flush0_2 _, ?_⟩
    rw [mem_blk0]
    have e := idx0 t0_0
    have h0 : (i 0).val < 10000 := (i 0).isLt
    have h1 : (i 1).val < 128 := (i 1).isLt
    intro a
    match a with
    | ⟨0, _⟩ => show win0_2.index t0_0 (0 : Fin 2) * 10000 ≤ (i 0).val ∧ (i 0).val < win0_2.index t0_0 (0 : Fin 2) * 10000 + 10000; omega
    | ⟨1, _⟩ => show win0_2.index t0_0 (1 : Fin 2) * 128 ≤ (i 1).val ∧ (i 1).val < win0_2.index t0_0 (1 : Fin 2) * 128 + 128; omega)

/-! ## Region 1: H₁ = tanh (A · S₁ + b₁), 50 blocks of 200 rows -/

/-- The block indices of region 1's windows: the adjacency and output blocks move down the rows with the point,
    the support and the bias stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt50_1 (t : Fin cfg1.N) : t.val < 50 := lt_of_lt_of_eq t.isLt N_1

abbrev a1Blk (c : Dev nD) (t : Fin cfg1.N) : Vec Ideal S200x10000 .f32 := iblk1 V c 0 t
abbrev s1Blk (c : Dev nD) (t : Fin cfg1.N) : Vec Ideal S10000x128 .f32 := iblk1 V c 1 t
abbrev b1Blk (c : Dev nD) (t : Fin cfg1.N) : Vec Ideal S1x128 .f32 := iblk1 V c 2 t
abbrev a1Arr (c : Dev nD) : Vec Ideal S10000x10000 .f32 := V c main_arg1
abbrev s1Arr (c : Dev nD) : Vec Ideal S10000x128 .f32 := V c main_v6
abbrev b1Arr (c : Dev nD) : Vec Ideal S1x128 .f32 := V c main_v7

/-- The support S₁ is staged whole at every point. -/
theorem s1_eq (c : Dev nD) (t : Fin cfg1.N) : s1Blk V c t = s1Arr V c := by
  funext y
  show V c main_v6 (((cfg1.win 1).blk t).view.emb y) = V c main_v6 y
  refine congrArg _ (funext fun a => Fin.ext ?_)
  have e := idx1 t
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The bias row is staged whole at every point. -/
theorem b1_eq (c : Dev nD) (t : Fin cfg1.N) : b1Blk V c t = b1Arr V c := by
  funext y
  show V c main_v7 (((cfg1.win 2).blk t).view.emb y) = V c main_v7 y
  refine congrArg _ (funext fun a => Fin.ext ?_)
  have e := idx1 t
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Row p of the adjacency block at point t is row 200·t + p of the adjacency matrix. -/
theorem a1_row (c : Dev nD) (t : Fin cfg1.N) (p : Fin 200) :
    RowEq (a1Blk V c t) p (a1Arr V c) ⟨200 * t.val + p.val, by have := lt50_1 t; have := p.isLt; omega⟩ := by
  intro k
  show V c main_arg1 (((cfg1.win 0).blk t).view.emb (ix2 p k)) = V c main_arg1 (ix2 _ k)
  refine congrArg _ (funext fun a => Fin.ext ?_)
  have e := idx1 t
  match a with
  | ⟨0, _⟩ => show win1_0.index t (0 : Fin 2) * 200 + 1 * p.val = 200 * t.val + p.val; omega
  | ⟨1, _⟩ => show win1_0.index t (1 : Fin 2) * 10000 + 1 * k.val = k.val; omega

/-- What point t writes back is its block of the whole layer. -/
theorem flushed1 (c : Dev nD) (t : Fin cfg1.N) :
    (dat1 V c).flushed 3 t
      = ((cfg1.win 3).blk t).view.read (Elt Ideal) (Spec.gcn (a1Arr V c) (s1Arr V c) (Spec.ofRow1 (b1Arr V c))) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x128) hz, View.ld_unit_zero (S := S1x128) hz]
  rw [Pay.gcn1]
  funext j
  obtain ⟨p, q, rfl⟩ : ∃ (p : Fin 200) (q : Fin 128), j = ix2 p q := ⟨j 0, j 1, eq_ix2 j⟩
  show Spec.gcn (a1Blk V c t) (s1Blk V c t) (Spec.ofRow1 (b1Blk V c t)) (ix2 p q)
    = Spec.gcn (a1Arr V c) (s1Arr V c) (Spec.ofRow1 (b1Arr V c)) (((cfg1.win 3).blk t).view.emb (ix2 p q))
  rw [s1_eq, b1_eq]
  have he : ((cfg1.win 3).blk t).view.emb (ix2 p q)
      = ix2 (⟨200 * t.val + p.val, by have := lt50_1 t; have := p.isLt; omega⟩ : Fin 10000) q := by
    funext a; apply Fin.ext
    have e := idx1 t
    match a with
    | ⟨0, _⟩ => show win1_3.index t (0 : Fin 2) * 200 + 1 * p.val = 200 * t.val + p.val; omega
    | ⟨1, _⟩ => show win1_3.index t (1 : Fin 2) * 128 + 1 * q.val = q.val; omega
  rw [he]
  exact gcn_rowEq (a1_row V c t p) _ _ q

/-- An index is in point t's block iff each coordinate is in the block's range. -/
theorem mem_blk1 (t : Fin cfg1.N) (i : S10000x128.Idx) :
    i ∈ ((cfg1.win 3).blk t).view.set ↔ ∀ a : Fin 2, win1_3.index t a * S200x128.size a ≤ (i a).val ∧ (i a).val < win1_3.index t a * S200x128.size a + S200x128.size a := by
  show i ∈ ((View.whole main_v8).slice (win1_3.rect t)).set ↔ _
  rw [View.set_slice_whole, Rect.mem_set_unit]
  exact Iff.rfl

/-- Region 1 leaves the whole first layer in its output array: row r is written by point r / 200. -/
theorem arr1 (c : Dev nD) :
    (dat1 V c).arrAt 3 cfg1.N = Spec.gcn (a1Arr V c) (s1Arr V c) (Spec.ofRow1 (b1Arr V c)) :=
  (dat1 V c).arrAt_eq_of_cover 3 _ (fun t _ => flushed1 V c t) (fun i => by
    have h0 : (i 0).val < 10000 := (i 0).isLt
    have h1 : (i 1).val < 128 := (i 1).isLt
    let t : Fin cfg1.N := ⟨(i 0).val / 200, lt_of_lt_of_eq (by omega) N_1.symm⟩
    refine ⟨t, flush1_3 _, ?_⟩
    rw [mem_blk1]
    have e := idx1 t
    have ht : t.val = (i 0).val / 200 := rfl
    intro a
    match a with
    | ⟨0, _⟩ => show win1_3.index t (0 : Fin 2) * 200 ≤ (i 0).val ∧ (i 0).val < win1_3.index t (0 : Fin 2) * 200 + 200; omega
    | ⟨1, _⟩ => show win1_3.index t (1 : Fin 2) * 128 ≤ (i 1).val ∧ (i 1).val < win1_3.index t (1 : Fin 2) * 128 + 128; omega)

/-! ## Region 2: S₂ = H₁ · W₂ -/

/-- The block indices of region 2's windows: all zero at its one point. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

abbrev h2Blk (c : Dev nD) (t : Fin cfg2.N) : Vec Ideal S10000x128 .f32 := iblk2 V c 0 t
abbrev w2Blk (c : Dev nD) (t : Fin cfg2.N) : Vec Ideal S128x64 .f32 := iblk2 V c 1 t
abbrev h2Arr (c : Dev nD) : Vec Ideal S10000x128 .f32 := V c main_v8
abbrev w2Arr (c : Dev nD) : Vec Ideal S128x64 .f32 := V c main_arg4

/-- H₁ is staged whole. -/
theorem h2_eq (c : Dev nD) (t : Fin cfg2.N) : h2Blk V c t = h2Arr V c := by
  funext y
  show V c main_v8 (((cfg2.win 0).blk t).view.emb y) = V c main_v8 y
  refine congrArg _ (funext fun a => Fin.ext ?_)
  have e := idx2 t
  match a with
  | ⟨0, _⟩ => show win2_0.index t (0 : Fin 2) * 10000 + 1 * (y 0).val = (y 0).val; omega
  | ⟨1, _⟩ => show win2_0.index t (1 : Fin 2) * 128 + 1 * (y 1).val = (y 1).val; omega

/-- W₂ is staged whole. -/
theorem w2_eq (c : Dev nD) (t : Fin cfg2.N) : w2Blk V c t = w2Arr V c := by
  funext y
  show V c main_arg4 (((cfg2.win 1).blk t).view.emb y) = V c main_arg4 y
  refine congrArg _ (funext fun a => Fin.ext ?_)
  have e := idx2 t
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- What region 2's point writes back is its block of H₁ · W₂. -/
theorem flushed2 (c : Dev nD) (t : Fin cfg2.N) :
    (dat2 V c).flushed 2 t = ((cfg2.win 2).blk t).view.read (Elt Ideal) (Spec.mm (h2Arr V c) (w2Arr V c)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  rw [Pay.mm2]
  funext j
  show Spec.mm (h2Blk V c t) (w2Blk V c t) j = Spec.mm (h2Arr V c) (w2Arr V c) (((cfg2.win 2).blk t).view.emb j)
  rw [h2_eq, w2_eq]
  refine congrArg _ (funext fun a => Fin.ext ?_)
  have e := idx2 t
  match a with
  | ⟨0, _⟩ => show (j 0).val = win2_2.index t (0 : Fin 2) * 10000 + 1 * (j 0).val; omega
  | ⟨1, _⟩ => show (j 1).val = win2_2.index t (1 : Fin 2) * 64 + 1 * (j 1).val; omega

/-- An index is in the point's block iff each coordinate is in the block's range. -/
theorem mem_blk2 (t : Fin cfg2.N) (i : S10000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v9).slice (win2_2.rect t)).set ↔ _
  rw [View.set_slice_whole, Rect.mem_set_unit]
  exact Iff.rfl

/-- Region 2 leaves H₁ · W₂ in its output array. -/
theorem arr2 (c : Dev nD) : (dat2 V c).arrAt 2 cfg2.N = Spec.mm (h2Arr V c) (w2Arr V c) :=
  (dat2 V c).arrAt_eq_of_cover 2 _ (fun t _ => flushed2 V c t) (fun i => by
    refine ⟨t2_0, flush2_2 _, ?_⟩
    rw [mem_blk2]
    have e := idx2 t2_0
    have h0 : (i 0).val < 10000 := (i 0).isLt
    have h1 : (i 1).val < 64 := (i 1).isLt
    intro a
    match a with
    | ⟨0, _⟩ => show win2_2.index t2_0 (0 : Fin 2) * 10000 ≤ (i 0).val ∧ (i 0).val < win2_2.index t2_0 (0 : Fin 2) * 10000 + 10000; omega
    | ⟨1, _⟩ => show win2_2.index t2_0 (1 : Fin 2) * 64 ≤ (i 1).val ∧ (i 1).val < win2_2.index t2_0 (1 : Fin 2) * 64 + 64; omega)

end Cert.KernelIdeal.Blocks

end
-- ==== Proof.KBlocksB.lean ====
/-
  Region 3, one grid point: what the body leaves in its three output blocks, as the specification's stages of the
  blocks it loads.

  The block of 200 rows gets: into Z's block the H₁ block unchanged (columns 0 … 127) and the second layer
  tanh (A_block · S₂ + b₂) (columns 128 … 191); into the classifier's block the classifier head of those 200 rows;
  into the reconstruction's block the reconstruction head. Both heads' first layers contract the two column groups
  separately.
-/
import proofs.«148078_g73521250173546_cont_sun_c4_545_4_alg».proof.Proof.FrameIdealP
import proofs.«148078_g73521250173546_cont_sun_c4_545_4_alg».proof.Proof.KPay
import proofs.«148078_g73521250173546_cont_sun_c4_545_4_alg».proof.Proof.Spec
import Idealize.ShloMosaic.Lib.Pipeline.Value

noncomputable section

namespace Cert.KernelIdeal.Tile

open Cert.KernelIdeal Cert.KernelIdeal.Gen Cert.KernelIdeal.GenP Cert.Spec
open Idealize.ShloMosaic Idealize.ShloMosaic.TcCoe Idealize.ShloMosaic.ValueIdx Idealize.SL.Sem

/-! ## The two stores into Z's block -/

/-- The offsets of a store at the block's corner are all zero. -/
theorem hz : (![0, 0] : Fin 2 → Nat) = fun _ => 0 := funext fun a => by fin_cases a <;> rfl

/-- Column q < 128 of [A | B] is column q of A. -/
theorem cat_left (A : Mat 200 128) (B : Mat 200 64) (r : Fin 200) (q : Fin 128) (hq : q.val < 192) :
    Spec.cat A B (ix2 r (⟨q.val, hq⟩ : Fin 192)) = A (ix2 r q) := by
  unfold Spec.cat
  exact dif_pos q.isLt

/-- Column 128 + q of [A | B] is column q of B. -/
theorem cat_right (A : Mat 200 128) (B : Mat 200 64) (r : Fin 200) (q : Fin 64) (hq : 128 + q.val < 192) :
    Spec.cat A B (ix2 r (⟨128 + q.val, hq⟩ : Fin 192)) = B (ix2 r q) := by
  unfold Spec.cat
  refine (dif_neg (show ¬ (128 + q.val < 128) by omega)).trans ?_
  exact congrArg (fun t => B (ix2 r t)) (Fin.ext (show 128 + q.val - 128 = q.val by omega))

/-- The 200 × 128 store at the corner puts its entry (r, q) at (r, q) of the block. -/
theorem emb_left (inb : ∀ a, (![0, 0] : Fin 2 → Nat) a + S200x128.size a ≤ S200x192.size a) (r : Fin 200) (q : Fin 128) :
    (Rect.unit (s := S200x192) ![0, 0] S200x128.size inb).emb (ix2 r q)
      = ix2 r (⟨q.val, by have := q.isLt; omega⟩ : Fin 192) := by
  funext a; apply Fin.ext
  match a with
  | ⟨0, _⟩ => show 0 + 1 * r.val = r.val; omega
  | ⟨1, _⟩ => show 0 + 1 * q.val = q.val; omega

/-- The 200 × 64 store at column 128 puts its entry (r, q) at (r, 128 + q) of the block. -/
theorem emb_right (inb : ∀ a, (![0, 128] : Fin 2 → Nat) a + S200x64.size a ≤ S200x192.size a) (r : Fin 200) (q : Fin 64) :
    (Rect.unit (s := S200x192) ![0, 128] S200x64.size inb).emb (ix2 r q)
      = ix2 r (⟨128 + q.val, by have := q.isLt; omega⟩ : Fin 192) := by
  funext a; apply Fin.ext
  match a with
  | ⟨0, _⟩ => show 0 + 1 * r.val = r.val; omega
  | ⟨1, _⟩ => show 128 + 1 * q.val = 128 + q.val; omega

/-- Both stores' payloads are the tiles of [A | B] their rectangles name. -/
theorem cat_of_pieces (A : Vec Ideal S200x128 .f32) (B : Vec Ideal S200x64 .f32)
    (inbL : ∀ a, (![0, 0] : Fin 2 → Nat) a + S200x128.size a ≤ S200x192.size a)
    (inbR : ∀ a, (![0, 128] : Fin 2 → Nat) a + S200x64.size a ≤ S200x192.size a) :
    ∀ p ∈ ([⟨Rect.unit (s := S200x192) ![0, 128] S200x64.size inbR, B⟩,
             ⟨Rect.unit (s := S200x192) ![0, 0] S200x128.size inbL, A⟩] : List (View.Piece (Elt Ideal) S200x192 .f32)),
      ∀ x : p.1.shape.Idx, p.2 x = Spec.cat A B (p.1.emb x) := by
  intro p hp
  rcases List.mem_cons.mp hp with rfl | hp
  · intro x
    obtain ⟨r, q, rfl⟩ : ∃ (r : Fin 200) (q : Fin 64), x = ix2 r q := ⟨x 0, x 1, eq_ix2 x⟩
    exact ((congrArg (Spec.cat A B) (emb_right inbR r q)).trans (cat_right A B r q _)).symm
  · rcases List.mem_cons.mp hp with rfl | hp
    · intro x
      obtain ⟨r, q, rfl⟩ : ∃ (r : Fin 200) (q : Fin 128), x = ix2 r q := ⟨x 0, x 1, eq_ix2 x⟩
      exact ((congrArg (Spec.cat A B) (emb_left inbL r q)).trans (cat_left A B r q _)).symm
    · exact absurd hp List.not_mem_nil

/-! ## What the run found: one lemma per output -/

/-- The classifier's block holds the one store's term of the loaded blocks. -/
theorem piece26 (c : Dev nD) (i : grid3.Coords) (arg1 : Memref sig .tc .vmem S200x10000 .f32) (harg1 : arg1.IsWhole) (arg2 : Memref sig .tc .vmem S10000x64 .f32) (harg2 : arg2.IsWhole) (arg3 : Memref sig .tc .vmem S200x128 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S200x10 .f32) (harg27 : arg27.IsWhole) (arg28 : Memref sig .tc .vmem S200x128 .f32) (harg28 : arg28.IsWhole) (arg29 : Memref sig .tc .vmem S200x192 .f32) (harg29 : arg29.IsWhole)
    (x0 : Vec Ideal S200x10000 .f32) (x1 : Vec Ideal S10000x64 .f32) (x2 : Vec Ideal S200x128 .f32) (x3 : Vec Ideal S1x64 .f32) (x4 : Vec Ideal S128x256 .f32) (x5 : Vec Ideal S64x256 .f32) (x6 : Vec Ideal S1x256 .f32) (x7 : Vec Ideal S1x256 .f32) (x8 : Vec Ideal S1x256 .f32) (x9 : Vec Ideal S1x256 .f32) (x10 : Vec Ideal S1x256 .f32) (x11 : Vec Ideal S256x128 .f32) (x12 : Vec Ideal S1x128 .f32) (x13 : Vec Ideal S1x128 .f32) (x14 : Vec Ideal S1x128 .f32) (x15 : Vec Ideal S1x128 .f32) (x16 : Vec Ideal S1x128 .f32) (x17 : Vec Ideal S128x10 .f32) (x18 : Vec Ideal S1x10 .f32) (x19 : Vec Ideal S128x256 .f32) (x20 : Vec Ideal S64x256 .f32) (x21 : Vec Ideal S1x256 .f32) (x22 : Vec Ideal S256x128 .f32) (x23 : Vec Ideal S1x128 .f32) (x24 : Vec Ideal S128x128 .f32) (x25 : Vec Ideal S1x128 .f32) :
    out3_A_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
      = k3_pay10 (F := Ideal) (k3_pay6 x13) (k3_pay7 x14) (k3_pay8 (k3_pay4 x2 x0 x1 x3 x4 x5 x6) (k3_pay5 x7) x8 x9 x10 x11 x12 x15) (k3_pay9 x16) x17 x18 := by
  unfold out3_A_26
  rw [View.read_writes_eq_canon _ _ _ (cover3_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25)]
  unfold kernelRun3_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S200x10000) hz, View.ld_unit_zero (S := S10000x64) hz, View.ld_unit_zero (S := S200x128) hz, View.ld_unit_zero (S := S1x64) hz, View.ld_unit_zero (S := S128x256) hz, View.ld_unit_zero (S := S64x256) hz, View.ld_unit_zero (S := S1x256) hz, View.ld_unit_zero (S := S256x128) hz, View.ld_unit_zero (S := S1x128) hz, View.ld_unit_zero (S := S128x10) hz, View.ld_unit_zero (S := S1x10) hz, View.ld_unit_zero (S := S128x128) hz]

/-- The reconstruction's block holds the one store's term of the loaded blocks. -/
theorem piece27 (c : Dev nD) (i : grid3.Coords) (arg1 : Memref sig .tc .vmem S200x10000 .f32) (harg1 : arg1.IsWhole) (arg2 : Memref sig .tc .vmem S10000x64 .f32) (harg2 : arg2.IsWhole) (arg3 : Memref sig .tc .vmem S200x128 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S200x10 .f32) (harg27 : arg27.IsWhole) (arg28 : Memref sig .tc .vmem S200x128 .f32) (harg28 : arg28.IsWhole) (arg29 : Memref sig .tc .vmem S200x192 .f32) (harg29 : arg29.IsWhole)
    (x0 : Vec Ideal S200x10000 .f32) (x1 : Vec Ideal S10000x64 .f32) (x2 : Vec Ideal S200x128 .f32) (x3 : Vec Ideal S1x64 .f32) (x4 : Vec Ideal S128x256 .f32) (x5 : Vec Ideal S64x256 .f32) (x6 : Vec Ideal S1x256 .f32) (x7 : Vec Ideal S1x256 .f32) (x8 : Vec Ideal S1x256 .f32) (x9 : Vec Ideal S1x256 .f32) (x10 : Vec Ideal S1x256 .f32) (x11 : Vec Ideal S256x128 .f32) (x12 : Vec Ideal S1x128 .f32) (x13 : Vec Ideal S1x128 .f32) (x14 : Vec Ideal S1x128 .f32) (x15 : Vec Ideal S1x128 .f32) (x16 : Vec Ideal S1x128 .f32) (x17 : Vec Ideal S128x10 .f32) (x18 : Vec Ideal S1x10 .f32) (x19 : Vec Ideal S128x256 .f32) (x20 : Vec Ideal S64x256 .f32) (x21 : Vec Ideal S1x256 .f32) (x22 : Vec Ideal S256x128 .f32) (x23 : Vec Ideal S1x128 .f32) (x24 : Vec Ideal S128x128 .f32) (x25 : Vec Ideal S1x128 .f32) :
    out3_A_27 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
      = k3_pay1 (F := Ideal) (k3_pay11 (k3_pay2 x2) (k3_pay3 x0 x1 x3) x19 x20) x21 x22 x23 x24 x25 := by
  unfold out3_A_27
  rw [View.read_writes_eq_canon _ _ _ (cover3_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25)]
  unfold kernelRun3_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S200x10000) hz, View.ld_unit_zero (S := S10000x64) hz, View.ld_unit_zero (S := S200x128) hz, View.ld_unit_zero (S := S1x64) hz, View.ld_unit_zero (S := S128x256) hz, View.ld_unit_zero (S := S64x256) hz, View.ld_unit_zero (S := S1x256) hz, View.ld_unit_zero (S := S256x128) hz, View.ld_unit_zero (S := S1x128) hz, View.ld_unit_zero (S := S128x10) hz, View.ld_unit_zero (S := S1x10) hz, View.ld_unit_zero (S := S128x128) hz]

/-- Z's block holds the two stores' terms side by side: each is the tile of the concatenation its rectangle names,
    and together the two rectangles cover the block. -/
theorem piece28 (c : Dev nD) (i : grid3.Coords) (arg1 : Memref sig .tc .vmem S200x10000 .f32) (harg1 : arg1.IsWhole) (arg2 : Memref sig .tc .vmem S10000x64 .f32) (harg2 : arg2.IsWhole) (arg3 : Memref sig .tc .vmem S200x128 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S200x10 .f32) (harg27 : arg27.IsWhole) (arg28 : Memref sig .tc .vmem S200x128 .f32) (harg28 : arg28.IsWhole) (arg29 : Memref sig .tc .vmem S200x192 .f32) (harg29 : arg29.IsWhole)
    (x0 : Vec Ideal S200x10000 .f32) (x1 : Vec Ideal S10000x64 .f32) (x2 : Vec Ideal S200x128 .f32) (x3 : Vec Ideal S1x64 .f32) (x4 : Vec Ideal S128x256 .f32) (x5 : Vec Ideal S64x256 .f32) (x6 : Vec Ideal S1x256 .f32) (x7 : Vec Ideal S1x256 .f32) (x8 : Vec Ideal S1x256 .f32) (x9 : Vec Ideal S1x256 .f32) (x10 : Vec Ideal S1x256 .f32) (x11 : Vec Ideal S256x128 .f32) (x12 : Vec Ideal S1x128 .f32) (x13 : Vec Ideal S1x128 .f32) (x14 : Vec Ideal S1x128 .f32) (x15 : Vec Ideal S1x128 .f32) (x16 : Vec Ideal S1x128 .f32) (x17 : Vec Ideal S128x10 .f32) (x18 : Vec Ideal S1x10 .f32) (x19 : Vec Ideal S128x256 .f32) (x20 : Vec Ideal S64x256 .f32) (x21 : Vec Ideal S1x256 .f32) (x22 : Vec Ideal S256x128 .f32) (x23 : Vec Ideal S1x128 .f32) (x24 : Vec Ideal S128x128 .f32) (x25 : Vec Ideal S1x128 .f32) :
    out3_A_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
      = Spec.cat (k3_pay2 (F := Ideal) x2) (k3_pay3 (F := Ideal) x0 x1 x3) := by
  unfold out3_A_28
  rw [View.read_writes_eq_canon _ _ _ (cover3_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25)]
  funext y
  refine View.canon_apply_of_pieces (Spec.cat (k3_pay2 (F := Ideal) x2) (k3_pay3 (F := Ideal) x0 x1 x3)) _ ?_ y (cover3_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 y)
  unfold kernelRun3_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S200x10000) hz, View.ld_unit_zero (S := S10000x64) hz, View.ld_unit_zero (S := S200x128) hz, View.ld_unit_zero (S := S1x64) hz, View.ld_unit_zero (S := S128x256) hz, View.ld_unit_zero (S := S64x256) hz, View.ld_unit_zero (S := S1x256) hz, View.ld_unit_zero (S := S256x128) hz, View.ld_unit_zero (S := S1x128) hz, View.ld_unit_zero (S := S128x10) hz, View.ld_unit_zero (S := S1x10) hz, View.ld_unit_zero (S := S128x128) hz]
  exact cat_of_pieces _ _ _ _

/-! ## The three blocks as the specification's stages -/

/-- The classifier's output block. -/
theorem tile26 (c : Dev nD) (i : grid3.Coords) (arg1 : Memref sig .tc .vmem S200x10000 .f32) (harg1 : arg1.IsWhole) (arg2 : Memref sig .tc .vmem S10000x64 .f32) (harg2 : arg2.IsWhole) (arg3 : Memref sig .tc .vmem S200x128 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S200x10 .f32) (harg27 : arg27.IsWhole) (arg28 : Memref sig .tc .vmem S200x128 .f32) (harg28 : arg28.IsWhole) (arg29 : Memref sig .tc .vmem S200x192 .f32) (harg29 : arg29.IsWhole)
    (x0 : Vec Ideal S200x10000 .f32) (x1 : Vec Ideal S10000x64 .f32) (x2 : Vec Ideal S200x128 .f32) (x3 : Vec Ideal S1x64 .f32) (x4 : Vec Ideal S128x256 .f32) (x5 : Vec Ideal S64x256 .f32) (x6 : Vec Ideal S1x256 .f32) (x7 : Vec Ideal S1x256 .f32) (x8 : Vec Ideal S1x256 .f32) (x9 : Vec Ideal S1x256 .f32) (x10 : Vec Ideal S1x256 .f32) (x11 : Vec Ideal S256x128 .f32) (x12 : Vec Ideal S1x128 .f32) (x13 : Vec Ideal S1x128 .f32) (x14 : Vec Ideal S1x128 .f32) (x15 : Vec Ideal S1x128 .f32) (x16 : Vec Ideal S1x128 .f32) (x17 : Vec Ideal S128x10 .f32) (x18 : Vec Ideal S1x10 .f32) (x19 : Vec Ideal S128x256 .f32) (x20 : Vec Ideal S64x256 .f32) (x21 : Vec Ideal S1x256 .f32) (x22 : Vec Ideal S256x128 .f32) (x23 : Vec Ideal S1x128 .f32) (x24 : Vec Ideal S128x128 .f32) (x25 : Vec Ideal S1x128 .f32) :
    out3_A_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
      = Spec.classifyFrom (Spec.linSplitM x2 (Spec.gcn x0 x1 (Spec.ofRow1 x3)) x4 x5 (Spec.ofRow1 x6))
          (Spec.ofRow1 x7) (Spec.ofRow1 x8) (Spec.ofRow1 x9) (Spec.ofRow1 x10) x11 (Spec.ofRow1 x12)
          (Spec.ofRow1 x13) (Spec.ofRow1 x14) (Spec.ofRow1 x15) (Spec.ofRow1 x16) x17 (Spec.ofRow1 x18) := by
  refine (piece26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).trans ?_
  rw [Pay.first1]
  exact Pay.cls _ x7 x8 x9 x10 x11 x12 x13 x14 x15 x16 x17 x18

/-- The reconstruction's output block. -/
theorem tile27 (c : Dev nD) (i : grid3.Coords) (arg1 : Memref sig .tc .vmem S200x10000 .f32) (harg1 : arg1.IsWhole) (arg2 : Memref sig .tc .vmem S10000x64 .f32) (harg2 : arg2.IsWhole) (arg3 : Memref sig .tc .vmem S200x128 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S200x10 .f32) (harg27 : arg27.IsWhole) (arg28 : Memref sig .tc .vmem S200x128 .f32) (harg28 : arg28.IsWhole) (arg29 : Memref sig .tc .vmem S200x192 .f32) (harg29 : arg29.IsWhole)
    (x0 : Vec Ideal S200x10000 .f32) (x1 : Vec Ideal S10000x64 .f32) (x2 : Vec Ideal S200x128 .f32) (x3 : Vec Ideal S1x64 .f32) (x4 : Vec Ideal S128x256 .f32) (x5 : Vec Ideal S64x256 .f32) (x6 : Vec Ideal S1x256 .f32) (x7 : Vec Ideal S1x256 .f32) (x8 : Vec Ideal S1x256 .f32) (x9 : Vec Ideal S1x256 .f32) (x10 : Vec Ideal S1x256 .f32) (x11 : Vec Ideal S256x128 .f32) (x12 : Vec Ideal S1x128 .f32) (x13 : Vec Ideal S1x128 .f32) (x14 : Vec Ideal S1x128 .f32) (x15 : Vec Ideal S1x128 .f32) (x16 : Vec Ideal S1x128 .f32) (x17 : Vec Ideal S128x10 .f32) (x18 : Vec Ideal S1x10 .f32) (x19 : Vec Ideal S128x256 .f32) (x20 : Vec Ideal S64x256 .f32) (x21 : Vec Ideal S1x256 .f32) (x22 : Vec Ideal S256x128 .f32) (x23 : Vec Ideal S1x128 .f32) (x24 : Vec Ideal S128x128 .f32) (x25 : Vec Ideal S1x128 .f32) :
    out3_A_27 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
      = Spec.reconstructFrom (Spec.linSplitM x2 (Spec.gcn x0 x1 (Spec.ofRow1 x3)) x19 x20 (Spec.ofRow1 x21))
          x22 (Spec.ofRow1 x23) x24 (Spec.ofRow1 x25) := by
  refine (piece27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).trans ?_
  rw [Pay.zLeft, Pay.zRight]
  exact Pay.recon x2 _ x19 x20 x21 x22 x23 x24 x25

/-- Z's output block: [H₁ block | second layer]. -/
theorem tile28 (c : Dev nD) (i : grid3.Coords) (arg1 : Memref sig .tc .vmem S200x10000 .f32) (harg1 : arg1.IsWhole) (arg2 : Memref sig .tc .vmem S10000x64 .f32) (harg2 : arg2.IsWhole) (arg3 : Memref sig .tc .vmem S200x128 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S200x10 .f32) (harg27 : arg27.IsWhole) (arg28 : Memref sig .tc .vmem S200x128 .f32) (harg28 : arg28.IsWhole) (arg29 : Memref sig .tc .vmem S200x192 .f32) (harg29 : arg29.IsWhole)
    (x0 : Vec Ideal S200x10000 .f32) (x1 : Vec Ideal S10000x64 .f32) (x2 : Vec Ideal S200x128 .f32) (x3 : Vec Ideal S1x64 .f32) (x4 : Vec Ideal S128x256 .f32) (x5 : Vec Ideal S64x256 .f32) (x6 : Vec Ideal S1x256 .f32) (x7 : Vec Ideal S1x256 .f32) (x8 : Vec Ideal S1x256 .f32) (x9 : Vec Ideal S1x256 .f32) (x10 : Vec Ideal S1x256 .f32) (x11 : Vec Ideal S256x128 .f32) (x12 : Vec Ideal S1x128 .f32) (x13 : Vec Ideal S1x128 .f32) (x14 : Vec Ideal S1x128 .f32) (x15 : Vec Ideal S1x128 .f32) (x16 : Vec Ideal S1x128 .f32) (x17 : Vec Ideal S128x10 .f32) (x18 : Vec Ideal S1x10 .f32) (x19 : Vec Ideal S128x256 .f32) (x20 : Vec Ideal S64x256 .f32) (x21 : Vec Ideal S1x256 .f32) (x22 : Vec Ideal S256x128 .f32) (x23 : Vec Ideal S1x128 .f32) (x24 : Vec Ideal S128x128 .f32) (x25 : Vec Ideal S1x128 .f32) :
    out3_A_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
      = Spec.cat x2 (Spec.gcn x0 x1 (Spec.ofRow1 x3)) := by
  refine (piece28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).trans ?_
  rw [Pay.zLeft, Pay.zRight]

end Cert.KernelIdeal.Tile

end
-- ==== Proof.KBlocksC.lean ====
/-
  Region 3: what it leaves in its three output arrays, as the specification's functions of the arrays it finds at entry.

  The region walks the 50 blocks of 200 rows of the adjacency matrix and of H₁; every other input (the support S₂,
  the biases and normalisation vectors as 1 × n arrays, the transposed weights) is staged whole at every point. Point t
  writes rows 200·t … 200·t + 199 of each output. Row p of a block's result is row 200·t + p of the whole result,
  because every stage of the two heads, the concatenation and the graph-convolution layer act row by row. The 50
  blocks cover the 10000 rows (row r lies in block r / 200).
-/
import proofs.«148078_g73521250173546_cont_sun_c4_545_4_alg».proof.Proof.FrameIdealP
import proofs.«148078_g73521250173546_cont_sun_c4_545_4_alg».proof.Proof.KBlocksA
import proofs.«148078_g73521250173546_cont_sun_c4_545_4_alg».proof.Proof.KBlocksB
import proofs.«148078_g73521250173546_cont_sun_c4_545_4_alg».proof.Proof.Spec
import Idealize.ShloMosaic.Lib.Pipeline.Value

noncomputable section

namespace Cert.KernelIdeal.Blocks

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The second layer's features as region 3 computes them from the arrays at its entry. -/
abbrev h2At (c : Dev nD) : Mat 10000 64 :=
  Spec.gcn (V c main_arg1 : Vec Ideal S10000x10000 .f32) (V c main_v9 : Vec Ideal S10000x64 .f32) (Spec.ofRow1 (V c main_v10 : Vec Ideal S1x64 .f32))

/-! ## Where each window's block sits at point t -/

/-- The block indices of region 3's windows: the adjacency block, the H₁ block and the three output blocks move down
    the rows with the point; every other window stays at its one block. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (0 : Fin 2) = 0 ∧ win3_13.index t (1 : Fin 2) = 0
    ∧ win3_14.index t (0 : Fin 2) = 0 ∧ win3_14.index t (1 : Fin 2) = 0
    ∧ win3_15.index t (0 : Fin 2) = 0 ∧ win3_15.index t (1 : Fin 2) = 0
    ∧ win3_16.index t (0 : Fin 2) = 0 ∧ win3_16.index t (1 : Fin 2) = 0
    ∧ win3_17.index t (0 : Fin 2) = 0 ∧ win3_17.index t (1 : Fin 2) = 0
    ∧ win3_18.index t (0 : Fin 2) = 0 ∧ win3_18.index t (1 : Fin 2) = 0
    ∧ win3_19.index t (0 : Fin 2) = 0 ∧ win3_19.index t (1 : Fin 2) = 0
    ∧ win3_20.index t (0 : Fin 2) = 0 ∧ win3_20.index t (1 : Fin 2) = 0
    ∧ win3_21.index t (0 : Fin 2) = 0 ∧ win3_21.index t (1 : Fin 2) = 0
    ∧ win3_22.index t (0 : Fin 2) = 0 ∧ win3_22.index t (1 : Fin 2) = 0
    ∧ win3_23.index t (0 : Fin 2) = 0 ∧ win3_23.index t (1 : Fin 2) = 0
    ∧ win3_24.index t (0 : Fin 2) = 0 ∧ win3_24.index t (1 : Fin 2) = 0
    ∧ win3_25.index t (0 : Fin 2) = 0 ∧ win3_25.index t (1 : Fin 2) = 0
    ∧ win3_26.index t (0 : Fin 2) = t.val ∧ win3_26.index t (1 : Fin 2) = 0
    ∧ win3_27.index t (0 : Fin 2) = t.val ∧ win3_27.index t (1 : Fin 2) = 0
    ∧ win3_28.index t (0 : Fin 2) = t.val ∧ win3_28.index t (1 : Fin 2) = 0 :=
  (by decide +kernel : ∀ t : Fin grid3.N, _)

theorem lt50_3 (t : Fin cfg3.N) : t.val < 50 := lt_of_lt_of_eq t.isLt N_3

/-! ## The blocks and the arrays, at their literal types -/

abbrev b3_0 (c : Dev nD) (t : Fin cfg3.N) : Vec Ideal S200x10000 .f32 := iblk3 V c 0 t
abbrev b3_1 (c : Dev nD) (t : Fin cfg3.N) : Vec Ideal S10000x64 .f32 := iblk3 V c 1 t
abbrev b3_2 (c : Dev nD) (t : Fin cfg3.N) : Vec Ideal S200x128 .f32 := iblk3 V c 2 t
abbrev b3_3 (c : Dev nD) (t : Fin cfg3.N) : Vec Ideal S1x64 .f32 := iblk3 V c 3 t
abbrev b3_4 (c : Dev nD) (t : Fin cfg3.N) : Vec Ideal S128x256 .f32 := iblk3 V c 4 t
abbrev b3_5 (c : Dev nD) (t : Fin cfg3.N) : Vec Ideal S64x256 .f32 := iblk3 V c 5 t
abbrev b3_6 (c : Dev nD) (t : Fin cfg3.N) : Vec Ideal S1x256 .f32 := iblk3 V c 6 t
abbrev b3_7 (c : Dev nD) (t : Fin cfg3.N) : Vec Ideal S1x256 .f32 := iblk3 V c 7 t
abbrev b3_8 (c : Dev nD) (t : Fin cfg3.N) : Vec Ideal S1x256 .f32 := iblk3 V c 8 t
abbrev b3_9 (c : Dev nD) (t : Fin cfg3.N) : Vec Ideal S1x256 .f32 := iblk3 V c 9 t
abbrev b3_10 (c : Dev nD) (t : Fin cfg3.N) : Vec Ideal S1x256 .f32 := iblk3 V c 10 t
abbrev b3_11 (c : Dev nD) (t : Fin cfg3.N) : Vec Ideal S256x128 .f32 := iblk3 V c 11 t
abbrev b3_12 (c : Dev nD) (t : Fin cfg3.N) : Vec Ideal S1x128 .f32 := iblk3 V c 12 t
abbrev b3_13 (c : Dev nD) (t : Fin cfg3.N) : Vec Ideal S1x128 .f32 := iblk3 V c 13 t
abbrev b3_14 (c : Dev nD) (t : Fin cfg3.N) : Vec Ideal S1x128 .f32 := iblk3 V c 14 t
abbrev b3_15 (c : Dev nD) (t : Fin cfg3.N) : Vec Ideal S1x128 .f32 := iblk3 V c 15 t
abbrev b3_16 (c : Dev nD) (t : Fin cfg3.N) : Vec Ideal S1x128 .f32 := iblk3 V c 16 t
abbrev b3_17 (c : Dev nD) (t : Fin cfg3.N) : Vec Ideal S128x10 .f32 := iblk3 V c 17 t
abbrev b3_18 (c : Dev nD) (t : Fin cfg3.N) : Vec Ideal S1x10 .f32 := iblk3 V c 18 t
abbrev b3_19 (c : Dev nD) (t : Fin cfg3.N) : Vec Ideal S128x256 .f32 := iblk3 V c 19 t
abbrev b3_20 (c : Dev nD) (t : Fin cfg3.N) : Vec Ideal S64x256 .f32 := iblk3 V c 20 t
abbrev b3_21 (c : Dev nD) (t : Fin cfg3.N) : Vec Ideal S1x256 .f32 := iblk3 V c 21 t
abbrev b3_22 (c : Dev nD) (t : Fin cfg3.N) : Vec Ideal S256x128 .f32 := iblk3 V c 22 t
abbrev b3_23 (c : Dev nD) (t : Fin cfg3.N) : Vec Ideal S1x128 .f32 := iblk3 V c 23 t
abbrev b3_24 (c : Dev nD) (t : Fin cfg3.N) : Vec Ideal S128x128 .f32 := iblk3 V c 24 t
abbrev b3_25 (c : Dev nD) (t : Fin cfg3.N) : Vec Ideal S1x128 .f32 := iblk3 V c 25 t

abbrev a3_0 (c : Dev nD) : Vec Ideal S10000x10000 .f32 := V c main_arg1
abbrev a3_1 (c : Dev nD) : Vec Ideal S10000x64 .f32 := V c main_v9
abbrev a3_2 (c : Dev nD) : Vec Ideal S10000x128 .f32 := V c main_v8
abbrev a3_3 (c : Dev nD) : Vec Ideal S1x64 .f32 := V c main_v10
abbrev a3_4 (c : Dev nD) : Vec Ideal S128x256 .f32 := V c main_v11
abbrev a3_5 (c : Dev nD) : Vec Ideal S64x256 .f32 := V c main_v12
abbrev a3_6 (c : Dev nD) : Vec Ideal S1x256 .f32 := V c main_v13
abbrev a3_7 (c : Dev nD) : Vec Ideal S1x256 .f32 := V c main_v14
abbrev a3_8 (c : Dev nD) : Vec Ideal S1x256 .f32 := V c main_v15
abbrev a3_9 (c : Dev nD) : Vec Ideal S1x256 .f32 := V c main_v16
abbrev a3_10 (c : Dev nD) : Vec Ideal S1x256 .f32 := V c main_v17
abbrev a3_11 (c : Dev nD) : Vec Ideal S256x128 .f32 := V c main_v1
abbrev a3_12 (c : Dev nD) : Vec Ideal S1x128 .f32 := V c main_v18
abbrev a3_13 (c : Dev nD) : Vec Ideal S1x128 .f32 := V c main_v19
abbrev a3_14 (c : Dev nD) : Vec Ideal S1x128 .f32 := V c main_v20
abbrev a3_15 (c : Dev nD) : Vec Ideal S1x128 .f32 := V c main_v21
abbrev a3_16 (c : Dev nD) : Vec Ideal S1x128 .f32 := V c main_v22
abbrev a3_17 (c : Dev nD) : Vec Ideal S128x10 .f32 := V c main_v2
abbrev a3_18 (c : Dev nD) : Vec Ideal S1x10 .f32 := V c main_v23
abbrev a3_19 (c : Dev nD) : Vec Ideal S128x256 .f32 := V c main_v24
abbrev a3_20 (c : Dev nD) : Vec Ideal S64x256 .f32 := V c main_v25
abbrev a3_21 (c : Dev nD) : Vec Ideal S1x256 .f32 := V c main_v26
abbrev a3_22 (c : Dev nD) : Vec Ideal S256x128 .f32 := V c main_v4
abbrev a3_23 (c : Dev nD) : Vec Ideal S1x128 .f32 := V c main_v27
abbrev a3_24 (c : Dev nD) : Vec Ideal S128x128 .f32 := V c main_v5
abbrev a3_25 (c : Dev nD) : Vec Ideal S1x128 .f32 := V c main_v28

/-! ## The 24 windows staged whole -/

/-- A window whose block index is zero on both axes reads, at every index of its block, the array at that index:
    the block's coordinate on an axis is index × size + the coordinate inside the block. -/
local macro "whole_window " V:ident c:ident t:ident arr:ident w:num wi:ident d0:num d1:num : tactic =>
  `(tactic| (
    funext y
    show $V $c $arr (((cfg3.win $w).blk $t).view.emb y) = $V $c $arr y
    refine congrArg _ (funext fun a => Fin.ext ?_)
    have e := idx3 $t
    match a with
    | ⟨0, _⟩ => show ($wi).index $t (0 : Fin 2) * $d0 + 1 * (y 0).val = (y 0).val; omega
    | ⟨1, _⟩ => show ($wi).index $t (1 : Fin 2) * $d1 + 1 * (y 1).val = (y 1).val; omega))

theorem w3_1_eq (c : Dev nD) (t : Fin cfg3.N) : b3_1 V c t = a3_1 V c := by
  whole_window V c t main_v9 1 win3_1 10000 64
theorem w3_3_eq (c : Dev nD) (t : Fin cfg3.N) : b3_3 V c t = a3_3 V c := by
  whole_window V c t main_v10 3 win3_3 1 64
theorem w3_4_eq (c : Dev nD) (t : Fin cfg3.N) : b3_4 V c t = a3_4 V c := by
  whole_window V c t main_v11 4 win3_4 128 256
theorem w3_5_eq (c : Dev nD) (t : Fin cfg3.N) : b3_5 V c t = a3_5 V c := by
  whole_window V c t main_v12 5 win3_5 64 256
theorem w3_6_eq (c : Dev nD) (t : Fin cfg3.N) : b3_6 V c t = a3_6 V c := by
  whole_window V c t main_v13 6 win3_6 1 256
theorem w3_7_eq (c : Dev nD) (t : Fin cfg3.N) : b3_7 V c t = a3_7 V c := by
  whole_window V c t main_v14 7 win3_7 1 256
theorem w3_8_eq (c : Dev nD) (t : Fin cfg3.N) : b3_8 V c t = a3_8 V c := by
  whole_window V c t main_v15 8 win3_8 1 256
theorem w3_9_eq (c : Dev nD) (t : Fin cfg3.N) : b3_9 V c t = a3_9 V c := by
  whole_window V c t main_v16 9 win3_9 1 256
theorem w3_10_eq (c : Dev nD) (t : Fin cfg3.N) : b3_10 V c t = a3_10 V c := by
  whole_window V c t main_v17 10 win3_10 1 256
theorem w3_11_eq (c : Dev nD) (t : Fin cfg3.N) : b3_11 V c t = a3_11 V c := by
  whole_window V c t main_v1 11 win3_11 256 128
theorem w3_12_eq (c : Dev nD) (t : Fin cfg3.N) : b3_12 V c t = a3_12 V c := by
  whole_window V c t main_v18 12 win3_12 1 128
theorem w3_13_eq (c : Dev nD) (t : Fin cfg3.N) : b3_13 V c t = a3_13 V c := by
  whole_window V c t main_v19 13 win3_13 1 128
theorem w3_14_eq (c : Dev nD) (t : Fin cfg3.N) : b3_14 V c t = a3_14 V c := by
  whole_window V c t main_v20 14 win3_14 1 128
theorem w3_15_eq (c : Dev nD) (t : Fin cfg3.N) : b3_15 V c t = a3_15 V c := by
  whole_window V c t main_v21 15 win3_15 1 128
theorem w3_16_eq (c : Dev nD) (t : Fin cfg3.N) : b3_16 V c t = a3_16 V c := by
  whole_window V c t main_v22 16 win3_16 1 128
theorem w3_17_eq (c : Dev nD) (t : Fin cfg3.N) : b3_17 V c t = a3_17 V c := by
  whole_window V c t main_v2 17 win3_17 128 10
theorem w3_18_eq (c : Dev nD) (t : Fin cfg3.N) : b3_18 V c t = a3_18 V c := by
  whole_window V c t main_v23 18 win3_18 1 10
theorem w3_19_eq (c : Dev nD) (t : Fin cfg3.N) : b3_19 V c t = a3_19 V c := by
  whole_window V c t main_v24 19 win3_19 128 256
theorem w3_20_eq (c : Dev nD) (t : Fin cfg3.N) : b3_20 V c t = a3_20 V c := by
  whole_window V c t main_v25 20 win3_20 64 256
theorem w3_21_eq (c : Dev nD) (t : Fin cfg3.N) : b3_21 V c t = a3_21 V c := by
  whole_window V c t main_v26 21 win3_21 1 256
theorem w3_22_eq (c : Dev nD) (t : Fin cfg3.N) : b3_22 V c t = a3_22 V c := by
  whole_window V c t main_v4 22 win3_22 256 128
theorem w3_23_eq (c : Dev nD) (t : Fin cfg3.N) : b3_23 V c t = a3_23 V c := by
  whole_window V c t main_v27 23 win3_23 1 128
theorem w3_24_eq (c : Dev nD) (t : Fin cfg3.N) : b3_24 V c t = a3_24 V c := by
  whole_window V c t main_v5 24 win3_24 128 128
theorem w3_25_eq (c : Dev nD) (t : Fin cfg3.N) : b3_25 V c t = a3_25 V c := by
  whole_window V c t main_v28 25 win3_25 1 128

/-! ## The two windows that move down the rows -/

/-- Row p of the adjacency block at point t is row 200·t + p of the adjacency matrix. -/
theorem row3_0 (c : Dev nD) (t : Fin cfg3.N) (p : Fin 200) :
    RowEq (b3_0 V c t) p (a3_0 V c) ⟨200 * t.val + p.val, by have := lt50_3 t; have := p.isLt; omega⟩ := by
  intro k
  show V c main_arg1 (((cfg3.win 0).blk t).view.emb (ix2 p k)) = V c main_arg1 (ix2 _ k)
  refine congrArg _ (funext fun a => Fin.ext ?_)
  have e := idx3 t
  match a with
  | ⟨0, _⟩ => show win3_0.index t (0 : Fin 2) * 200 + 1 * p.val = 200 * t.val + p.val; omega
  | ⟨1, _⟩ => show win3_0.index t (1 : Fin 2) * 10000 + 1 * k.val = k.val; omega

/-- Row p of the H₁ block at point t is row 200·t + p of H₁. -/
theorem row3_2 (c : Dev nD) (t : Fin cfg3.N) (p : Fin 200) :
    RowEq (b3_2 V c t) p (a3_2 V c) ⟨200 * t.val + p.val, by have := lt50_3 t; have := p.isLt; omega⟩ := by
  intro k
  show V c main_v8 (((cfg3.win 2).blk t).view.emb (ix2 p k)) = V c main_v8 (ix2 _ k)
  refine congrArg _ (funext fun a => Fin.ext ?_)
  have e := idx3 t
  match a with
  | ⟨0, _⟩ => show win3_2.index t (0 : Fin 2) * 200 + 1 * p.val = 200 * t.val + p.val; omega
  | ⟨1, _⟩ => show win3_2.index t (1 : Fin 2) * 128 + 1 * k.val = k.val; omega

/-- Row p of the second layer computed from the blocks at point t is row 200·t + p of the whole second layer. -/
theorem row3_h2 (c : Dev nD) (t : Fin cfg3.N) (p : Fin 200) :
    RowEq (Spec.gcn (b3_0 V c t) (a3_1 V c) (Spec.ofRow1 (a3_3 V c))) p (h2At V c)
      ⟨200 * t.val + p.val, by have := lt50_3 t; have := p.isLt; omega⟩ :=
  gcn_rowEq (row3_0 V c t p) _ _

/-! ## What each point writes back -/

/-- The first layer of either head on the blocks at point t, with the whole arrays in place of the windows staged
    whole: its row p is row 200·t + p of the first layer on the whole arrays. -/
theorem row3_first (c : Dev nD) (t : Fin cfg3.N) (p : Fin 200) (Ba : Mat 128 256) (Bb : Mat 64 256) (b : Row 256) :
    RowEq (Spec.linSplitM (b3_2 V c t) (Spec.gcn (b3_0 V c t) (a3_1 V c) (Spec.ofRow1 (a3_3 V c))) Ba Bb b) p
      (Spec.linSplitM (a3_2 V c) (h2At V c) Ba Bb b)
      ⟨200 * t.val + p.val, by have := lt50_3 t; have := p.isLt; omega⟩ :=
  linSplitM_rowEq (row3_2 V c t p) (row3_h2 V c t p) _ _ _

/-- The classifier head of the whole arrays. -/
abbrev clsAt (c : Dev nD) : Mat 10000 10 :=
  Spec.classifyFrom
    (Spec.linSplitM (V c main_v8 : Vec Ideal S10000x128 .f32) (h2At V c) (V c main_v11 : Vec Ideal S128x256 .f32)
      (V c main_v12 : Vec Ideal S64x256 .f32) (Spec.ofRow1 (V c main_v13 : Vec Ideal S1x256 .f32)))
    (Spec.ofRow1 (V c main_v14 : Vec Ideal S1x256 .f32)) (Spec.ofRow1 (V c main_v15 : Vec Ideal S1x256 .f32))
    (Spec.ofRow1 (V c main_v16 : Vec Ideal S1x256 .f32)) (Spec.ofRow1 (V c main_v17 : Vec Ideal S1x256 .f32))
    (V c main_v1 : Vec Ideal S256x128 .f32) (Spec.ofRow1 (V c main_v18 : Vec Ideal S1x128 .f32))
    (Spec.ofRow1 (V c main_v19 : Vec Ideal S1x128 .f32)) (Spec.ofRow1 (V c main_v20 : Vec Ideal S1x128 .f32))
    (Spec.ofRow1 (V c main_v21 : Vec Ideal S1x128 .f32)) (Spec.ofRow1 (V c main_v22 : Vec Ideal S1x128 .f32))
    (V c main_v2 : Vec Ideal S128x10 .f32) (Spec.ofRow1 (V c main_v23 : Vec Ideal S1x10 .f32))

/-- The reconstruction head of the whole arrays. -/
abbrev recAt (c : Dev nD) : Mat 10000 128 :=
  Spec.reconstructFrom
    (Spec.linSplitM (V c main_v8 : Vec Ideal S10000x128 .f32) (h2At V c) (V c main_v24 : Vec Ideal S128x256 .f32)
      (V c main_v25 : Vec Ideal S64x256 .f32) (Spec.ofRow1 (V c main_v26 : Vec Ideal S1x256 .f32)))
    (V c main_v4 : Vec Ideal S256x128 .f32) (Spec.ofRow1 (V c main_v27 : Vec Ideal S1x128 .f32))
    (V c main_v5 : Vec Ideal S128x128 .f32) (Spec.ofRow1 (V c main_v28 : Vec Ideal S1x128 .f32))

/-- Z of the whole arrays. -/
abbrev zAt (c : Dev nD) : Mat 10000 192 := Spec.cat (V c main_v8 : Vec Ideal S10000x128 .f32) (h2At V c)

/-- What point t writes back to the classifier's array is its block of the whole classifier head. -/
theorem flushed3_26 (c : Dev nD) (t : Fin cfg3.N) :
    (dat3 V c).flushed 26 t = ((cfg3.win 26).blk t).view.read (Elt Ideal) (clsAt V c) := by
  show (cfg3.win 26).cut (grid3.coords t) ((dat3 V c).after 26 t) = _
  rw [after3_26]
  dsimp only [outsAt3]
  rw [Tile.tile26 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) (ms3_17 t) (hs3_17 t) (ms3_18 t) (hs3_18 t) (ms3_19 t) (hs3_19 t) (ms3_20 t) (hs3_20 t) (ms3_21 t) (hs3_21 t) (ms3_22 t) (hs3_22 t) (ms3_23 t) (hs3_23 t) (ms3_24 t) (hs3_24 t) (ms3_25 t) (hs3_25 t) (ms3_26 t) (hs3_26 t) (ms3_27 t) (hs3_27 t) (ms3_28 t) (hs3_28 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t)]
  funext j
  obtain ⟨p, q, rfl⟩ : ∃ (p : Fin 200) (q : Fin 10), j = ix2 p q := ⟨j 0, j 1, eq_ix2 j⟩
  show Spec.classifyFrom
      (Spec.linSplitM (b3_2 V c t) (Spec.gcn (b3_0 V c t) (b3_1 V c t) (Spec.ofRow1 (b3_3 V c t))) (b3_4 V c t) (b3_5 V c t)
        (Spec.ofRow1 (b3_6 V c t)))
      (Spec.ofRow1 (b3_7 V c t)) (Spec.ofRow1 (b3_8 V c t)) (Spec.ofRow1 (b3_9 V c t)) (Spec.ofRow1 (b3_10 V c t))
      (b3_11 V c t) (Spec.ofRow1 (b3_12 V c t)) (Spec.ofRow1 (b3_13 V c t)) (Spec.ofRow1 (b3_14 V c t))
      (Spec.ofRow1 (b3_15 V c t)) (Spec.ofRow1 (b3_16 V c t)) (b3_17 V c t) (Spec.ofRow1 (b3_18 V c t)) (ix2 p q)
    = clsAt V c (((cfg3.win 26).blk t).view.emb (ix2 p q))
  rw [w3_1_eq, w3_3_eq, w3_4_eq, w3_5_eq, w3_6_eq, w3_7_eq, w3_8_eq, w3_9_eq, w3_10_eq, w3_11_eq, w3_12_eq, w3_13_eq,
    w3_14_eq, w3_15_eq, w3_16_eq, w3_17_eq, w3_18_eq]
  have he : ((cfg3.win 26).blk t).view.emb (ix2 p q)
      = ix2 (⟨200 * t.val + p.val, by have := lt50_3 t; have := p.isLt; omega⟩ : Fin 10000) q := by
    funext a; apply Fin.ext
    have e := idx3 t
    match a with
    | ⟨0, _⟩ => show win3_26.index t (0 : Fin 2) * 200 + 1 * p.val = 200 * t.val + p.val; omega
    | ⟨1, _⟩ => show win3_26.index t (1 : Fin 2) * 10 + 1 * q.val = q.val; omega
  rw [he]
  exact classifyFrom_rowEq (row3_first V c t p _ _ _) _ _ _ _ _ _ _ _ _ _ _ _ q

/-- What point t writes back to the reconstruction's array is its block of the whole reconstruction head. -/
theorem flushed3_27 (c : Dev nD) (t : Fin cfg3.N) :
    (dat3 V c).flushed 27 t = ((cfg3.win 27).blk t).view.read (Elt Ideal) (recAt V c) := by
  show (cfg3.win 27).cut (grid3.coords t) ((dat3 V c).after 27 t) = _
  rw [after3_27]
  dsimp only [outsAt3]
  rw [Tile.tile27 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) (ms3_17 t) (hs3_17 t) (ms3_18 t) (hs3_18 t) (ms3_19 t) (hs3_19 t) (ms3_20 t) (hs3_20 t) (ms3_21 t) (hs3_21 t) (ms3_22 t) (hs3_22 t) (ms3_23 t) (hs3_23 t) (ms3_24 t) (hs3_24 t) (ms3_25 t) (hs3_25 t) (ms3_26 t) (hs3_26 t) (ms3_27 t) (hs3_27 t) (ms3_28 t) (hs3_28 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t)]
  funext j
  obtain ⟨p, q, rfl⟩ : ∃ (p : Fin 200) (q : Fin 128), j = ix2 p q := ⟨j 0, j 1, eq_ix2 j⟩
  show Spec.reconstructFrom
      (Spec.linSplitM (b3_2 V c t) (Spec.gcn (b3_0 V c t) (b3_1 V c t) (Spec.ofRow1 (b3_3 V c t))) (b3_19 V c t) (b3_20 V c t)
        (Spec.ofRow1 (b3_21 V c t)))
      (b3_22 V c t) (Spec.ofRow1 (b3_23 V c t)) (b3_24 V c t) (Spec.ofRow1 (b3_25 V c t)) (ix2 p q)
    = recAt V c (((cfg3.win 27).blk t).view.emb (ix2 p q))
  rw [w3_1_eq, w3_3_eq, w3_19_eq, w3_20_eq, w3_21_eq, w3_22_eq, w3_23_eq, w3_24_eq, w3_25_eq]
  have he : ((cfg3.win 27).blk t).view.emb (ix2 p q)
      = ix2 (⟨200 * t.val + p.val, by have := lt50_3 t; have := p.isLt; omega⟩ : Fin 10000) q := by
    funext a; apply Fin.ext
    have e := idx3 t
    match a with
    | ⟨0, _⟩ => show win3_27.index t (0 : Fin 2) * 200 + 1 * p.val = 200 * t.val + p.val; omega
    | ⟨1, _⟩ => show win3_27.index t (1 : Fin 2) * 128 + 1 * q.val = q.val; omega
  rw [he]
  exact reconstructFrom_rowEq (row3_first V c t p _ _ _) _ _ _ _ q

/-- What point t writes back to Z's array is its block of the whole Z. -/
theorem flushed3_28 (c : Dev nD) (t : Fin cfg3.N) :
    (dat3 V c).flushed 28 t = ((cfg3.win 28).blk t).view.read (Elt Ideal) (zAt V c) := by
  show (cfg3.win 28).cut (grid3.coords t) ((dat3 V c).after 28 t) = _
  rw [after3_28]
  dsimp only [outsAt3]
  rw [Tile.tile28 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) (ms3_17 t) (hs3_17 t) (ms3_18 t) (hs3_18 t) (ms3_19 t) (hs3_19 t) (ms3_20 t) (hs3_20 t) (ms3_21 t) (hs3_21 t) (ms3_22 t) (hs3_22 t) (ms3_23 t) (hs3_23 t) (ms3_24 t) (hs3_24 t) (ms3_25 t) (hs3_25 t) (ms3_26 t) (hs3_26 t) (ms3_27 t) (hs3_27 t) (ms3_28 t) (hs3_28 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t)]
  funext j
  obtain ⟨p, q, rfl⟩ : ∃ (p : Fin 200) (q : Fin 192), j = ix2 p q := ⟨j 0, j 1, eq_ix2 j⟩
  show Spec.cat (b3_2 V c t) (Spec.gcn (b3_0 V c t) (b3_1 V c t) (Spec.ofRow1 (b3_3 V c t))) (ix2 p q)
    = zAt V c (((cfg3.win 28).blk t).view.emb (ix2 p q))
  rw [w3_1_eq, w3_3_eq]
  have he : ((cfg3.win 28).blk t).view.emb (ix2 p q)
      = ix2 (⟨200 * t.val + p.val, by have := lt50_3 t; have := p.isLt; omega⟩ : Fin 10000) q := by
    funext a; apply Fin.ext
    have e := idx3 t
    match a with
    | ⟨0, _⟩ => show win3_28.index t (0 : Fin 2) * 200 + 1 * p.val = 200 * t.val + p.val; omega
    | ⟨1, _⟩ => show win3_28.index t (1 : Fin 2) * 192 + 1 * q.val = q.val; omega
  rw [he]
  exact cat_rowEq (row3_2 V c t p) (row3_h2 V c t p) q

/-! ## The 50 blocks cover the 10000 rows -/

/-- An index of the classifier's array is in point t's block iff each coordinate is in the block's range. -/
theorem mem_blk3_26 (t : Fin cfg3.N) (i : S10000x10.Idx) :
    i ∈ ((cfg3.win 26).blk t).view.set ↔ ∀ a : Fin 2, win3_26.index t a * S200x10.size a ≤ (i a).val ∧ (i a).val < win3_26.index t a * S200x10.size a + S200x10.size a := by
  show i ∈ ((View.whole main_v29_0).slice (win3_26.rect t)).set ↔ _
  rw [View.set_slice_whole, Rect.mem_set_unit]
  exact Iff.rfl

/-- The same for the reconstruction's array. -/
theorem mem_blk3_27 (t : Fin cfg3.N) (i : S10000x128.Idx) :
    i ∈ ((cfg3.win 27).blk t).view.set ↔ ∀ a : Fin 2, win3_27.index t a * S200x128.size a ≤ (i a).val ∧ (i a).val < win3_27.index t a * S200x128.size a + S200x128.size a := by
  show i ∈ ((View.whole main_v29_1).slice (win3_27.rect t)).set ↔ _
  rw [View.set_slice_whole, Rect.mem_set_unit]
  exact Iff.rfl

/-- The same for Z's array. -/
theorem mem_blk3_28 (t : Fin cfg3.N) (i : S10000x192.Idx) :
    i ∈ ((cfg3.win 28).blk t).view.set ↔ ∀ a : Fin 2, win3_28.index t a * S200x192.size a ≤ (i a).val ∧ (i a).val < win3_28.index t a * S200x192.size a + S200x192.size a := by
  show i ∈ ((View.whole main_v29_2).slice (win3_28.rect t)).set ↔ _
  rw [View.set_slice_whole, Rect.mem_set_unit]
  exact Iff.rfl

/-! ## The three arrays -/

/-- Region 3 leaves Z = [H₁ | H₂] in its third output array. -/
theorem arr3_z (c : Dev nD) :
    (dat3 V c).arrAt 28 cfg3.N = Spec.cat (V c main_v8 : Vec Ideal S10000x128 .f32) (h2At V c) :=
  (dat3 V c).arrAt_eq_of_cover 28 _ (fun t _ => flushed3_28 V c t) (fun i => by
    have h0 : (i 0).val < 10000 := (i 0).isLt
    have h1 : (i 1).val < 192 := (i 1).isLt
    let t : Fin cfg3.N := ⟨(i 0).val / 200, lt_of_lt_of_eq (by omega) N_3.symm⟩
    refine ⟨t, flush3_28 _, ?_⟩
    rw [mem_blk3_28]
    have e := idx3 t
    have ht : t.val = (i 0).val / 200 := rfl
    intro a
    match a with
    | ⟨0, _⟩ => show win3_28.index t (0 : Fin 2) * 200 ≤ (i 0).val ∧ (i 0).val < win3_28.index t (0 : Fin 2) * 200 + 200; omega
    | ⟨1, _⟩ => show win3_28.index t (1 : Fin 2) * 192 ≤ (i 1).val ∧ (i 1).val < win3_28.index t (1 : Fin 2) * 192 + 192; omega)

/-- Region 3 leaves the classifier head in its first output array. -/
theorem arr3_cls (c : Dev nD) :
    (dat3 V c).arrAt 26 cfg3.N
      = Spec.classifyFrom
          (Spec.linSplitM (V c main_v8 : Vec Ideal S10000x128 .f32) (h2At V c) (V c main_v11 : Vec Ideal S128x256 .f32)
            (V c main_v12 : Vec Ideal S64x256 .f32) (Spec.ofRow1 (V c main_v13 : Vec Ideal S1x256 .f32)))
          (Spec.ofRow1 (V c main_v14 : Vec Ideal S1x256 .f32)) (Spec.ofRow1 (V c main_v15 : Vec Ideal S1x256 .f32))
          (Spec.ofRow1 (V c main_v16 : Vec Ideal S1x256 .f32)) (Spec.ofRow1 (V c main_v17 : Vec Ideal S1x256 .f32))
          (V c main_v1 : Vec Ideal S256x128 .f32) (Spec.ofRow1 (V c main_v18 : Vec Ideal S1x128 .f32))
          (Spec.ofRow1 (V c main_v19 : Vec Ideal S1x128 .f32)) (Spec.ofRow1 (V c main_v20 : Vec Ideal S1x128 .f32))
          (Spec.ofRow1 (V c main_v21 : Vec Ideal S1x128 .f32)) (Spec.ofRow1 (V c main_v22 : Vec Ideal S1x128 .f32))
          (V c main_v2 : Vec Ideal S128x10 .f32) (Spec.ofRow1 (V c main_v23 : Vec Ideal S1x10 .f32)) :=
  (dat3 V c).arrAt_eq_of_cover 26 _ (fun t _ => flushed3_26 V c t) (fun i => by
    have h0 : (i 0).val < 10000 := (i 0).isLt
    have h1 : (i 1).val < 10 := (i 1).isLt
    let t : Fin cfg3.N := ⟨(i 0).val / 200, lt_of_lt_of_eq (by omega) N_3.symm⟩
    refine ⟨t, flush3_26 _, ?_⟩
    rw [mem_blk3_26]
    have e := idx3 t
    have ht : t.val = (i 0).val / 200 := rfl
    intro a
    match a with
    | ⟨0, _⟩ => show win3_26.index t (0 : Fin 2) * 200 ≤ (i 0).val ∧ (i 0).val < win3_26.index t (0 : Fin 2) * 200 + 200; omega
    | ⟨1, _⟩ => show win3_26.index t (1 : Fin 2) * 10 ≤ (i 1).val ∧ (i 1).val < win3_26.index t (1 : Fin 2) * 10 + 10; omega)

/-- Region 3 leaves the reconstruction head in its second output array. -/
theorem arr3_rec (c : Dev nD) :
    (dat3 V c).arrAt 27 cfg3.N
      = Spec.reconstructFrom
          (Spec.linSplitM (V c main_v8 : Vec Ideal S10000x128 .f32) (h2At V c) (V c main_v24 : Vec Ideal S128x256 .f32)
            (V c main_v25 : Vec Ideal S64x256 .f32) (Spec.ofRow1 (V c main_v26 : Vec Ideal S1x256 .f32)))
          (V c main_v4 : Vec Ideal S256x128 .f32) (Spec.ofRow1 (V c main_v27 : Vec Ideal S1x128 .f32))
          (V c main_v5 : Vec Ideal S128x128 .f32) (Spec.ofRow1 (V c main_v28 : Vec Ideal S1x128 .f32)) :=
  (dat3 V c).arrAt_eq_of_cover 27 _ (fun t _ => flushed3_27 V c t) (fun i => by
    have h0 : (i 0).val < 10000 := (i 0).isLt
    have h1 : (i 1).val < 128 := (i 1).isLt
    let t : Fin cfg3.N := ⟨(i 0).val / 200, lt_of_lt_of_eq (by omega) N_3.symm⟩
    refine ⟨t, flush3_27 _, ?_⟩
    rw [mem_blk3_27]
    have e := idx3 t
    have ht : t.val = (i 0).val / 200 := rfl
    intro a
    match a with
    | ⟨0, _⟩ => show win3_27.index t (0 : Fin 2) * 200 ≤ (i 0).val ∧ (i 0).val < win3_27.index t (0 : Fin 2) * 200 + 200; omega
    | ⟨1, _⟩ => show win3_27.index t (1 : Fin 2) * 128 ≤ (i 1).val ∧ (i 1).val < win3_27.index t (1 : Fin 2) * 128 + 128; omega)

end Cert.KernelIdeal.Blocks

end
-- ==== Proof.KFold.lean ====
/-
  The kernel program's three result arrays as the specification's functions of the argument arrays.

  @main is a chain: six transpositions, region 0 (S₁ = X · W₁), one bias layout, region 1 (H₁), region 2 (S₂ = H₁ · W₂),
  nineteen layouts and slices, region 3 (the two heads and Z). The buffer contents at each boundary are a fold from
  the launch memory. A buffer that a stretch or a region does not write keeps its contents across it; with that, every
  array region 3 reads is traced back to the arguments: the adjacency matrix and the biases unchanged, the head weights
  transposed (and, for each head's first layer, cut at row 128), H₁ and S₂ as regions 1 and 2 left them. Then the
  first layers' split contraction is the contraction over all 192 columns of Z = [H₁ | H₂].
-/
import proofs.«148078_g73521250173546_cont_sun_c4_545_4_alg».proof.Proof.FrameIdealP
import proofs.«148078_g73521250173546_cont_sun_c4_545_4_alg».proof.Proof.KHost
import proofs.«148078_g73521250173546_cont_sun_c4_545_4_alg».proof.Proof.KBlocksA
import proofs.«148078_g73521250173546_cont_sun_c4_545_4_alg».proof.Proof.KBlocksC
import proofs.«148078_g73521250173546_cont_sun_c4_545_4_alg».proof.Proof.Spec

noncomputable section

namespace Cert.KernelIdeal.Fold

open Cert.KernelIdeal Cert.KernelIdeal.Gen Cert.KernelIdeal.GenP Cert.Spec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What each region keeps -/

/-- Region 0 writes its output array only. -/
theorem W2_keep (b : Ref sig .tc) (hb : b ≠ main_v6) : W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl hb
  · exact W2_of_ne m ρ c b fun w e => h ⟨w, e⟩

/-- Region 1 writes its output array only. -/
theorem W4_keep (b : Ref sig .tc) (hb : b ≠ main_v8) : W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb
  · exact W4_of_ne m ρ c b fun w e => h ⟨w, e⟩

/-- Region 2 writes its output array only. -/
theorem W5_keep (b : Ref sig .tc) (hb : b ≠ main_v9) : W5 m ρ c (Proc.devRef .tc b) = W4 m ρ c (Proc.devRef .tc b) := by
  by_cases h : ∃ w, Pipeline.arrRef spec2 w = b
  · obtain ⟨w, rfl⟩ := h
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact absurd rfl hb
  · exact W5_of_ne m ρ c b fun w e => h ⟨w, e⟩

/-! ## A buffer nothing writes before a boundary holds its launch contents there -/

/-- After the transpositions. -/
theorem W1_base (b : Ref sig .tc) (h0 : ∀ r ∈ ([main_v0, main_v1, main_v2, main_v3, main_v4, main_v5] : List (Ref sig .tc)), b ≠ r) :
    W1 m ρ c (Proc.devRef .tc b) = m ((c : Thread nD τ).loc b) :=
  (HostSide.ops0_keep (W0 m ρ c) b h0).trans rfl

/-- After region 0. -/
theorem W2_base (b : Ref sig .tc) (h0 : ∀ r ∈ ([main_v0, main_v1, main_v2, main_v3, main_v4, main_v5] : List (Ref sig .tc)), b ≠ r)
    (h6 : b ≠ main_v6) : W2 m ρ c (Proc.devRef .tc b) = m ((c : Thread nD τ).loc b) :=
  (W2_keep m ρ c b h6).trans (W1_base m ρ c b h0)

/-- After the first bias layout. -/
theorem W3_base (b : Ref sig .tc) (h0 : ∀ r ∈ ([main_v0, main_v1, main_v2, main_v3, main_v4, main_v5] : List (Ref sig .tc)), b ≠ r)
    (h6 : b ≠ main_v6) (h7 : b ≠ main_v7) : W3 m ρ c (Proc.devRef .tc b) = m ((c : Thread nD τ).loc b) :=
  (HostSide.ops1_keep (W2 m ρ c) b (fun r hr => (List.mem_singleton.mp hr) ▸ h7)).trans (W2_base m ρ c b h0 h6)

/-- After region 1. -/
theorem W4_base (b : Ref sig .tc) (h0 : ∀ r ∈ ([main_v0, main_v1, main_v2, main_v3, main_v4, main_v5] : List (Ref sig .tc)), b ≠ r)
    (h6 : b ≠ main_v6) (h7 : b ≠ main_v7) (h8 : b ≠ main_v8) : W4 m ρ c (Proc.devRef .tc b) = m ((c : Thread nD τ).loc b) :=
  (W4_keep m ρ c b h8).trans (W3_base m ρ c b h0 h6 h7)

/-- After region 2. -/
theorem W5_base (b : Ref sig .tc) (h0 : ∀ r ∈ ([main_v0, main_v1, main_v2, main_v3, main_v4, main_v5] : List (Ref sig .tc)), b ≠ r)
    (h6 : b ≠ main_v6) (h7 : b ≠ main_v7) (h8 : b ≠ main_v8) (h9 : b ≠ main_v9) :
    W5 m ρ c (Proc.devRef .tc b) = m ((c : Thread nD τ).loc b) :=
  (W5_keep m ρ c b h9).trans (W4_base m ρ c b h0 h6 h7 h8)

/-- A transposed weight matrix, written before region 0, is still there after region 2. -/
theorem W5_of_W1 (b : Ref sig .tc) (h6 : b ≠ main_v6) (h7 : b ≠ main_v7) (h8 : b ≠ main_v8) (h9 : b ≠ main_v9) :
    W5 m ρ c (Proc.devRef .tc b) = W1 m ρ c (Proc.devRef .tc b) :=
  (W5_keep m ρ c b h9).trans ((W4_keep m ρ c b h8).trans
    ((HostSide.ops1_keep (W2 m ρ c) b (fun r hr => (List.mem_singleton.mp hr) ▸ h7)).trans (W2_keep m ρ c b h6)))

/-! ## The features, region by region -/

/-- Region 0 leaves S₁ = X · W₁. -/
theorem s1_val : W2 m ρ c (Proc.devRef .tc main_v6) = Spec.mm (m ((c : Thread nD τ).loc main_arg0)) (m ((c : Thread nD τ).loc main_arg2)) := by
  refine (W2_arr m ρ c 2).trans ((Blocks.arr0 (V1 m ρ) c).trans ?_)
  show Spec.mm (W1 m ρ c (Proc.devRef .tc main_arg0)) (W1 m ρ c (Proc.devRef .tc main_arg2)) = _
  rw [W1_base m ρ c main_arg0 (by decide), W1_base m ρ c main_arg2 (by decide)]

/-- S₁ is still there after the first bias layout. -/
theorem s1_3 : W3 m ρ c (Proc.devRef .tc main_v6) = Spec.mm (m ((c : Thread nD τ).loc main_arg0)) (m ((c : Thread nD τ).loc main_arg2)) :=
  (HostSide.ops1_keep (W2 m ρ c) main_v6 (by decide)).trans (s1_val m ρ c)

/-- Region 1 leaves H₁. -/
theorem h1_val : W4 m ρ c (Proc.devRef .tc main_v8) = Spec.feat₁ (m ((c : Thread nD τ).loc main_arg0)) (m ((c : Thread nD τ).loc main_arg1)) (m ((c : Thread nD τ).loc main_arg2)) (m ((c : Thread nD τ).loc main_arg3)) := by
  refine (W4_arr m ρ c 3).trans ((Blocks.arr1 (V3 m ρ) c).trans ?_)
  show Spec.gcn (W3 m ρ c (Proc.devRef .tc main_arg1)) (W3 m ρ c (Proc.devRef .tc main_v6))
      (Spec.ofRow1 (W3 m ρ c (Proc.devRef .tc main_v7))) = _
  rw [W3_base m ρ c main_arg1 (by decide) (by decide) (by decide), HostSide.ops1_v7 (W2 m ρ c),
    W2_base m ρ c main_arg3 (by decide) (by decide), s1_3]
  rfl

/-- Region 2 leaves S₂ = H₁ · W₂. -/
theorem s2_val : W5 m ρ c (Proc.devRef .tc main_v9)
    = Spec.mm (Spec.feat₁ (m ((c : Thread nD τ).loc main_arg0)) (m ((c : Thread nD τ).loc main_arg1)) (m ((c : Thread nD τ).loc main_arg2)) (m ((c : Thread nD τ).loc main_arg3))) (m ((c : Thread nD τ).loc main_arg4)) := by
  refine (W5_arr m ρ c 2).trans ((Blocks.arr2 (V4 m ρ) c).trans ?_)
  show Spec.mm (W4 m ρ c (Proc.devRef .tc main_v8)) (W4 m ρ c (Proc.devRef .tc main_arg4)) = _
  rw [h1_val, W4_base m ρ c main_arg4 (by decide) (by decide) (by decide) (by decide)]

/-! ## What region 3 finds -/

/-- The adjacency matrix. -/
theorem adj_6 : W6 m ρ c (Proc.devRef .tc main_arg1) = m ((c : Thread nD τ).loc main_arg1) :=
  (HostSide.ops3_keep (W5 m ρ c) main_arg1 (by decide)).trans (W5_base m ρ c main_arg1 (by decide) (by decide) (by decide) (by decide) (by decide))

/-- H₁, as region 1 left it. -/
theorem h1_6 : W6 m ρ c (Proc.devRef .tc main_v8) = Spec.feat₁ (m ((c : Thread nD τ).loc main_arg0)) (m ((c : Thread nD τ).loc main_arg1)) (m ((c : Thread nD τ).loc main_arg2)) (m ((c : Thread nD τ).loc main_arg3)) :=
  (HostSide.ops3_keep (W5 m ρ c) main_v8 (by decide)).trans ((W5_keep m ρ c main_v8 (by decide)).trans (h1_val m ρ c))

/-- S₂, as region 2 left it. -/
theorem s2_6 : W6 m ρ c (Proc.devRef .tc main_v9) = Spec.mm (Spec.feat₁ (m ((c : Thread nD τ).loc main_arg0)) (m ((c : Thread nD τ).loc main_arg1)) (m ((c : Thread nD τ).loc main_arg2)) (m ((c : Thread nD τ).loc main_arg3))) (m ((c : Thread nD τ).loc main_arg4)) :=
  (HostSide.ops3_keep (W5 m ρ c) main_v9 (by decide)).trans (s2_val m ρ c)

/-! The vectors, each laid out as a 1 × n array and read back. -/

theorem v10_6 : Spec.ofRow1 (W6 m ρ c (Proc.devRef .tc main_v10)) = m ((c : Thread nD τ).loc main_arg5) :=
  (HostSide.ops3_v10 (W5 m ρ c)).trans (W5_base m ρ c main_arg5 (by decide) (by decide) (by decide) (by decide) (by decide))

theorem v13_6 : Spec.ofRow1 (W6 m ρ c (Proc.devRef .tc main_v13)) = m ((c : Thread nD τ).loc main_arg7) :=
  (HostSide.ops3_v13 (W5 m ρ c)).trans (W5_base m ρ c main_arg7 (by decide) (by decide) (by decide) (by decide) (by decide))

theorem v14_6 : Spec.ofRow1 (W6 m ρ c (Proc.devRef .tc main_v14)) = m ((c : Thread nD τ).loc main_arg8) :=
  (HostSide.ops3_v14 (W5 m ρ c)).trans (W5_base m ρ c main_arg8 (by decide) (by decide) (by decide) (by decide) (by decide))

theorem v15_6 : Spec.ofRow1 (W6 m ρ c (Proc.devRef .tc main_v15)) = m ((c : Thread nD τ).loc main_arg9) :=
  (HostSide.ops3_v15 (W5 m ρ c)).trans (W5_base m ρ c main_arg9 (by decide) (by decide) (by decide) (by decide) (by decide))

theorem v16_6 : Spec.ofRow1 (W6 m ρ c (Proc.devRef .tc main_v16)) = m ((c : Thread nD τ).loc main_arg10) :=
  (HostSide.ops3_v16 (W5 m ρ c)).trans (W5_base m ρ c main_arg10 (by decide) (by decide) (by decide) (by decide) (by decide))

theorem v17_6 : Spec.ofRow1 (W6 m ρ c (Proc.devRef .tc main_v17)) = m ((c : Thread nD τ).loc main_arg11) :=
  (HostSide.ops3_v17 (W5 m ρ c)).trans (W5_base m ρ c main_arg11 (by decide) (by decide) (by decide) (by decide) (by decide))

theorem v18_6 : Spec.ofRow1 (W6 m ρ c (Proc.devRef .tc main_v18)) = m ((c : Thread nD τ).loc main_arg13) :=
  (HostSide.ops3_v18 (W5 m ρ c)).trans (W5_base m ρ c main_arg13 (by decide) (by decide) (by decide) (by decide) (by decide))

theorem v19_6 : Spec.ofRow1 (W6 m ρ c (Proc.devRef .tc main_v19)) = m ((c : Thread nD τ).loc main_arg14) :=
  (HostSide.ops3_v19 (W5 m ρ c)).trans (W5_base m ρ c main_arg14 (by decide) (by decide) (by decide) (by decide) (by decide))

theorem v20_6 : Spec.ofRow1 (W6 m ρ c (Proc.devRef .tc main_v20)) = m ((c : Thread nD τ).loc main_arg15) :=
  (HostSide.ops3_v20 (W5 m ρ c)).trans (W5_base m ρ c main_arg15 (by decide) (by decide) (by decide) (by decide) (by decide))

theorem v21_6 : Spec.ofRow1 (W6 m ρ c (Proc.devRef .tc main_v21)) = m ((c : Thread nD τ).loc main_arg16) :=
  (HostSide.ops3_v21 (W5 m ρ c)).trans (W5_base m ρ c main_arg16 (by decide) (by decide) (by decide) (by decide) (by decide))

theorem v22_6 : Spec.ofRow1 (W6 m ρ c (Proc.devRef .tc main_v22)) = m ((c : Thread nD τ).loc main_arg17) :=
  (HostSide.ops3_v22 (W5 m ρ c)).trans (W5_base m ρ c main_arg17 (by decide) (by decide) (by decide) (by decide) (by decide))

theorem v23_6 : Spec.ofRow1 (W6 m ρ c (Proc.devRef .tc main_v23)) = m ((c : Thread nD τ).loc main_arg19) :=
  (HostSide.ops3_v23 (W5 m ρ c)).trans (W5_base m ρ c main_arg19 (by decide) (by decide) (by decide) (by decide) (by decide))

theorem v26_6 : Spec.ofRow1 (W6 m ρ c (Proc.devRef .tc main_v26)) = m ((c : Thread nD τ).loc main_arg21) :=
  (HostSide.ops3_v26 (W5 m ρ c)).trans (W5_base m ρ c main_arg21 (by decide) (by decide) (by decide) (by decide) (by decide))

theorem v27_6 : Spec.ofRow1 (W6 m ρ c (Proc.devRef .tc main_v27)) = m ((c : Thread nD τ).loc main_arg23) :=
  (HostSide.ops3_v27 (W5 m ρ c)).trans (W5_base m ρ c main_arg23 (by decide) (by decide) (by decide) (by decide) (by decide))

theorem v28_6 : Spec.ofRow1 (W6 m ρ c (Proc.devRef .tc main_v28)) = m ((c : Thread nD τ).loc main_arg25) :=
  (HostSide.ops3_v28 (W5 m ρ c)).trans (W5_base m ρ c main_arg25 (by decide) (by decide) (by decide) (by decide) (by decide))

/-! The transposed weights of the later layers. -/

theorem v1_6 : W6 m ρ c (Proc.devRef .tc main_v1) = Spec.tr (m ((c : Thread nD τ).loc main_arg12)) :=
  (HostSide.ops3_keep (W5 m ρ c) main_v1 (by decide)).trans
    ((W5_of_W1 m ρ c main_v1 (by decide) (by decide) (by decide) (by decide)).trans (HostSide.ops0_v1 (W0 m ρ c)))

theorem v2_6 : W6 m ρ c (Proc.devRef .tc main_v2) = Spec.tr (m ((c : Thread nD τ).loc main_arg18)) :=
  (HostSide.ops3_keep (W5 m ρ c) main_v2 (by decide)).trans
    ((W5_of_W1 m ρ c main_v2 (by decide) (by decide) (by decide) (by decide)).trans (HostSide.ops0_v2 (W0 m ρ c)))

theorem v4_6 : W6 m ρ c (Proc.devRef .tc main_v4) = Spec.tr (m ((c : Thread nD τ).loc main_arg22)) :=
  (HostSide.ops3_keep (W5 m ρ c) main_v4 (by decide)).trans
    ((W5_of_W1 m ρ c main_v4 (by decide) (by decide) (by decide) (by decide)).trans (HostSide.ops0_v4 (W0 m ρ c)))

theorem v5_6 : W6 m ρ c (Proc.devRef .tc main_v5) = Spec.tr (m ((c : Thread nD τ).loc main_arg24)) :=
  (HostSide.ops3_keep (W5 m ρ c) main_v5 (by decide)).trans
    ((W5_of_W1 m ρ c main_v5 (by decide) (by decide) (by decide) (by decide)).trans (HostSide.ops0_v5 (W0 m ρ c)))

/-! The first-layer weights of each head, transposed and cut at row 128. -/

theorem v11_6 : W6 m ρ c (Proc.devRef .tc main_v11) = Spec.topRows (Spec.tr (m ((c : Thread nD τ).loc main_arg6))) :=
  (HostSide.ops3_v11 (W5 m ρ c)).trans (congrArg Spec.topRows
    ((W5_of_W1 m ρ c main_v0 (by decide) (by decide) (by decide) (by decide)).trans (HostSide.ops0_v0 (W0 m ρ c))))

theorem v12_6 : W6 m ρ c (Proc.devRef .tc main_v12) = Spec.botRows (Spec.tr (m ((c : Thread nD τ).loc main_arg6))) :=
  (HostSide.ops3_v12 (W5 m ρ c)).trans (congrArg Spec.botRows
    ((W5_of_W1 m ρ c main_v0 (by decide) (by decide) (by decide) (by decide)).trans (HostSide.ops0_v0 (W0 m ρ c))))

theorem v24_6 : W6 m ρ c (Proc.devRef .tc main_v24) = Spec.topRows (Spec.tr (m ((c : Thread nD τ).loc main_arg20))) :=
  (HostSide.ops3_v24 (W5 m ρ c)).trans (congrArg Spec.topRows
    ((W5_of_W1 m ρ c main_v3 (by decide) (by decide) (by decide) (by decide)).trans (HostSide.ops0_v3 (W0 m ρ c))))

theorem v25_6 : W6 m ρ c (Proc.devRef .tc main_v25) = Spec.botRows (Spec.tr (m ((c : Thread nD τ).loc main_arg20))) :=
  (HostSide.ops3_v25 (W5 m ρ c)).trans (congrArg Spec.botRows
    ((W5_of_W1 m ρ c main_v3 (by decide) (by decide) (by decide) (by decide)).trans (HostSide.ops0_v3 (W0 m ρ c))))

/-! ## The three results -/

/-- The third result is Z = [H₁ | H₂]. -/
theorem outZ_eq : W7 m ρ c (Proc.devRef .tc main_v29_2)
    = Spec.outZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 28).trans ((Blocks.arr3_z (V6 m ρ) c).trans ?_)
  show Spec.cat (W6 m ρ c (Proc.devRef .tc main_v8)) (Spec.gcn (W6 m ρ c (Proc.devRef .tc main_arg1)) (W6 m ρ c (Proc.devRef .tc main_v9)) (Spec.ofRow1 (W6 m ρ c (Proc.devRef .tc main_v10)))) = _
  rw [h1_6, adj_6, s2_6, v10_6]
  rfl

/-- The first result is the classifier head on Z: the split first layer is the layer on the concatenation. -/
theorem outClass_eq : W7 m ρ c (Proc.devRef .tc main_v29_0)
    = Spec.outClass (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W7_arr m ρ c 26).trans ((Blocks.arr3_cls (V6 m ρ) c).trans ?_)
  show Spec.classifyFrom
      (Spec.linSplitM (W6 m ρ c (Proc.devRef .tc main_v8)) (Spec.gcn (W6 m ρ c (Proc.devRef .tc main_arg1)) (W6 m ρ c (Proc.devRef .tc main_v9)) (Spec.ofRow1 (W6 m ρ c (Proc.devRef .tc main_v10))))
        (W6 m ρ c (Proc.devRef .tc main_v11)) (W6 m ρ c (Proc.devRef .tc main_v12)) (Spec.ofRow1 (W6 m ρ c (Proc.devRef .tc main_v13))))
      (Spec.ofRow1 (W6 m ρ c (Proc.devRef .tc main_v14))) (Spec.ofRow1 (W6 m ρ c (Proc.devRef .tc main_v15))) (Spec.ofRow1 (W6 m ρ c (Proc.devRef .tc main_v16))) (Spec.ofRow1 (W6 m ρ c (Proc.devRef .tc main_v17)))
      (W6 m ρ c (Proc.devRef .tc main_v1)) (Spec.ofRow1 (W6 m ρ c (Proc.devRef .tc main_v18)))
      (Spec.ofRow1 (W6 m ρ c (Proc.devRef .tc main_v19))) (Spec.ofRow1 (W6 m ρ c (Proc.devRef .tc main_v20))) (Spec.ofRow1 (W6 m ρ c (Proc.devRef .tc main_v21))) (Spec.ofRow1 (W6 m ρ c (Proc.devRef .tc main_v22)))
      (W6 m ρ c (Proc.devRef .tc main_v2)) (Spec.ofRow1 (W6 m ρ c (Proc.devRef .tc main_v23))) = _
  rw [h1_6, adj_6, s2_6, v10_6, v11_6, v12_6, v13_6, v14_6, v15_6, v16_6, v17_6, v1_6, v18_6, v19_6, v20_6, v21_6, v22_6, v2_6, v23_6]
  unfold Spec.outClass Spec.classify Spec.outZ
  rw [Spec.linM_cat]
  rfl

/-- The second result is the reconstruction head on Z. -/
theorem outRecon_eq : W7 m ρ c (Proc.devRef .tc main_v29_1)
    = Spec.outRecon (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  refine (W7_arr m ρ c 27).trans ((Blocks.arr3_rec (V6 m ρ) c).trans ?_)
  show Spec.reconstructFrom
      (Spec.linSplitM (W6 m ρ c (Proc.devRef .tc main_v8)) (Spec.gcn (W6 m ρ c (Proc.devRef .tc main_arg1)) (W6 m ρ c (Proc.devRef .tc main_v9)) (Spec.ofRow1 (W6 m ρ c (Proc.devRef .tc main_v10))))
        (W6 m ρ c (Proc.devRef .tc main_v24)) (W6 m ρ c (Proc.devRef .tc main_v25)) (Spec.ofRow1 (W6 m ρ c (Proc.devRef .tc main_v26))))
      (W6 m ρ c (Proc.devRef .tc main_v4)) (Spec.ofRow1 (W6 m ρ c (Proc.devRef .tc main_v27))) (W6 m ρ c (Proc.devRef .tc main_v5)) (Spec.ofRow1 (W6 m ρ c (Proc.devRef .tc main_v28))) = _
  rw [h1_6, adj_6, s2_6, v10_6, v24_6, v25_6, v26_6, v4_6, v27_6, v5_6, v28_6]
  unfold Spec.outRecon Spec.reconstruct Spec.outZ
  rw [Spec.linM_cat]
  rfl

end Cert.KernelIdeal.Fold

end
-- ==== Proof.RefOps.lean ====
/-
  Two host operations read at an index, for any number of rows.

  The column concatenation of an m × 128 and an m × 64 array is the specification's `cat`: a column below 128
  comes from the first array at the same place, a column from 128 on from the second array, 128 columns to the left.

  The row maximum of an m × n array started from −∞ (a reduction with a maximum body over the column axis) is the
  specification's `rowMax`: a reduction over one axis with a commutative and associative body is the fold over that
  axis's coordinates, and the reduced index p with column q put back is (p, q). Taking the maximum of the result
  with −∞ once more changes nothing.
-/
import proofs.«148078_g73521250173546_cont_sun_c4_545_4_alg».proof.Proof.Spec
import Idealize.ShloMosaic.Lib.Pipeline.Value
import Idealize.ShloMosaic.PureOps.Reduce
import Idealize.ShloMosaic.PureOps.Ideal.Laws

noncomputable section

open scoped BigOperators

namespace Cert.ReferenceIdeal.RefValue

open Cert.Spec Idealize.ShloMosaic Idealize.ShloMosaic.ValueIdx

/-- [H₁ | H₂] as the host joins it along the column axis. -/
theorem concat_cols_eq {m : Nat} (H₁ : Mat m 128) (H₂ : Mat m 64)
    (h : Shape.Concatenates [(⟨2, ![m, 128]⟩ : Shape), (⟨2, ![m, 64]⟩ : Shape)] (⟨2, ![m, 192]⟩ : Shape) 1) :
    concatenate (⟨2, ![m, 192]⟩ : Shape) 1 [⟨(⟨2, ![m, 128]⟩ : Shape), H₁⟩, ⟨(⟨2, ![m, 64]⟩ : Shape), H₂⟩] h = Spec.cat H₁ H₂ := by
  funext j
  unfold Spec.cat
  by_cases hj : (j 1).val < 128
  · rw [dif_pos hj]
    exact concatenate_pair_apply_left (t := (⟨2, ![m, 192]⟩ : Shape)) (s₁ := (⟨2, ![m, 128]⟩ : Shape)) (s₂ := (⟨2, ![m, 64]⟩ : Shape))
      1 H₁ H₂ h j rfl (ix2 (j 0) ⟨(j 1).val, hj⟩) (fun b => match b with | ⟨0, _⟩ => rfl | ⟨1, _⟩ => rfl)
  · rw [dif_neg hj]
    exact concatenate_pair_apply_right (t := (⟨2, ![m, 192]⟩ : Shape)) (s₁ := (⟨2, ![m, 128]⟩ : Shape)) (s₂ := (⟨2, ![m, 64]⟩ : Shape))
      1 H₁ H₂ h j rfl rfl (ix2 (j 0) ⟨(j 1).val - 128, by have := idx2_lt1 j; omega⟩)
      (fun b hb => match b, hb with | ⟨0, _⟩, _ => rfl | ⟨1, _⟩, hb => absurd rfl hb)
      (by show (j 1).val - 128 + 128 = (j 1).val; omega)

/-- The maximum with −∞ on the left is the other operand. -/
theorem max_negInf_left (y : EReal) : max Spec.negInf y = y := by
  simp [Spec.negInf, Ideal.ofBits, Ideal.ieee]

/-- The reduced index p with column q put back is (p, q). -/
theorem lift_col {m n : Nat} (h : (⟨2, ![m, n]⟩ : Shape).Reduces [1] (⟨1, ![m]⟩ : Shape)) (p : Fin m)
    (q : Fin ((⟨2, ![m, n]⟩ : Shape).size 1)) : h.lift (ix1 p) q = ix2 p (⟨q.val, q.isLt⟩ : Fin n) := by
  funext c; apply Fin.ext
  fin_cases c <;> rfl

/-- The host's row maximum from −∞ is the specification's. -/
theorem hostRowMax_eq {m n : Nat} (V : Mat m n) (h' : (⟨2, ![m, n]⟩ : Shape).ReducesTo [1] (⟨1, ![m]⟩ : Shape))
    (hu : 0 < (⟨0, ![]⟩ : Shape).numel) (p : Fin m) :
    Host.reduce FloatOps.maximumf V (constant (F := Ideal) (⟨0, ![]⟩ : Shape) .f32 0xFF800000#32) h' hu (ix1 p)
      = Spec.rowMax V p := by
  have h : (⟨2, ![m, n]⟩ : Shape).Reduces [1] (⟨1, ![m]⟩ : Shape) := ⟨h'.1, Nat.one_pos, h'.2⟩
  rw [Host.reduce_eq_fold_single (α := Ideal .f32) (FloatOps.maximumf (F := Ideal) (φ := .f32)) V _ h' h hu]
  have hf : (V ∘ h.lift (ix1 p)) = fun q : Fin n => V (ix2 p q) := funext fun q => congrArg V (lift_col h p q)
  unfold Spec.rowMax
  exact congrArg (fun f => Finset.fold max Spec.negInf f (Finset.univ : Finset (Fin n))) hf

end Cert.ReferenceIdeal.RefValue

end
-- ==== Proof.RefFeat.lean ====
/-
  The reference's two graph-convolution layers and the column concatenation, stage by stage.

  Each stage is read at an index from its operands at an index: a product is the sum over the inner coordinate,
  a bias is broadcast along the rows, the hyperbolic tangent acts element by element. The index functions the
  reading produces are the pairs (row, inner) and (inner, column) of the specification's product.
-/
import proofs.«148078_g73521250173546_cont_sun_c4_545_4_alg».proof.Proof.RefReadP
import proofs.«148078_g73521250173546_cont_sun_c4_545_4_alg».proof.Proof.Spec
import proofs.«148078_g73521250173546_cont_sun_c4_545_4_alg».proof.Proof.RefOps
import Idealize.ShloMosaic.PureOps.Ideal.Laws

noncomputable section

open scoped BigOperators

namespace Cert.ReferenceIdeal.RefValue

open Cert.ReferenceIdeal Cert.ReferenceIdeal.Gen Cert.ReferenceIdeal.ReadP Cert.Spec Idealize.ShloMosaic Idealize.ShloMosaic.ValueIdx

/-- Two indices built coordinate by coordinate are equal when their coordinates are. -/
local macro "idx_eq" : tactic => `(tactic| first
  | exact funext fun a => match a with | ⟨0, _⟩ => rfl | ⟨1, _⟩ => rfl
  | exact funext fun a => match a with | ⟨0, _⟩ => rfl)

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-- X · W₁. -/
theorem v0_eq : val_main_v0 (F := Ideal) x0 x2 = Spec.mm x0 x2 := by
  funext i
  rw [val_main_v0_apply]
  exact Finset.sum_congr rfl fun k _ => congrArg₂ (· * ·) (congrArg x0 (by idx_eq)) (congrArg x2 (by idx_eq))

/-- H₁ = tanh (A · (X · W₁) + b₁). -/
theorem v5_eq : val_main_v5 (F := Ideal) x0 x1 x2 x3 = Spec.feat₁ x0 x1 x2 x3 := by
  funext i
  rw [val_main_v5_apply, val_main_v4_apply, val_main_v1_apply, val_main_v3_apply, val_main_v2_apply, v0_eq,
    Ideal.hostUnary_tanh_def, Ideal.addf_def]
  exact congrArg Ideal.tanh (congrArg₂ (· + ·)
    (Finset.sum_congr rfl fun k _ => congrArg₂ (· * ·) (congrArg x1 (by idx_eq)) (congrArg (Spec.mm x0 x2) (by idx_eq)))
    (congrArg x3 (by idx_eq)))

/-- H₁ · W₂. -/
theorem v6_eq : val_main_v6 (F := Ideal) x0 x1 x2 x3 x4 = Spec.mm (Spec.feat₁ x0 x1 x2 x3) x4 := by
  funext i
  rw [val_main_v6_apply, v5_eq]
  exact Finset.sum_congr rfl fun k _ =>
    congrArg₂ (· * ·) (congrArg (Spec.feat₁ x0 x1 x2 x3) (by idx_eq)) (congrArg x4 (by idx_eq))

/-- H₂ = tanh (A · (H₁ · W₂) + b₂). -/
theorem v11_eq : val_main_v11 (F := Ideal) x0 x1 x2 x3 x4 x5 = Spec.feat₂ x0 x1 x2 x3 x4 x5 := by
  funext i
  rw [val_main_v11_apply, val_main_v10_apply, val_main_v7_apply, val_main_v9_apply, val_main_v8_apply, v6_eq,
    Ideal.hostUnary_tanh_def, Ideal.addf_def]
  exact congrArg Ideal.tanh (congrArg₂ (· + ·)
    (Finset.sum_congr rfl fun k _ => congrArg₂ (· * ·) (congrArg x1 (by idx_eq))
      (congrArg (Spec.mm (Spec.feat₁ x0 x1 x2 x3) x4) (by idx_eq)))
    (congrArg x5 (by idx_eq)))

/-- Z = [H₁ | H₂]. -/
theorem v12_eq : val_main_v12 (F := Ideal) x0 x1 x2 x3 x4 x5 = Spec.outZ x0 x1 x2 x3 x4 x5 := by
  unfold val_main_v12
  rw [v5_eq, v11_eq]
  exact concat_cols_eq (Spec.feat₁ x0 x1 x2 x3) (Spec.feat₂ x0 x1 x2 x3 x4 x5) concatenates_S10000x128_S10000x64_S10000x192_d1

end Cert.ReferenceIdeal.RefValue

end
-- ==== Proof.RefClass.lean ====
/-
  The reference's classifier head, stage by stage, from Z = [H₁ | H₂] (the value of the concatenation, kept as it is).

  A linear layer is the product with the transposed weight matrix plus the bias broadcast along the rows; a batch
  normalisation subtracts the running mean, divides by the square root of the running variance plus ε, multiplies
  by the scale and adds the shift, each a vector broadcast along the rows; a rectifier is the maximum with the zero
  word; the log-softmax subtracts the row maximum (taken once more against −∞, which changes nothing) and then the
  logarithm of the row's sum of exponentials, the sum started from the zero word.
-/
import proofs.«148078_g73521250173546_cont_sun_c4_545_4_alg».proof.Proof.RefReadP
import proofs.«148078_g73521250173546_cont_sun_c4_545_4_alg».proof.Proof.Spec
import proofs.«148078_g73521250173546_cont_sun_c4_545_4_alg».proof.Proof.RefOps
import Idealize.ShloMosaic.PureOps.Ideal.Laws

noncomputable section

open scoped BigOperators

namespace Cert.ReferenceIdeal.RefValue

open Cert.ReferenceIdeal Cert.ReferenceIdeal.Gen Cert.ReferenceIdeal.ReadP Cert.Spec Idealize.ShloMosaic Idealize.ShloMosaic.ValueIdx

/-- Two indices built coordinate by coordinate are equal when their coordinates are. -/
local macro "idx_eq" : tactic => `(tactic| first
  | exact funext fun a => match a with | ⟨0, _⟩ => rfl | ⟨1, _⟩ => rfl
  | exact funext fun a => match a with | ⟨0, _⟩ => rfl)

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
variable (x6 : (⟨S256x192, .f32⟩ : BufTy).Contents (Elt Ideal)) (x7 x8 x9 x10 x11 : (⟨S256, .f32⟩ : BufTy).Contents (Elt Ideal)) (x12 : (⟨S128x256, .f32⟩ : BufTy).Contents (Elt Ideal)) (x13 x14 x15 x16 x17 : (⟨S128, .f32⟩ : BufTy).Contents (Elt Ideal)) (x18 : (⟨S10x128, .f32⟩ : BufTy).Contents (Elt Ideal)) (x19 : (⟨S10, .f32⟩ : BufTy).Contents (Elt Ideal))

/-- The first layer: Z · C₁ᵀ + c₁. -/
theorem v17_eq : val_main_v17 (F := Ideal) x0 x1 x2 x3 x4 x5 x6 x7
    = Spec.linM (val_main_v12 (F := Ideal) x0 x1 x2 x3 x4 x5) (Spec.tr x6) x7 := by
  funext i
  rw [val_main_v17_apply, val_main_v14_apply, val_main_v16_apply, val_main_v15_apply, Ideal.addf_def]
  exact congrArg₂ (· + ·)
    (Finset.sum_congr rfl fun k _ => congrArg₂ (· * ·)
      (congrArg (val_main_v12 (F := Ideal) x0 x1 x2 x3 x4 x5) (by idx_eq))
      ((val_main_v13_apply x6 _).trans (congrArg x6 (by idx_eq))))
    (congrArg x7 (by idx_eq))

/-- The first batch normalisation. -/
theorem v32_eq : val_main_v32 (F := Ideal) x0 x1 x2 x3 x4 x5 x6 x7 x8 x9 x10 x11
    = Spec.bn (val_main_v17 (F := Ideal) x0 x1 x2 x3 x4 x5 x6 x7) x8 x9 x10 x11 := by
  funext i
  have e1 : idx_main_v18 (idx_main_v19 i) = ix1 (i 1) := by idx_eq
  have e2 : idx_main_v24 (idx_main_v25 i) = ix1 (i 1) := by idx_eq
  have e3 : idx_main_v27 (idx_main_v28 i) = ix1 (i 1) := by idx_eq
  have e4 : idx_main_v30 (idx_main_v31 i) = ix1 (i 1) := by idx_eq
  rw [val_main_v32_apply, val_main_v29_apply, val_main_v26_apply, val_main_v20_apply, val_main_v19_apply,
    val_main_v18_apply, val_main_v25_apply, val_main_v24_apply, val_main_v23_apply, val_main_v22_apply,
    val_main_v21_apply, val_main_cst_apply, val_main_v28_apply, val_main_v27_apply, val_main_v31_apply,
    val_main_v30_apply, e1, e2, e3, e4]
  simp only [Ideal.addf_def, Ideal.mulf_def, Ideal.hostDivf_def, Ideal.subf_def, Ideal.hostUnary_sqrt_def, Ideal.ofBits_def]
  rfl

/-- The first rectifier. -/
theorem v33_eq : val_main_v33 (F := Ideal) x0 x1 x2 x3 x4 x5 x6 x7 x8 x9 x10 x11 = Spec.relu (val_main_v32 (F := Ideal) x0 x1 x2 x3 x4 x5 x6 x7 x8 x9 x10 x11) := by
  funext i
  rw [val_main_v33_apply, val_main_call0_v0_apply, val_main_call0_cst_apply, Ideal.maximumf_def, Ideal.ofBits_def,
    Ideal.ofBits_zero_f32]
  rfl

/-- The second layer. -/
theorem v38_eq : val_main_v38 (F := Ideal) x0 x1 x2 x3 x4 x5 x6 x7 x8 x9 x10 x11 x12 x13
    = Spec.linM (val_main_v33 (F := Ideal) x0 x1 x2 x3 x4 x5 x6 x7 x8 x9 x10 x11) (Spec.tr x12) x13 := by
  funext i
  rw [val_main_v38_apply, val_main_v35_apply, val_main_v37_apply, val_main_v36_apply, Ideal.addf_def]
  exact congrArg₂ (· + ·)
    (Finset.sum_congr rfl fun k _ => congrArg₂ (· * ·)
      (congrArg (val_main_v33 (F := Ideal) x0 x1 x2 x3 x4 x5 x6 x7 x8 x9 x10 x11) (by idx_eq))
      ((val_main_v34_apply x12 _).trans (congrArg x12 (by idx_eq))))
    (congrArg x13 (by idx_eq))

/-- The second batch normalisation. -/
theorem v53_eq : val_main_v53 (F := Ideal) x0 x1 x2 x3 x4 x5 x6 x7 x8 x9 x10 x11 x12 x13 x14 x15 x16 x17
    = Spec.bn (val_main_v38 (F := Ideal) x0 x1 x2 x3 x4 x5 x6 x7 x8 x9 x10 x11 x12 x13) x14 x15 x16 x17 := by
  funext i
  have e1 : idx_main_v39 (idx_main_v40 i) = ix1 (i 1) := by idx_eq
  have e2 : idx_main_v45 (idx_main_v46 i) = ix1 (i 1) := by idx_eq
  have e3 : idx_main_v48 (idx_main_v49 i) = ix1 (i 1) := by idx_eq
  have e4 : idx_main_v51 (idx_main_v52 i) = ix1 (i 1) := by idx_eq
  rw [val_main_v53_apply, val_main_v50_apply, val_main_v47_apply, val_main_v41_apply, val_main_v40_apply,
    val_main_v39_apply, val_main_v46_apply, val_main_v45_apply, val_main_v44_apply, val_main_v43_apply,
    val_main_v42_apply, val_main_cst_0_apply, val_main_v49_apply, val_main_v48_apply, val_main_v52_apply,
    val_main_v51_apply, e1, e2, e3, e4]
  simp only [Ideal.addf_def, Ideal.mulf_def, Ideal.hostDivf_def, Ideal.subf_def, Ideal.hostUnary_sqrt_def, Ideal.ofBits_def]
  rfl

/-- The second rectifier. -/
theorem v54_eq : val_main_v54 (F := Ideal) x0 x1 x2 x3 x4 x5 x6 x7 x8 x9 x10 x11 x12 x13 x14 x15 x16 x17 = Spec.relu (val_main_v53 (F := Ideal) x0 x1 x2 x3 x4 x5 x6 x7 x8 x9 x10 x11 x12 x13 x14 x15 x16 x17) := by
  funext i
  rw [val_main_v54_apply, val_main_call1_v0_apply, val_main_call1_cst_apply, Ideal.maximumf_def, Ideal.ofBits_def,
    Ideal.ofBits_zero_f32]
  rfl

/-- The third layer: the ten scores of each row. -/
theorem v59_eq : val_main_v59 (F := Ideal) x0 x1 x2 x3 x4 x5 x6 x7 x8 x9 x10 x11 x12 x13 x14 x15 x16 x17 x18 x19
    = Spec.linM (val_main_v54 (F := Ideal) x0 x1 x2 x3 x4 x5 x6 x7 x8 x9 x10 x11 x12 x13 x14 x15 x16 x17) (Spec.tr x18) x19 := by
  funext i
  rw [val_main_v59_apply, val_main_v56_apply, val_main_v58_apply, val_main_v57_apply, Ideal.addf_def]
  exact congrArg₂ (· + ·)
    (Finset.sum_congr rfl fun k _ => congrArg₂ (· * ·)
      (congrArg (val_main_v54 (F := Ideal) x0 x1 x2 x3 x4 x5 x6 x7 x8 x9 x10 x11 x12 x13 x14 x15 x16 x17) (by idx_eq))
      ((val_main_v55_apply x18 _).trans (congrArg x18 (by idx_eq))))
    (congrArg x19 (by idx_eq))

/-- The row maximum of the scores, as the reference takes it: the reduction from −∞, then the maximum with −∞. -/
theorem call2_v2_eq (p : Fin 10000) : val_main_call2_v2 (F := Ideal) x0 x1 x2 x3 x4 x5 x6 x7 x8 x9 x10 x11 x12 x13 x14 x15 x16 x17 x18 x19 (ix1 p)
    = Spec.rowMax (val_main_v59 (F := Ideal) x0 x1 x2 x3 x4 x5 x6 x7 x8 x9 x10 x11 x12 x13 x14 x15 x16 x17 x18 x19) p := by
  rw [val_main_call2_v2_apply, val_main_call2_v1_apply, val_main_call2_cst_0_apply, Ideal.maximumf_def, Ideal.ofBits_def]
  unfold val_main_call2_v0 val_main_call2_cst
  rw [hostRowMax_eq (val_main_v59 (F := Ideal) x0 x1 x2 x3 x4 x5 x6 x7 x8 x9 x10 x11 x12 x13 x14 x15 x16 x17 x18 x19) reducesTo_S10000x10_S10000_d1 h_S_ p]
  exact max_negInf_left _

/-- The row maximum broadcast back over the ten columns. -/
theorem call2_v4_eq (j : S10000x10.Idx) : val_main_call2_v4 (F := Ideal) x0 x1 x2 x3 x4 x5 x6 x7 x8 x9 x10 x11 x12 x13 x14 x15 x16 x17 x18 x19 j
    = Spec.rowMax (val_main_v59 (F := Ideal) x0 x1 x2 x3 x4 x5 x6 x7 x8 x9 x10 x11 x12 x13 x14 x15 x16 x17 x18 x19) (j 0) := by
  rw [val_main_call2_v4_apply, val_main_call2_v3_apply,
    show idx_main_call2_v3 (idx_main_call2_v4 j) = ix1 (j 0) from by idx_eq]
  exact call2_v2_eq x0 x1 x2 x3 x4 x5 x6 x7 x8 x9 x10 x11 x12 x13 x14 x15 x16 x17 x18 x19 (j 0)

/-- The log-softmax of the scores. -/
theorem v60_eq : val_main_v60 (F := Ideal) x0 x1 x2 x3 x4 x5 x6 x7 x8 x9 x10 x11 x12 x13 x14 x15 x16 x17 x18 x19 = Spec.logSoftmax (val_main_v59 (F := Ideal) x0 x1 x2 x3 x4 x5 x6 x7 x8 x9 x10 x11 x12 x13 x14 x15 x16 x17 x18 x19) := by
  funext i
  have e : ∀ k : Fin 10, idx_main_call2_v7 (idx_main_call2_v8 (idx_main_call2_v10 i)) k = ix2 (i 0) k := fun k => by idx_eq
  rw [val_main_v60_apply, val_main_call2_v5_apply, call2_v4_eq, val_main_call2_v10_apply, val_main_call2_v9_apply,
    val_main_call2_v8_apply, val_main_call2_v7_apply, val_main_call2_cst_1_apply, Ideal.ofBits_def, Ideal.ofBits_zero_f32,
    zero_add, Ideal.hostUnary_log_def, Ideal.subf_def, Ideal.subf_def]
  refine congrArg (fun s => val_main_v59 (F := Ideal) x0 x1 x2 x3 x4 x5 x6 x7 x8 x9 x10 x11 x12 x13 x14 x15 x16 x17 x18 x19 i - Spec.rowMax (val_main_v59 (F := Ideal) x0 x1 x2 x3 x4 x5 x6 x7 x8 x9 x10 x11 x12 x13 x14 x15 x16 x17 x18 x19) (i 0) - Ideal.log s)
    (Finset.sum_congr rfl fun k _ => ?_)
  rw [val_main_call2_v6_apply, val_main_call2_v5_apply, call2_v4_eq, Ideal.hostUnary_exp_def, Ideal.subf_def, e k]
  rfl

/-- The classifier head of the reference is the specification's, on the reference's Z. -/
theorem class_eq : val_main_v60 (F := Ideal) x0 x1 x2 x3 x4 x5 x6 x7 x8 x9 x10 x11 x12 x13 x14 x15 x16 x17 x18 x19
    = Spec.classify (val_main_v12 (F := Ideal) x0 x1 x2 x3 x4 x5) x6 x7 x8 x9 x10 x11 x12 x13 x14 x15 x16 x17 x18 x19 := by
  rw [v60_eq, v59_eq, v54_eq, v53_eq, v38_eq, v33_eq, v32_eq, v17_eq]
  rfl

end Cert.ReferenceIdeal.RefValue

end
-- ==== Proof.RefRecon.lean ====
/-
  The reference's reconstruction head, stage by stage, from Z = [H₁ | H₂] (the value of the concatenation, kept as it is).

  Three linear layers (the product with the transposed weight matrix plus the bias broadcast along the rows) with a
  rectifier (the maximum with the zero word) after the first and the second.
-/
import proofs.«148078_g73521250173546_cont_sun_c4_545_4_alg».proof.Proof.RefReadP
import proofs.«148078_g73521250173546_cont_sun_c4_545_4_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.ReadP Cert.Spec Idealize.ShloMosaic Idealize.ShloMosaic.ValueIdx

/-- Two indices built coordinate by coordinate are equal when their coordinates are. -/
local macro "idx_eq" : tactic => `(tactic| first
  | exact funext fun a => match a with | ⟨0, _⟩ => rfl | ⟨1, _⟩ => rfl
  | exact funext fun a => match a with | ⟨0, _⟩ => rfl)

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
variable (x20 : (⟨S256x192, .f32⟩ : BufTy).Contents (Elt Ideal)) (x21 : (⟨S256, .f32⟩ : BufTy).Contents (Elt Ideal)) (x22 : (⟨S128x256, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal))

/-- The first layer: Z · R₁ᵀ + r₁. -/
theorem v65_eq : val_main_v65 (F := Ideal) x0 x1 x2 x3 x4 x5 x20 x21
    = Spec.linM (val_main_v12 (F := Ideal) x0 x1 x2 x3 x4 x5) (Spec.tr x20) x21 := by
  funext i
  rw [val_main_v65_apply, val_main_v62_apply, val_main_v64_apply, val_main_v63_apply, Ideal.addf_def]
  exact congrArg₂ (· + ·)
    (Finset.sum_congr rfl fun k _ => congrArg₂ (· * ·)
      (congrArg (val_main_v12 (F := Ideal) x0 x1 x2 x3 x4 x5) (by idx_eq))
      ((val_main_v61_apply x20 _).trans (congrArg x20 (by idx_eq))))
    (congrArg x21 (by idx_eq))

/-- The first rectifier. -/
theorem v66_eq : val_main_v66 (F := Ideal) x0 x1 x2 x3 x4 x5 x20 x21 = Spec.relu (val_main_v65 (F := Ideal) x0 x1 x2 x3 x4 x5 x20 x21) := by
  funext i
  rw [val_main_v66_apply, val_main_call3_v0_apply, val_main_call3_cst_apply, Ideal.maximumf_def, Ideal.ofBits_def,
    Ideal.ofBits_zero_f32]
  rfl

/-- The second layer. -/
theorem v71_eq : val_main_v71 (F := Ideal) x0 x1 x2 x3 x4 x5 x20 x21 x22 x23
    = Spec.linM (val_main_v66 (F := Ideal) x0 x1 x2 x3 x4 x5 x20 x21) (Spec.tr x22) x23 := by
  funext i
  rw [val_main_v71_apply, val_main_v68_apply, val_main_v70_apply, val_main_v69_apply, Ideal.addf_def]
  exact congrArg₂ (· + ·)
    (Finset.sum_congr rfl fun k _ => congrArg₂ (· * ·)
      (congrArg (val_main_v66 (F := Ideal) x0 x1 x2 x3 x4 x5 x20 x21) (by idx_eq))
      ((val_main_v67_apply x22 _).trans (congrArg x22 (by idx_eq))))
    (congrArg x23 (by idx_eq))

/-- The second rectifier. -/
theorem v72_eq : val_main_v72 (F := Ideal) x0 x1 x2 x3 x4 x5 x20 x21 x22 x23 = Spec.relu (val_main_v71 (F := Ideal) x0 x1 x2 x3 x4 x5 x20 x21 x22 x23) := by
  funext i
  rw [val_main_v72_apply, val_main_call4_v0_apply, val_main_call4_cst_apply, Ideal.maximumf_def, Ideal.ofBits_def,
    Ideal.ofBits_zero_f32]
  rfl

/-- The third layer. -/
theorem v77_eq : val_main_v77 (F := Ideal) x0 x1 x2 x3 x4 x5 x20 x21 x22 x23 x24 x25
    = Spec.linM (val_main_v72 (F := Ideal) x0 x1 x2 x3 x4 x5 x20 x21 x22 x23) (Spec.tr x24) x25 := by
  funext i
  rw [val_main_v77_apply, val_main_v74_apply, val_main_v76_apply, val_main_v75_apply, Ideal.addf_def]
  exact congrArg₂ (· + ·)
    (Finset.sum_congr rfl fun k _ => congrArg₂ (· * ·)
      (congrArg (val_main_v72 (F := Ideal) x0 x1 x2 x3 x4 x5 x20 x21 x22 x23) (by idx_eq))
      ((val_main_v73_apply x24 _).trans (congrArg x24 (by idx_eq))))
    (congrArg x25 (by idx_eq))

/-- The reconstruction head of the reference is the specification's, on the reference's Z. -/
theorem recon_eq : val_main_v77 (F := Ideal) x0 x1 x2 x3 x4 x5 x20 x21 x22 x23 x24 x25
    = Spec.reconstruct (val_main_v12 (F := Ideal) x0 x1 x2 x3 x4 x5) x20 x21 x22 x23 x24 x25 := by
  rw [v77_eq, v72_eq, v71_eq, v66_eq, v65_eq]
  rfl

end Cert.ReferenceIdeal.RefValue

end
-- ==== Proof.RefSide.lean ====
/-
  The reference program's three results are the specification's functions of the argument arrays.

  The reference is one chain of host operations; it is read one operation at a time, each stage at an index
  from its operands at an index, and every stage is identified with the specification's stage of the same name:
  the two products and graph-convolution layers, the column concatenation Z = [H₁ | H₂], then for each head the
  linear layers (a product with the transposed weight matrix plus a broadcast bias), the two batch normalisations,
  the rectifiers, and the row-wise log-softmax (whose row maximum the reference takes once more against −∞,
  which changes nothing).
-/
import proofs.«148078_g73521250173546_cont_sun_c4_545_4_alg».proof.Proof.RefReadP
import proofs.«148078_g73521250173546_cont_sun_c4_545_4_alg».proof.Proof.Spec
import proofs.«148078_g73521250173546_cont_sun_c4_545_4_alg».proof.Proof.LibPlainDot
import proofs.«148078_g73521250173546_cont_sun_c4_545_4_alg».proof.Proof.RefFeat
import proofs.«148078_g73521250173546_cont_sun_c4_545_4_alg».proof.Proof.RefClass
import proofs.«148078_g73521250173546_cont_sun_c4_545_4_alg».proof.Proof.RefRecon
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.ReadP Cert.Spec Idealize.ShloMosaic Idealize.ShloMosaic.ValueIdx

/-- The third result: Z = [H₁ | H₂]. -/
theorem outZ_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v12 (F := Ideal) x0 x1 x2 x3 x4 x5 = Spec.outZ x0 x1 x2 x3 x4 x5 := by
  exact v12_eq x0 x1 x2 x3 x4 x5

/-- The first result: the classifier head on Z. -/
theorem outClass_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S256x192, .f32⟩ : BufTy).Contents (Elt Ideal)) (x7 x8 x9 x10 x11 : (⟨S256, .f32⟩ : BufTy).Contents (Elt Ideal)) (x12 : (⟨S128x256, .f32⟩ : BufTy).Contents (Elt Ideal)) (x13 x14 x15 x16 x17 : (⟨S128, .f32⟩ : BufTy).Contents (Elt Ideal)) (x18 : (⟨S10x128, .f32⟩ : BufTy).Contents (Elt Ideal)) (x19 : (⟨S10, .f32⟩ : BufTy).Contents (Elt Ideal)) :
    val_main_v60 (F := Ideal) x0 x1 x2 x3 x4 x5 x6 x7 x8 x9 x10 x11 x12 x13 x14 x15 x16 x17 x18 x19
      = Spec.outClass x0 x1 x2 x3 x4 x5 x6 x7 x8 x9 x10 x11 x12 x13 x14 x15 x16 x17 x18 x19 := by
  rw [class_eq, v12_eq]
  rfl

/-- The second result: the reconstruction head on Z. -/
theorem outRecon_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x20 : (⟨S256x192, .f32⟩ : BufTy).Contents (Elt Ideal)) (x21 : (⟨S256, .f32⟩ : BufTy).Contents (Elt Ideal)) (x22 : (⟨S128x256, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) :
    val_main_v77 (F := Ideal) x0 x1 x2 x3 x4 x5 x20 x21 x22 x23 x24 x25
      = Spec.outRecon x0 x1 x2 x3 x4 x5 x20 x21 x22 x23 x24 x25 := by
  rw [recon_eq, v12_eq]
  rfl

end Cert.ReferenceIdeal.RefValue

end
-- ==== Proof.lean ====
/-
  The kernel and the reference compute the same three arrays.

  Both programs are a two-layer graph convolution H₁ = tanh (A·(X·W₁) + b₁), H₂ = tanh (A·(H₁·W₂) + b₂) followed by a
  classifier head (two linear layers with batch normalisation and a rectifier each, a third linear layer, a row-wise
  log-softmax) and a reconstruction head (three linear layers, rectifiers after the first two) on Z = [H₁ | H₂]; the
  results are the two heads' outputs and Z. The reference is one chain of host operations over whole arrays. The
  kernel runs four regions: X·W₁ in one block; H₁ in 50 blocks of 200 adjacency rows; H₁·W₂ in one block; and, again
  in 50 blocks of 200 rows, H₂ and both heads, each head's first layer contracting the 128 columns of H₁ and the 64
  columns of H₂ separately. On the extended reals the two are equal index by index: every float operation is the exact
  one on both sides with the same literal words, a sum over 192 columns is the sum over the first 128 plus the sum over
  the last 64 (addition is commutative and associative there), and every stage acts row by row, so a block of rows of
  the whole result is the result of that block of rows. The precondition is not used: no law that needs finiteness
  enters.

  The specification is Proof/Spec.lean. The reference's results are its functions by Proof/RefSide.lean; the kernel
  program's are by Proof/KFold.lean, over the run of the four regions (Proof/KRun.lean) and each region's
  blocks-to-array step (Proof/KBlocksA.lean, Proof/KBlocksC.lean). The three frame claims are the generated runs.
-/
import proofs.«148078_g73521250173546_cont_sun_c4_545_4_alg».proof.Defs
import proofs.«148078_g73521250173546_cont_sun_c4_545_4_alg».proof.Proof.Gen.Kernel
import proofs.«148078_g73521250173546_cont_sun_c4_545_4_alg».proof.Proof.Gen.KernelIdeal
import proofs.«148078_g73521250173546_cont_sun_c4_545_4_alg».proof.Proof.Gen.ReferenceIdeal
import proofs.«148078_g73521250173546_cont_sun_c4_545_4_alg».proof.Proof.Gen.Pre_finite_inputs
import proofs.«148078_g73521250173546_cont_sun_c4_545_4_alg».proof.Proof.FrameBitsP
import proofs.«148078_g73521250173546_cont_sun_c4_545_4_alg».proof.Proof.FrameIdealP
import proofs.«148078_g73521250173546_cont_sun_c4_545_4_alg».proof.Proof.KRun
import proofs.«148078_g73521250173546_cont_sun_c4_545_4_alg».proof.Proof.KFold
import proofs.«148078_g73521250173546_cont_sun_c4_545_4_alg».proof.Proof.RefRunP
import proofs.«148078_g73521250173546_cont_sun_c4_545_4_alg».proof.Proof.RefReadP
import proofs.«148078_g73521250173546_cont_sun_c4_545_4_alg».proof.Proof.RefReadEqP
import proofs.«148078_g73521250173546_cont_sun_c4_545_4_alg».proof.Proof.RefSide
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.GenP.frame m ρ

theorem frame_kernelIdeal : Cert.frame_KernelIdeal := fun m ρ _ => Cert.KernelIdeal.GenP.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- Equal arguments give equal results (Z). -/
theorem outZ_congr {X X' : Cert.Spec.Mat 10000 128} {A A' : Cert.Spec.Mat 10000 10000} {W₁ W₁' : Cert.Spec.Mat 128 128}
    {b₁ b₁' : Cert.Spec.Row 128} {W₂ W₂' : Cert.Spec.Mat 128 64} {b₂ b₂' : Cert.Spec.Row 64}
    (h0 : X = X') (h1 : A = A') (h2 : W₁ = W₁') (h3 : b₁ = b₁') (h4 : W₂ = W₂') (h5 : b₂ = b₂') :
    Cert.Spec.outZ X A W₁ b₁ W₂ b₂ = Cert.Spec.outZ X' A' W₁' b₁' W₂' b₂' := by
  subst h0 h1 h2 h3 h4 h5; rfl

/-- Equal arguments give equal results (classifier head). -/
theorem outClass_congr {X X' : Cert.Spec.Mat 10000 128} {A A' : Cert.Spec.Mat 10000 10000} {W₁ W₁' : Cert.Spec.Mat 128 128}
    {b₁ b₁' : Cert.Spec.Row 128} {W₂ W₂' : Cert.Spec.Mat 128 64} {b₂ b₂' : Cert.Spec.Row 64}
    {C₁ C₁' : Cert.Spec.Mat 256 192} {c₁ c₁' γ₁ γ₁' β₁ β₁' μ₁ μ₁' σ₁ σ₁' : Cert.Spec.Row 256}
    {C₂ C₂' : Cert.Spec.Mat 128 256} {c₂ c₂' γ₂ γ₂' β₂ β₂' μ₂ μ₂' σ₂ σ₂' : Cert.Spec.Row 128}
    {C₃ C₃' : Cert.Spec.Mat 10 128} {c₃ c₃' : Cert.Spec.Row 10}
    (h0 : X = X') (h1 : A = A') (h2 : W₁ = W₁') (h3 : b₁ = b₁') (h4 : W₂ = W₂') (h5 : b₂ = b₂')
    (h6 : C₁ = C₁') (h7 : c₁ = c₁') (h8 : γ₁ = γ₁') (h9 : β₁ = β₁') (h10 : μ₁ = μ₁') (h11 : σ₁ = σ₁')
    (h12 : C₂ = C₂') (h13 : c₂ = c₂') (h14 : γ₂ = γ₂') (h15 : β₂ = β₂') (h16 : μ₂ = μ₂') (h17 : σ₂ = σ₂')
    (h18 : C₃ = C₃') (h19 : c₃ = c₃') :
    Cert.Spec.outClass X A W₁ b₁ W₂ b₂ C₁ c₁ γ₁ β₁ μ₁ σ₁ C₂ c₂ γ₂ β₂ μ₂ σ₂ C₃ c₃
      = Cert.Spec.outClass X' A' W₁' b₁' W₂' b₂' C₁' c₁' γ₁' β₁' μ₁' σ₁' C₂' c₂' γ₂' β₂' μ₂' σ₂' C₃' c₃' := by
  subst h0 h1 h2 h3 h4 h5 h6 h7 h8 h9 h10 h11 h12 h13 h14 h15 h16 h17 h18 h19; rfl

/-- Equal arguments give equal results (reconstruction head). -/
theorem outRecon_congr {X X' : Cert.Spec.Mat 10000 128} {A A' : Cert.Spec.Mat 10000 10000} {W₁ W₁' : Cert.Spec.Mat 128 128}
    {b₁ b₁' : Cert.Spec.Row 128} {W₂ W₂' : Cert.Spec.Mat 128 64} {b₂ b₂' : Cert.Spec.Row 64}
    {R₁ R₁' : Cert.Spec.Mat 256 192} {r₁ r₁' : Cert.Spec.Row 256} {R₂ R₂' : Cert.Spec.Mat 128 256} {r₂ r₂' : Cert.Spec.Row 128}
    {R₃ R₃' : Cert.Spec.Mat 128 128} {r₃ r₃' : Cert.Spec.Row 128}
    (h0 : X = X') (h1 : A = A') (h2 : W₁ = W₁') (h3 : b₁ = b₁') (h4 : W₂ = W₂') (h5 : b₂ = b₂')
    (h20 : R₁ = R₁') (h21 : r₁ = r₁') (h22 : R₂ = R₂') (h23 : r₂ = r₂') (h24 : R₃ = R₃') (h25 : r₃ = r₃') :
    Cert.Spec.outRecon X A W₁ b₁ W₂ b₂ R₁ r₁ R₂ r₂ R₃ r₃ = Cert.Spec.outRecon X' A' W₁' b₁' W₂' b₂' R₁' r₁' R₂' r₂' R₃' r₃' := by
  subst h0 h1 h2 h3 h4 h5 h20 h21 h22 h23 h24 h25; rfl

set_option maxHeartbeats 2000000 in
/-- At the ideal instance the kernel program ends with the classifier head, the reconstruction head and Z of its
    arguments (the fold through its four regions), and the reference with the same functions of arguments that agree. -/
theorem algebraic : Cert.algebraic_KernelIdeal_ReferenceIdeal := by
  intro m ρ m' ρ' _ hagree
  refine ⟨fun c => Cert.Spec.outClass (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.Spec.outRecon (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    fun c => Cert.Spec.outZ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Whole.run_all (F := Ideal) m ρ)
    exact ⟨(h.2 c _ (Cert.KernelIdeal.GenP.mem_uc Cert.KernelIdeal.main_v29_0 (by decide))).trans (Cert.KernelIdeal.Fold.outClass_eq m ρ c),
      (h.2 c _ (Cert.KernelIdeal.GenP.mem_uc Cert.KernelIdeal.main_v29_1 (by decide))).trans (Cert.KernelIdeal.Fold.outRecon_eq m ρ c),
      (h.2 c _ (Cert.KernelIdeal.GenP.mem_uc Cert.KernelIdeal.main_v29_2 (by decide))).trans (Cert.KernelIdeal.Fold.outZ_eq m ρ c),
      h.1 c⟩
  · refine (θ_run Cert.ReferenceIdeal.defs _ _).mono (fun r h c => ?_) (Cert.ReferenceIdeal.ValueP.run (F := Ideal) m' ρ')
    obtain ⟨h0, h1, h2, hargs⟩ := h c
    obtain ⟨e0, e1, e2, e3, e4, e5, e6, e7, e8, e9, e10, e11, e12, e13, e14, e15, e16, e17, e18, e19, e20, e21, e22, e23, e24, e25⟩ := hagree c
    refine ⟨h0.trans ?_, h1.trans ?_, h2.trans ?_, hargs⟩
    · exact (Cert.ReferenceIdeal.ReadP.val_main_v60_eq m' c).trans ((Cert.ReferenceIdeal.RefValue.outClass_eq _ _ _ _ _ _ _ _ _ _ _ _ _ _ _ _ _ _ _ _).trans
        (outClass_congr e0 e1 e2 e3 e4 e5 e6 e7 e8 e9 e10 e11 e12 e13 e14 e15 e16 e17 e18 e19))
    · refine (Cert.ReferenceIdeal.ReadP.val_main_v77_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))).trans ?_
      exact (Cert.ReferenceIdeal.RefValue.outRecon_eq _ _ _ _ _ _ _ _ _ _ _ _).trans (outRecon_congr e0 e1 e2 e3 e4 e5 e20 e21 e22 e23 e24 e25)
    · refine (Cert.ReferenceIdeal.ReadP.val_main_v12_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans ?_
      exact (Cert.ReferenceIdeal.RefValue.outZ_eq _ _ _ _ _ _).trans (outZ_congr e0 e1 e2 e3 e4 e5)

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial, Claims.algebraic⟩

end Cert.Proof

end
